-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x16 : Shape := ⟨2, ![500000, 16]⟩
abbrev S2x100000 : Shape := ⟨2, ![2, 100000]⟩
abbrev S128x128 : Shape := ⟨2, ![128, 128]⟩
abbrev S128 : Shape := ⟨1, ![128]⟩
abbrev S272x128 : Shape := ⟨2, ![272, 128]⟩
abbrev S256x2 : Shape := ⟨2, ![256, 2]⟩
abbrev S2 : Shape := ⟨1, ![2]⟩
abbrev S_ : Shape := ⟨0, ![]⟩
abbrev S1x500000 : Shape := ⟨2, ![1, 500000]⟩
abbrev S500000 : Shape := ⟨1, ![500000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S272x128 : S_.BroadcastsInDim S272x128 (![] : Fin 0 → Fin S272x128.rank)
  reducesTo_S272x128_S_d0_1 : S272x128.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_
  bcast_S_S2x100000 : S_.BroadcastsInDim S2x100000 (![] : Fin 0 → Fin S2x100000.rank)
  reducesTo_S2x100000_S_d0_1 : S2x100000.ReducesTo [0, 1] S_

variable [Facts]

def fn_part4 {F : FTy → Type} [FloatOps F] (main_arg3 : IVec S2x100000 32) (main_v58 : IVec S_ 1) (main_v68 : IVec S_ 1) : IVec S_ 1 :=
  let main_v69 : IVec S_ 1 := andi main_v58 main_v68
  let main_c_25 : IVec S_ 32 := constantI S_ 32 0#32
  let main_v70 : IVec S2x100000 32 := broadcastInDim S2x100000 ![] bcast_S_S2x100000 main_c_25
  let main_v71 : IVec S2x100000 1 := cmpi .sge main_arg3 main_v70
  let main_c_26 : IVec S_ 32 := constantI S_ 32 50000#32
  let main_v72 : IVec S2x100000 32 := broadcastInDim S2x100000 ![] bcast_S_S2x100000 main_c_26
  let main_v73 : IVec S2x100000 1 := cmpi .slt main_arg3 main_v72
  let main_v74 : IVec S2x100000 1 := andi main_v71 main_v73
  let main_c_27 : IVec S_ 1 := constantI S_ 1 1#1
  let main_v75 : IVec S_ 1 := (fun x v => Host.reduce IntOp.andi x v reducesTo_S2x100000_S_d0_1 h_S_) main_v74 main_c_27
  let main_v76 : IVec S_ 1 := andi main_v69 main_v75
  main_v76

def fn_part3 {F : FTy → Type} [FloatOps F] (main_arg1 : IVec S2x500000 32) (main_arg3 : IVec S2x100000 32) (main_arg13 : FVec F S2 .f32) (main_v48 : IVec S_ 1) (main_v49 : FVec F S256x2 .f32) (main_v50 : FVec F S256x2 .f32) : IVec S_ 1 :=
  let main_v51 : IVec S256x2 1 := cmpf .olt main_v49 main_v50
  let main_c_19 : IVec S_ 1 := constantI S_ 1 1#1
  let main_v52 : IVec S_ 1 := (fun x v => Host.reduce IntOp.andi x v reducesTo_S256x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : IVec S1x500000 32 := (extractStridedSlice S1x500000 ![0, 0] · slices_S2x500000_S1x500000_0_0) main_arg1
  let main_v60 : IVec S500000 32 := shapeCast S500000 main_v59 shapeCasts_S1x500000_S500000
  let main_c_22 : IVec S_ 32 := constantI S_ 32 0#32
  let main_v61 : IVec S500000 32 := broadcastInDim S500000 ![] bcast_S_S500000 main_c_22
  let main_v62 : IVec S500000 1 := cmpi .sge main_v60 main_v61
  let main_v63 : IVec S1x500000 32 := (extractStridedSlice S1x500000 ![0, 0] · slices_S2x500000_S1x500000_0_0) main_arg1
  let main_v64 : IVec S500000 32 := shapeCast S500000 main_v63 shapeCasts_S1x500000_S500000
  let main_c_23 : IVec S_ 32 := constantI S_ 32 50000#32
  let main_v65 : IVec S500000 32 := broadcastInDim S500000 ![] bcast_S_S500000 main_c_23
  let main_v66 : IVec S500000 1 := cmpi .slt main_v64 main_v65
  let main_v67 : IVec S500000 1 := andi main_v62 main_v66
  let main_c_24 : IVec S_ 1 := constantI S_ 1 1#1
  let main_v68 : IVec S_ 1 := (fun x v => Host.reduce IntOp.andi x v reducesTo_S500000_S_d0 h_S_) main_v67 main_c_24
  fn_part4 (F := F) main_arg3 main_v58 main_v68

def fn_part2 {F : FTy → Type} [FloatOps F] (main_arg1 : IVec S2x500000 32) (main_arg3 : IVec S2x100000 32) (main_arg9 : FVec F S128 .f32) (main_arg10 : FVec F S272x128 .f32) (main_arg11 : FVec F S128 .f32) (main_arg12 : FVec F S256x2 .f32) (main_arg13 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S272x128 .f32 := Host.absf main_arg10
  let main_cst_14 : FVec F S_ .f32 := constant S_ .f32 0x7F800000#32
  let main_v40 : FVec F S272x128 .f32 := broadcastInDim S272x128 ![] bcast_S_S272x128 main_cst_14
  let main_v41 : IVec S272x128 1 := cmpf .olt main_v39 main_v40
  let main_c_15 : IVec S_ 1 := constantI S_ 1 1#1
  let main_v42 : IVec S_ 1 := (fun x v => Host.reduce IntOp.andi x v reducesTo_S272x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x2 .f32 := Host.absf main_arg12
  let main_cst_18 : FVec F S_ .f32 := constant S_ .f32 0x7F800000#32
  let main_v50 : FVec F S256x2 .f32 := broadcastInDim S256x2 ![] bcast_S_S256x2 main_cst_18
  fn_part3 (F := F) main_arg1 main_arg3 main_arg13 main_v48 main_v49 main_v50

def fn_part1 {F : FTy → Type} [FloatOps F] (main_arg1 : IVec S2x500000 32) (main_arg3 : IVec S2x100000 32) (main_arg6 : FVec F S272x128 .f32) (main_arg7 : FVec F S128 .f32) (main_arg8 : FVec F S128x128 .f32) (main_arg9 : FVec F S128 .f32) (main_arg10 : FVec F S272x128 .f32) (main_arg11 : FVec F S128 .f32) (main_arg12 : FVec F S256x2 .f32) (main_arg13 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S272x128 .f32 := Host.absf main_arg6
  let main_cst_6 : FVec F S_ .f32 := constant S_ .f32 0x7F800000#32
  let main_v20 : FVec F S272x128 .f32 := broadcastInDim S272x128 ![] bcast_S_S272x128 main_cst_6
  let main_v21 : IVec S272x128 1 := cmpf .olt main_v19 main_v20
  let main_c_7 : IVec S_ 1 := constantI S_ 1 1#1
  let main_v22 : IVec S_ 1 := (fun x v => Host.reduce IntOp.andi x v reducesTo_S272x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg3 main_arg9 main_arg10 main_arg11 main_arg12 main_arg13 main_v33

def fn {F : FTy → Type} [FloatOps F] (main_arg0 : FVec F S50000x128 .f32) (main_arg1 : IVec S2x500000 32) (main_arg2 : FVec F S500000x16 .f32) (main_arg3 : IVec S2x100000 32) (main_arg4 : FVec F S128x128 .f32) (main_arg5 : FVec F S128 .f32) (main_arg6 : FVec F S272x128 .f32) (main_arg7 : FVec F S128 .f32) (main_arg8 : FVec F S128x128 .f32) (main_arg9 : FVec F S128 .f32) (main_arg10 : FVec F S272x128 .f32) (main_arg11 : FVec F S128 .f32) (main_arg12 : FVec F S256x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x16 .f32 := Host.absf main_arg2
  let main_cst_0 : FVec F S_ .f32 := constant S_ .f32 0x7F800000#32
  let main_v5 : FVec F S500000x16 .f32 := broadcastInDim S500000x16 ![] bcast_S_S500000x16 main_cst_0
  let main_v6 : IVec S500000x16 1 := cmpf .olt main_v4 main_v5
  let main_c_1 : IVec S_ 1 := constantI S_ 1 1#1
  let main_v7 : IVec S_ 1 := (fun x v => Host.reduce IntOp.andi x v reducesTo_S500000x16_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_arg6 main_arg7 main_arg8 main_arg9 main_arg10 main_arg11 main_arg12 main_arg13 main_v13 main_v16
-- ==== Kernel.lean ====
abbrev S50000x128 : Shape := ⟨2, ![50000, 128]⟩
abbrev S2x500000 : Shape := ⟨2, ![2, 500000]⟩
abbrev S500000x16 : Shape := ⟨2, ![500000, 16]⟩
abbrev S2x100000 : Shape := ⟨2, ![2, 100000]⟩
abbrev S128x128 : Shape := ⟨2, ![128, 128]⟩
abbrev S128 : Shape := ⟨1, ![128]⟩
abbrev S272x128 : Shape := ⟨2, ![272, 128]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S16x128 : Shape := ⟨2, ![16, 128]⟩
abbrev S128x256 : Shape := ⟨2, ![128, 256]⟩
abbrev S1x128 : Shape := ⟨2, ![1, 128]⟩
abbrev S50000x256 : Shape := ⟨2, ![50000, 256]⟩
abbrev S10000x128 : Shape := ⟨2, ![10000, 128]⟩
abbrev S10000x256 : Shape := ⟨2, ![10000, 256]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S10000x16 : Shape := ⟨2, ![10000, 16]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩
abbrev S100000x256 : Shape := ⟨2, ![100000, 256]⟩
abbrev S100000x2 : Shape := ⟨2, ![100000, 2]⟩
abbrev S1x2 : Shape := ⟨2, ![1, 2]⟩

abbrev nBuf : Space → Nat
  | .hbm => 196
  | .vmem => 34
  | .smem => 0
  | _ => 0

abbrev hbmTy0_0 (i : Nat) : BufTy := match i % 128 with
  | 0 => ⟨S50000x128, .f32⟩
  | 1 => ⟨S2x500000, .i32⟩
  | 2 => ⟨S500000x16, .f32⟩
  | 3 => ⟨S2x100000, .i32⟩
  | 4 => ⟨S128x128, .f32⟩
  | 5 => ⟨S128, .f32⟩
  | 6 => ⟨S272x128, .f32⟩
  | 7 => ⟨S128, .f32⟩
  | 8 => ⟨S128x128, .f32⟩
  | 9 => ⟨S128, .f32⟩
  | 10 => ⟨S272x128, .f32⟩
  | 11 => ⟨S128, .f32⟩
  | 12 => ⟨S256x2, .f32⟩
  | 13 => ⟨S2, .f32⟩
  | 14 => ⟨S1x500000, .i32⟩
  | 15 => ⟨S500000, .i32⟩
  | 16 => ⟨S1x500000, .i32⟩
  | 17 => ⟨S500000, .i32⟩
  | 18 => ⟨S128x128, .f32⟩
  | 19 => ⟨S128x128, .f32⟩
  | 20 => ⟨S16x128, .f32⟩
  | 21 => ⟨S128x256, .f32⟩
  | 22 => ⟨S1x128, .f32⟩
  | 23 => ⟨S50000x256, .f32⟩
  | 24 => ⟨S50000x128, .f32⟩
  | 25 => ⟨S50000x128, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S1, .i32⟩
  | 35 => ⟨S_, .i32⟩
  | 36 => ⟨S500000x1, .i32⟩
  | 37 => ⟨S500000x1, .i1⟩
  | 38 => ⟨S1x1, .i32⟩
  | 39 => ⟨S500000x1, .i32⟩
  | 40 => ⟨S500000x1, .i1⟩
  | 41 => ⟨S500000x1, .i1⟩
  | 42 => ⟨S_, .i1⟩
  | 43 => ⟨S500000, .i1⟩
  | 44 => ⟨S500000x128, .f32⟩
  | 45 => ⟨S500000x128, .i1⟩
  | 46 => ⟨S_, .f32⟩
  | 47 => ⟨S500000x128, .f32⟩
  | 48 => ⟨S500000x128, .f32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S500000x1, .i32⟩
  | 57 => ⟨S1, .i32⟩
  | 58 => ⟨S_, .i32⟩
  | 59 => ⟨S500000x1, .i32⟩
  | 60 => ⟨S500000x1, .i1⟩
  | 61 => ⟨S1x1, .i32⟩
  | 62 => ⟨S500000x1, .i32⟩
  | 63 => ⟨S500000x1, .i1⟩
  | 64 => ⟨S500000x1, .i1⟩
  | 65 => ⟨S_, .i1⟩
  | 66 => ⟨S500000, .i1⟩
  | 67 => ⟨S500000x128, .f32⟩
  | 68 => ⟨S500000x128, .i1⟩
  | 69 => ⟨S_, .f32⟩
  | 70 => ⟨S500000x128, .f32⟩
  | 71 => ⟨S500000x128, .f32⟩
  | 72 => ⟨S1x128, .f32⟩
  | 73 => ⟨S500000x128, .f32⟩
  | 74 => ⟨S_, .f32⟩
  | 75 => ⟨S50000x128, .f32⟩
  | 76 => ⟨S500000x1, .i32⟩
  | 77 => ⟨S50000x128, .f32⟩
  | 78 => ⟨S_, .f32⟩
  | 79 => ⟨S50000x128, .f32⟩
  | 80 => ⟨S50000x128, .f32⟩
  | 81 => ⟨S128x128, .f32⟩
  | 82 => ⟨S128x128, .f32⟩
  | 83 => ⟨S16x128, .f32⟩
  | 84 => ⟨S128x256, .f32⟩
  | 85 => ⟨S1x128, .f32⟩
  | 86 => ⟨S50000x256, .f32⟩
  | 87 => ⟨S50000x128, .f32⟩
  | 88 => ⟨S50000x128, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S1, .i32⟩
  | 98 => ⟨S_, .i32⟩
  | 99 => ⟨S500000x1, .i32⟩
  | 100 => ⟨S500000x1, .i1⟩
  | 101 => ⟨S1x1, .i32⟩
  | 102 => ⟨S500000x1, .i32⟩
  | 103 => ⟨S500000x1, .i1⟩
  | 104 => ⟨S500000x1, .i1⟩
  | 105 => ⟨S_, .i1⟩
  | 106 => ⟨S500000, .i1⟩
  | 107 => ⟨S500000x128, .f32⟩
  | 108 => ⟨S500000x128, .i1⟩
  | 109 => ⟨S_, .f32⟩
  | 110 => ⟨S500000x128, .f32⟩
  | 111 => ⟨S500000x128, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S1, .i32⟩
  | 121 => ⟨S_, .i32⟩
  | 122 => ⟨S500000x1, .i32⟩
  | 123 => ⟨S500000x1, .i1⟩
  | 124 => ⟨S1x1, .i32⟩
  | 125 => ⟨S500000x1, .i32⟩
  | 126 => ⟨S500000x1, .i1⟩
  | 127 => ⟨S500000x1, .i1⟩
  | _ => ⟨S50000x128, .f32⟩

abbrev hbmTy0_1 (i : Nat) : BufTy := match i % 128 with
  | 0 => ⟨S_, .i1⟩
  | 1 => ⟨S500000, .i1⟩
  | 2 => ⟨S500000x128, .f32⟩
  | 3 => ⟨S500000x128, .i1⟩
  | 4 => ⟨S_, .f32⟩
  | 5 => ⟨S500000x128, .f32⟩
  | 6 => ⟨S500000x128, .f32⟩
  | 7 => ⟨S1x128, .f32⟩
  | 8 => ⟨S500000x128, .f32⟩
  | 9 => ⟨S_, .f32⟩
  | 10 => ⟨S50000x128, .f32⟩
  | 11 => ⟨S500000x1, .i32⟩
  | 12 => ⟨S50000x128, .f32⟩
  | 13 => ⟨S1x100000, .i32⟩
  | 14 => ⟨S100000, .i32⟩
  | 15 => ⟨S1x100000, .i32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S1, .i32⟩
  | 26 => ⟨S_, .i32⟩
  | 27 => ⟨S100000x1, .i32⟩
  | 28 => ⟨S100000x1, .i1⟩
  | 29 => ⟨S1x1, .i32⟩
  | 30 => ⟨S100000x1, .i32⟩
  | 31 => ⟨S100000x1, .i1⟩
  | 32 => ⟨S100000x1, .i1⟩
  | 33 => ⟨S_, .i1⟩
  | 34 => ⟨S100000, .i1⟩
  | 35 => ⟨S100000x128, .f32⟩
  | 36 => ⟨S100000x128, .i1⟩
  | 37 => ⟨S_, .f32⟩
  | 38 => ⟨S100000x128, .f32⟩
  | 39 => ⟨S100000x128, .f32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S1, .i32⟩
  | 49 => ⟨S_, .i32⟩
  | 50 => ⟨S100000x1, .i32⟩
  | 51 => ⟨S100000x1, .i1⟩
  | 52 => ⟨S1x1, .i32⟩
  | 53 => ⟨S100000x1, .i32⟩
  | 54 => ⟨S100000x1, .i1⟩
  | 55 => ⟨S100000x1, .i1⟩
  | 56 => ⟨S_, .i1⟩
  | 57 => ⟨S100000, .i1⟩
  | 58 => ⟨S100000x128, .f32⟩
  | 59 => ⟨S100000x128, .i1⟩
  | 60 => ⟨S_, .f32⟩
  | 61 => ⟨S100000x128, .f32⟩
  | 62 => ⟨S100000x128, .f32⟩
  | 63 => ⟨S100000x256, .f32⟩
  | 64 => ⟨S100000x2, .f32⟩
  | 65 => ⟨S1x2, .f32⟩
  | 66 => ⟨S100000x2, .f32⟩
  | 67 => ⟨S100000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x256, .f32⟩
  | .local _ .vmem, ⟨5, _⟩ => ⟨S10000x256, .f32⟩
  | .local _ .vmem, ⟨6, _⟩ => ⟨S10000x256, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x16, .f32⟩
  | .local _ .vmem, ⟨12, _⟩ => ⟨S10000x16, .f32⟩
  | .local _ .vmem, ⟨13, _⟩ => ⟨S16x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S128x128, .f32⟩
  | .local _ .vmem, ⟨20, _⟩ => ⟨S1x128, .f32⟩
  | .local _ .vmem, ⟨21, _⟩ => ⟨S128x256, .f32⟩
  | .local _ .vmem, ⟨22, _⟩ => ⟨S10000x256, .f32⟩
  | .local _ .vmem, ⟨23, _⟩ => ⟨S10000x256, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x16, .f32⟩
  | .local _ .vmem, ⟨29, _⟩ => ⟨S10000x16, .f32⟩
  | .local _ .vmem, ⟨30, _⟩ => ⟨S16x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v12 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_call2_cst : Ref sig .tc := ⟨.hbm, 78, rfl⟩
abbrev main_call2_v0 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v28 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_call4_cst : Ref sig .tc := ⟨.hbm, 132, rfl⟩
abbrev main_call4_v15 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_cst_0 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_call5_c : Ref sig .tc := ⟨.hbm, 145, rfl⟩
abbrev main_call5_v0 : Ref sig .tc := ⟨.hbm, 146, rfl⟩
abbrev main_call5_v1 : Ref sig .tc := ⟨.hbm, 147, rfl⟩
abbrev main_call5_c_0 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_call5_v5 : Ref sig .tc := ⟨.hbm, 152, rfl⟩
abbrev main_call5_c_1 : Ref sig .tc := ⟨.hbm, 153, rfl⟩
abbrev main_call5_c_2 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_3 : Ref sig .tc := ⟨.hbm, 161, rfl⟩
abbrev main_call5_v12 : Ref sig .tc := ⟨.hbm, 162, rfl⟩
abbrev main_call5_v13 : Ref sig .tc := ⟨.hbm, 163, rfl⟩
abbrev main_call5_v14 : Ref sig .tc := ⟨.hbm, 164, rfl⟩
abbrev main_call5_cst : Ref sig .tc := ⟨.hbm, 165, rfl⟩
abbrev main_call5_v15 : Ref sig .tc := ⟨.hbm, 166, rfl⟩
abbrev main_v39 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v40 : Ref sig .tc := ⟨.hbm, 190, rfl⟩
abbrev main_v41 : Ref sig .tc := ⟨.hbm, 191, rfl⟩
abbrev main_v42 : Ref sig .tc := ⟨.hbm, 192, rfl⟩
abbrev main_v43 : Ref sig .tc := ⟨.hbm, 193, rfl⟩
abbrev main_v44 : Ref sig .tc := ⟨.hbm, 194, rfl⟩
abbrev main_v45 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S272x128_S128x128_0_0 : S272x128.Slices ![0, 0] S128x128
  slices_S272x128_S128x128_128_0 : S272x128.Slices ![128, 0] S128x128
  slices_S272x128_S16x128_256_0 : S272x128.Slices ![256, 0] S16x128
  concatenates_S128x128_S128x128_S128x256_d1 : Shape.Concatenates [S128x128, S128x128] S128x256 1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x256_S10000x256_0_0 : ∀ a, (![0, 0] : Fin 2 → Nat) a + S10000x256.size a ≤ S10000x256.size a
  h_S10000x256 : 0 < S10000x256.numel
  slices_S50000x256_S50000x128_0_0 : S50000x256.Slices ![0, 0] S50000x128
  slices_S50000x256_S50000x128_0_128 : S50000x256.Slices ![0, 128] S50000x128
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S10000x128_S10000x128 : S10000x128.ShapeCasts S10000x128
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  bcast_S_S50000x128 : S_.BroadcastsInDim S50000x128 (![] : Fin 0 → Fin S50000x128.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1x1_S100000x1_0_1 : S1x1.BroadcastsInDim S100000x1 (![0, 1] : Fin 2 → Fin S100000x1.rank)
  reducesTo_S100000x1_S100000_d1 : S100000x1.ReducesTo [1] S100000
  bcast_S100000_S100000x128_0 : S100000.BroadcastsInDim S100000x128 (![0] : Fin 1 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []
  gather_S50000x128_S500000x1_S500000x128_1_0_n_n_0_1_1128_wf : GatherDims.WF S50000x128 S500000x1 S500000x128 [1] [0] [] [0] [] 1 ![1, 128]
  dot_S10000x16_S16x128_S10000x128_1_0_0_1_n_n_wf : DotDims.WF S10000x16 S16x128 S10000x128 [1] [0] [0] [1] [] []
  scatter_S50000x128_S500000x1_S500000x128_1_0_0_1_wf : ScatterDims.WF S50000x128 S500000x1 S500000x128 [1] [0] [0] 1
  gather_S50000x128_S100000x1_S100000x128_1_0_n_n_0_1_1128_wf : GatherDims.WF S50000x128 S100000x1 S100000x128 [1] [0] [] [0] [] 1 ![1, 128]
  dot_S100000x256_S256x2_S100000x2_1_0_0_1_n_n_wf : DotDims.WF S100000x256 S256x2 S100000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x256.size a ≤ S50000x256.size a
  hwx0_4 : ∀ i : grid0.Coords, EltTy.bits .f32 = 32 ∨ (Rect.block (s := S50000x256) S10000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S500000x128.size a
  hwx1_1 : ∀ i : grid1.Coords, EltTy.bits .f32 = 32 ∨ (Rect.block (s := S500000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S500000x16.size a
  hwx1_2 : ∀ i : grid1.Coords, EltTy.bits .f32 = 32 ∨ (Rect.block (s := S500000x16) S10000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S16x128.size a
  hwx1_3 : ∀ i : grid1.Coords, EltTy.bits .f32 = 32 ∨ (Rect.block (s := S16x128) S16x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S500000x128.size a
  hwx1_5 : ∀ i : grid1.Coords, EltTy.bits .f32 = 32 ∨ (Rect.block (s := S500000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x256.size a ≤ S50000x256.size a
  hwx2_4 : ∀ i : grid2.Coords, EltTy.bits .f32 = 32 ∨ (Rect.block (s := S50000x256) S10000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S500000x128.size a
  hwx3_0 : ∀ i : grid3.Coords, EltTy.bits .f32 = 32 ∨ (Rect.block (s := S500000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S500000x128.size a
  hwx3_1 : ∀ i : grid3.Coords, EltTy.bits .f32 = 32 ∨ (Rect.block (s := S500000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S500000x16.size a
  hwx3_2 : ∀ i : grid3.Coords, EltTy.bits .f32 = 32 ∨ (Rect.block (s := S500000x16) S10000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x128.size a ≤ S16x128.size a
  hwx3_3 : ∀ i : grid3.Coords, EltTy.bits .f32 = 32 ∨ (Rect.block (s := S16x128) S16x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S500000x128.size a
  hwx3_5 : ∀ i : grid3.Coords, EltTy.bits .f32 = 32 ∨ (Rect.block (s := S500000x128) S10000x128.size (cc3_transform_5 i) (hinb3_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S10000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S10000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S16x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v19) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S10000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S10000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S16x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v31) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x16 : Shape := ⟨2, ![500000, 16]⟩
abbrev S2x100000 : Shape := ⟨2, ![2, 100000]⟩
abbrev S128x128 : Shape := ⟨2, ![128, 128]⟩
abbrev S128 : Shape := ⟨1, ![128]⟩
abbrev S272x128 : Shape := ⟨2, ![272, 128]⟩
abbrev S256x2 : Shape := ⟨2, ![256, 2]⟩
abbrev S2 : Shape := ⟨1, ![2]⟩
abbrev S1x128 : Shape := ⟨2, ![1, 128]⟩
abbrev S_ : Shape := ⟨0, ![]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x272 : Shape := ⟨2, ![500000, 272]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩
abbrev S100000x256 : Shape := ⟨2, ![100000, 256]⟩
abbrev S100000x2 : Shape := ⟨2, ![100000, 2]⟩
abbrev S1x2 : Shape := ⟨2, ![1, 2]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x16, .f32⟩
  | .hbm, ⟨3, _⟩ => ⟨S2x100000, .i32⟩
  | .hbm, ⟨4, _⟩ => ⟨S128x128, .f32⟩
  | .hbm, ⟨5, _⟩ => ⟨S128, .f32⟩
  | .hbm, ⟨6, _⟩ => ⟨S272x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S272x128, .f32⟩
  | .hbm, ⟨11, _⟩ => ⟨S128, .f32⟩
  | .hbm, ⟨12, _⟩ => ⟨S256x2, .f32⟩
  | .hbm, ⟨13, _⟩ => ⟨S2, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S_, .f32⟩
  | .hbm, ⟨19, _⟩ => ⟨S50000x128, .f32⟩
  | .hbm, ⟨20, _⟩ => ⟨S50000x128, .f32⟩
  | .hbm, ⟨21, _⟩ => ⟨S1x500000, .i32⟩
  | .hbm, ⟨22, _⟩ => ⟨S500000, .i32⟩
  | .hbm, ⟨23, _⟩ => ⟨S1x500000, .i32⟩
  | .hbm, ⟨24, _⟩ => ⟨S500000, .i32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S500000x128, .f32⟩
  | .hbm, ⟨43, _⟩ => ⟨S500000x272, .f32⟩
  | .hbm, ⟨44, _⟩ => ⟨S500000x128, .f32⟩
  | .hbm, ⟨45, _⟩ => ⟨S1x128, .f32⟩
  | .hbm, ⟨46, _⟩ => ⟨S500000x128, .f32⟩
  | .hbm, ⟨47, _⟩ => ⟨S500000x128, .f32⟩
  | .hbm, ⟨48, _⟩ => ⟨S_, .f32⟩
  | .hbm, ⟨49, _⟩ => ⟨S50000x128, .f32⟩
  | .hbm, ⟨50, _⟩ => ⟨S500000x1, .i32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S1x500000, .i32⟩
  | .hbm, ⟨63, _⟩ => ⟨S500000, .i32⟩
  | .hbm, ⟨64, _⟩ => ⟨S1x500000, .i32⟩
  | .hbm, ⟨65, _⟩ => ⟨S500000, .i32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x128, .f32⟩
  | .hbm, ⟨75, _⟩ => ⟨S_, .i32⟩
  | .hbm, ⟨76, _⟩ => ⟨S500000, .i32⟩
  | .hbm, ⟨77, _⟩ => ⟨S500000, .i1⟩
  | .hbm, ⟨78, _⟩ => ⟨S_, .i32⟩
  | .hbm, ⟨79, _⟩ => ⟨S500000, .i32⟩
  | .hbm, ⟨80, _⟩ => ⟨S500000, .i32⟩
  | .hbm, ⟨81, _⟩ => ⟨S500000, .i32⟩
  | .hbm, ⟨82, _⟩ => ⟨S500000x1, .i32⟩
  | .hbm, ⟨83, _⟩ => ⟨S500000x128, .f32⟩
  | .hbm, ⟨84, _⟩ => ⟨S500000x272, .f32⟩
  | .hbm, ⟨85, _⟩ => ⟨S500000x128, .f32⟩
  | .hbm, ⟨86, _⟩ => ⟨S1x128, .f32⟩
  | .hbm, ⟨87, _⟩ => ⟨S500000x128, .f32⟩
  | .hbm, ⟨88, _⟩ => ⟨S500000x128, .f32⟩
  | .hbm, ⟨89, _⟩ => ⟨S_, .f32⟩
  | .hbm, ⟨90, _⟩ => ⟨S50000x128, .f32⟩
  | .hbm, ⟨91, _⟩ => ⟨S500000x1, .i32⟩
  | .hbm, ⟨92, _⟩ => ⟨S50000x128, .f32⟩
  | .hbm, ⟨93, _⟩ => ⟨S1x100000, .i32⟩
  | .hbm, ⟨94, _⟩ => ⟨S100000, .i32⟩
  | .hbm, ⟨95, _⟩ => ⟨S_, .i32⟩
  | .hbm, ⟨96, _⟩ => ⟨S100000, .i32⟩
  | .hbm, ⟨97, _⟩ => ⟨S100000, .i1⟩
  | .hbm, ⟨98, _⟩ => ⟨S_, .i32⟩
  | .hbm, ⟨99, _⟩ => ⟨S100000, .i32⟩
  | .hbm, ⟨100, _⟩ => ⟨S100000, .i32⟩
  | .hbm, ⟨101, _⟩ => ⟨S100000, .i32⟩
  | .hbm, ⟨102, _⟩ => ⟨S100000x1, .i32⟩
  | .hbm, ⟨103, _⟩ => ⟨S100000x128, .f32⟩
  | .hbm, ⟨104, _⟩ => ⟨S1x100000, .i32⟩
  | .hbm, ⟨105, _⟩ => ⟨S100000, .i32⟩
  | .hbm, ⟨106, _⟩ => ⟨S_, .i32⟩
  | .hbm, ⟨107, _⟩ => ⟨S100000, .i32⟩
  | .hbm, ⟨108, _⟩ => ⟨S100000, .i1⟩
  | .hbm, ⟨109, _⟩ => ⟨S_, .i32⟩
  | .hbm, ⟨110, _⟩ => ⟨S100000, .i32⟩
  | .hbm, ⟨111, _⟩ => ⟨S100000, .i32⟩
  | .hbm, ⟨112, _⟩ => ⟨S100000, .i32⟩
  | .hbm, ⟨113, _⟩ => ⟨S100000x1, .i32⟩
  | .hbm, ⟨114, _⟩ => ⟨S100000x128, .f32⟩
  | .hbm, ⟨115, _⟩ => ⟨S100000x256, .f32⟩
  | .hbm, ⟨116, _⟩ => ⟨S100000x2, .f32⟩
  | .hbm, ⟨117, _⟩ => ⟨S1x2, .f32⟩
  | .hbm, ⟨118, _⟩ => ⟨S100000x2, .f32⟩
  | .hbm, ⟨119, _⟩ => ⟨S100000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_cst : Ref sig .tc := ⟨.hbm, 59, rfl⟩
abbrev main_call2_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_3 : Ref sig .tc := ⟨.hbm, 66, rfl⟩
abbrev main_v41 : Ref sig .tc := ⟨.hbm, 67, rfl⟩
abbrev main_v42 : Ref sig .tc := ⟨.hbm, 68, rfl⟩
abbrev main_c_4 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_5 : Ref sig .tc := ⟨.hbm, 75, rfl⟩
abbrev main_v48 : Ref sig .tc := ⟨.hbm, 76, rfl⟩
abbrev main_v49 : Ref sig .tc := ⟨.hbm, 77, rfl⟩
abbrev main_c_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_8 : Ref sig .tc := ⟨.hbm, 95, rfl⟩
abbrev main_v65 : Ref sig .tc := ⟨.hbm, 96, rfl⟩
abbrev main_v66 : Ref sig .tc := ⟨.hbm, 97, rfl⟩
abbrev main_c_9 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_10 : Ref sig .tc := ⟨.hbm, 106, rfl⟩
abbrev main_v74 : Ref sig .tc := ⟨.hbm, 107, rfl⟩
abbrev main_v75 : Ref sig .tc := ⟨.hbm, 108, rfl⟩
abbrev main_c_11 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x16_S500000x272_d1 : Shape.Concatenates [S500000x128, S500000x128, S500000x16] S500000x272 1
  bcast_S1x128_S500000x128_0_1 : S1x128.BroadcastsInDim S500000x128 (![0, 1] : Fin 2 → Fin S500000x128.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  concatenates_S100000x128_S100000x128_S100000x256_d1 : Shape.Concatenates [S100000x128, S100000x128] S100000x256 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  dot_S500000x272_S272x128_S500000x128_1_0_0_1_n_n_wf : DotDims.WF S500000x272 S272x128 S500000x128 [1] [0] [0] [1] [] []
  scatter_S50000x128_S500000x1_S500000x128_1_0_0_1_wf : ScatterDims.WF S50000x128 S500000x1 S500000x128 [1] [0] [0] 1
  gather_S50000x128_S100000x1_S100000x128_1_0_n_n_0_1_1128_wf : GatherDims.WF S50000x128 S100000x1 S100000x128 [1] [0] [] [0] [] 1 ![1, 128]
  dot_S100000x256_S256x2_S100000x2_1_0_0_1_n_n_wf : DotDims.WF S100000x256 S256x2 S100000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x272_S272x128_S500000x128_1_0_0_1_n_n : DotDims S500000x272 S272x128 S500000x128 where
  lhsContracting := [1]
  rhsContracting := [0]
  lhsNonContracting := [0]
  rhsNonContracting := [1]
  lhsBatch := []
  rhsBatch := []
  wf := dot_S500000x272_S272x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.ReferenceArgs.lean ====
/-
  No operation of the reference program writes one of its arguments: after the whole line of operations each argument
  buffer holds what it held before.
-/
import proofs.«422161_j25950192402497_2_alg».proof.Proof.ReferenceOps

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 42400000 in
theorem ops_keeps_arg0 (V : Valuation τ sig (Elt F)) :
    StableHlo.after (ops (F := F)) V (Proc.devRef .tc main_arg0) = V (Proc.devRef .tc main_arg0) := by
  after_results_simp <;> rfl

set_option maxRecDepth 8192 in
set_option maxHeartbeats 42400000 in
theorem ops_keeps_arg1 (V : Valuation τ sig (Elt F)) :
    StableHlo.after (ops (F := F)) V (Proc.devRef .tc main_arg1) = V (Proc.devRef .tc main_arg1) := by
  after_results_simp <;> rfl

set_option maxRecDepth 8192 in
set_option maxHeartbeats 42400000 in
theorem ops_keeps_arg2 (V : Valuation τ sig (Elt F)) :
    StableHlo.after (ops (F := F)) V (Proc.devRef .tc main_arg2) = V (Proc.devRef .tc main_arg2) := by
  after_results_simp <;> rfl

set_option maxRecDepth 8192 in
set_option maxHeartbeats 42400000 in
theorem ops_keeps_arg3 (V : Valuation τ sig (Elt F)) :
    StableHlo.after (ops (F := F)) V (Proc.devRef .tc main_arg3) = V (Proc.devRef .tc main_arg3) := by
  after_results_simp <;> rfl

set_option maxRecDepth 8192 in
set_option maxHeartbeats 42400000 in
theorem ops_keeps_arg4 (V : Valuation τ sig (Elt F)) :
    StableHlo.after (ops (F := F)) V (Proc.devRef .tc main_arg4) = V (Proc.devRef .tc main_arg4) := by
  after_results_simp <;> rfl

set_option maxRecDepth 8192 in
set_option maxHeartbeats 42400000 in
theorem ops_keeps_arg5 (V : Valuation τ sig (Elt F)) :
    StableHlo.after (ops (F := F)) V (Proc.devRef .tc main_arg5) = V (Proc.devRef .tc main_arg5) := by
  after_results_simp <;> rfl

set_option maxRecDepth 8192 in
set_option maxHeartbeats 42400000 in
theorem ops_keeps_arg6 (V : Valuation τ sig (Elt F)) :
    StableHlo.after (ops (F := F)) V (Proc.devRef .tc main_arg6) = V (Proc.devRef .tc main_arg6) := by
  after_results_simp <;> rfl

set_option maxRecDepth 8192 in
set_option maxHeartbeats 42400000 in
theorem ops_keeps_arg7 (V : Valuation τ sig (Elt F)) :
    StableHlo.after (ops (F := F)) V (Proc.devRef .tc main_arg7) = V (Proc.devRef .tc main_arg7) := by
  after_results_simp <;> rfl

set_option maxRecDepth 8192 in
set_option maxHeartbeats 42400000 in
theorem ops_keeps_arg8 (V : Valuation τ sig (Elt F)) :
    StableHlo.after (ops (F := F)) V (Proc.devRef .tc main_arg8) = V (Proc.devRef .tc main_arg8) := by
  after_results_simp <;> rfl

set_option maxRecDepth 8192 in
set_option maxHeartbeats 42400000 in
theorem ops_keeps_arg9 (V : Valuation τ sig (Elt F)) :
    StableHlo.after (ops (F := F)) V (Proc.devRef .tc main_arg9) = V (Proc.devRef .tc main_arg9) := by
  after_results_simp <;> rfl

set_option maxRecDepth 8192 in
set_option maxHeartbeats 42400000 in
theorem ops_keeps_arg10 (V : Valuation τ sig (Elt F)) :
    StableHlo.after (ops (F := F)) V (Proc.devRef .tc main_arg10) = V (Proc.devRef .tc main_arg10) := by
  after_results_simp <;> rfl

set_option maxRecDepth 8192 in
set_option maxHeartbeats 42400000 in
theorem ops_keeps_arg11 (V : Valuation τ sig (Elt F)) :
    StableHlo.after (ops (F := F)) V (Proc.devRef .tc main_arg11) = V (Proc.devRef .tc main_arg11) := by
  after_results_simp <;> rfl

set_option maxRecDepth 8192 in
set_option maxHeartbeats 42400000 in
theorem ops_keeps_arg12 (V : Valuation τ sig (Elt F)) :
    StableHlo.after (ops (F := F)) V (Proc.devRef .tc main_arg12) = V (Proc.devRef .tc main_arg12) := by
  after_results_simp <;> rfl

set_option maxRecDepth 8192 in
set_option maxHeartbeats 42400000 in
theorem ops_keeps_arg13 (V : Valuation τ sig (Elt F)) :
    StableHlo.after (ops (F := F)) V (Proc.devRef .tc main_arg13) = V (Proc.devRef .tc main_arg13) := by
  after_results_simp <;> rfl

end Cert.ReferenceIdeal.ValueP

end
-- ==== Proof.ReferenceRun.lean ====
/-
  The reference program's run, stretch by stretch.

  The program is a straight line of 106 host operations. It is cut into ten stretches, each three-operand
  concatenation first in its stretch: the first layer's hidden rows; its index wraps and row gathers; its message (the
  concatenation, the product, the bias); its sum at the targets and relu; the same four for the second layer; the
  head's wraps and gathers; the head's concatenation, product and bias. Each stretch, run from any buffer contents
  that hold the stages it reads, leaves the stages it writes; no stretch writes an argument, and the two index
  vectors a later stretch reads are carried across the stretch between. Composed, the whole line leaves the last
  stage of the arguments in the result buffer.
-/
import proofs.«422161_j25950192402497_2_alg».proof.Proof.ReferenceOps
import proofs.«422161_j25950192402497_2_alg».proof.Proof.ReferenceRead
import proofs.«422161_j25950192402497_2_alg».proof.Proof.ReferenceArgs
import Idealize.ShloMosaic.Lib.Pipeline.Frame

set_option maxRecDepth 16384

noncomputable section

namespace Cert.ReferenceIdeal.ValueP

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! ## The ten stretches -/

/-- Operations 0–6 of @main. -/
abbrev c1 : List (HloOp τ sig (Elt F)) :=
  [ binary main_arg0 main_arg4 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v3) (TRef.of (T := ⟨S50000x128, .f32⟩) main_call0_v0) (TRef.of (T := ⟨S50000x128, .f32⟩) main_v4) maximumf ]

/-- Operations 7–28 of @main. -/
abbrev c2 : List (HloOp τ sig (Elt F)) :=
  [ unary main_arg1 main_v5 ((extractStridedSlice S1x500000 ![0, 0] · slices_S2x500000_S1x500000_0_0) : (⟨S2x500000, .i32⟩ : BufTy).Contents (Elt F) → (⟨S1x500000, .i32⟩ : BufTy).Contents (Elt F)),
    reshape main_v5 main_v6 rfl shapeCasts_S1x500000_S500000,
    unary main_arg1 main_v7 ((extractStridedSlice S1x500000 ![1, 0] · slices_S2x500000_S1x500000_1_0) : (⟨S2x500000, .i32⟩ : BufTy).Contents (Elt F) → (⟨S1x500000, .i32⟩ : BufTy).Contents (Elt F)),
    reshape main_v7 main_v8 rfl shapeCasts_S1x500000_S500000,
    nullary main_c (constantI S_ 32 0#32),
    unary main_c main_v9 (broadcastInDim S500000 ![] bcast_S_S500000 : (⟨S_, .i32⟩ : BufTy).Contents (Elt F) → (⟨S500000, .i32⟩ : BufTy).Contents (Elt F)),
    binary main_v8 main_v9 main_v10 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v11 (broadcastInDim S500000 ![] bcast_S_S500000 : (⟨S_, .i32⟩ : BufTy).Contents (Elt F) → (⟨S500000, .i32⟩ : BufTy).Contents (Elt F)),
    binary main_v8 main_v11 main_v12 (addi : (⟨S500000, .i32⟩ : BufTy).Contents (Elt F) → (⟨S500000, .i32⟩ : BufTy).Contents (Elt F) → (⟨S500000, .i32⟩ : BufTy).Contents (Elt F)),
    ternary main_v10 main_v12 main_v8 main_v13 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v13 main_v14 (broadcastInDim S500000x1 ![0] bcast_S500000_S500000x1_0 : (⟨S500000, .i32⟩ : BufTy).Contents (Elt F) → (⟨S500000x1, .i32⟩ : BufTy).Contents (Elt F)),
    binary main_v4 main_v14 main_v15 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_c_1 (constantI S_ 32 0#32),
    unary main_c_1 main_v16 (broadcastInDim S500000 ![] bcast_S_S500000 : (⟨S_, .i32⟩ : BufTy).Contents (Elt F) → (⟨S500000, .i32⟩ : BufTy).Contents (Elt F)),
    binary main_v6 main_v16 main_v17 (cmpi .slt : (⟨S500000, .i32⟩ : BufTy).Contents (Elt F) → (⟨S500000, .i32⟩ : BufTy).Contents (Elt F) → (⟨S500000, .i1⟩ : BufTy).Contents (Elt F)),
    nullary main_c_2 (constantI S_ 32 50000#32),
    unary main_c_2 main_v18 (broadcastInDim S500000 ![] bcast_S_S500000 : (⟨S_, .i32⟩ : BufTy).Contents (Elt F) → (⟨S500000, .i32⟩ : BufTy).Contents (Elt F)),
    binary main_v6 main_v18 main_v19 (addi : (⟨S500000, .i32⟩ : BufTy).Contents (Elt F) → (⟨S500000, .i32⟩ : BufTy).Contents (Elt F) → (⟨S500000, .i32⟩ : BufTy).Contents (Elt F)),
    ternary main_v17 main_v19 main_v6 main_v20 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v20 main_v21 (broadcastInDim S500000x1 ![0] bcast_S500000_S500000x1_0 : (⟨S500000, .i32⟩ : BufTy).Contents (Elt F) → (⟨S500000x1, .i32⟩ : BufTy).Contents (Elt F)),
    binary main_v4 main_v21 main_v22 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) ]

/-- Operations 29–33 of @main. -/
abbrev c3 : List (HloOp τ sig (Elt F)) :=
  [ nary ![main_v15, main_v22, main_arg2] main_v23 (fun u => concatenate S500000x272 1 [⟨S500000x128, u 0⟩, ⟨S500000x128, u 1⟩, ⟨S500000x16, u 2⟩] concatenates_S500000x128_S500000x128_S500000x16_S500000x272_d1),
    binary main_v23 main_arg6 main_v24 ((fun l r => Host.dotGeneral dot_S500000x272_S272x128_S500000x128_1_0_0_1_n_n none l r) : (⟨S500000x272, .f32⟩ : BufTy).Contents (Elt F) → (⟨S272x128, .f32⟩ : BufTy).Contents (Elt F) → (⟨S500000x128, .f32⟩ : BufTy).Contents (Elt F)),
    unary main_arg7 main_v25 (broadcastInDim S1x128 ![1] bcast_S128_S1x128_1 : (⟨S128, .f32⟩ : BufTy).Contents (Elt F) → (⟨S1x128, .f32⟩ : BufTy).Contents (Elt F)),
    unary main_v25 main_v26 (broadcastInDim S500000x128 ![0, 1] bcast_S1x128_S500000x128_0_1 : (⟨S1x128, .f32⟩ : BufTy).Contents (Elt F) → (⟨S500000x128, .f32⟩ : BufTy).Contents (Elt F)),
    binary main_v24 main_v26 main_v27 (addf : (⟨S500000x128, .f32⟩ : BufTy).Contents (Elt F) → (⟨S500000x128, .f32⟩ : BufTy).Contents (Elt F) → (⟨S500000x128, .f32⟩ : BufTy).Contents (Elt F)) ]

/-- Operations 34–40 of @main. -/
abbrev c4 : List (HloOp τ sig (Elt F)) :=
  [ nullary main_cst (constant S_ .f32 0x00000000#32),
    unary main_cst main_v28 (broadcastInDim S50000x128 ![] bcast_S_S50000x128 : (⟨S_, .f32⟩ : BufTy).Contents (Elt F) → (⟨S50000x128, .f32⟩ : BufTy).Contents (Elt F)),
    unary main_v8 main_v29 (broadcastInDim S500000x1 ![0] bcast_S500000_S500000x1_0 : (⟨S500000, .i32⟩ : BufTy).Contents (Elt F) → (⟨S500000x1, .i32⟩ : BufTy).Contents (Elt F)),
    ternary main_v28 main_v29 main_v27 main_v30 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v30) (TRef.of (T := ⟨S50000x128, .f32⟩) main_call1_v0) (TRef.of (T := ⟨S50000x128, .f32⟩) main_v31) maximumf ]

/-- Operations 41–47 of @main. -/
abbrev c5 : List (HloOp τ sig (Elt F)) :=
  [ binary main_v31 main_arg8 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v35) (TRef.of (T := ⟨S50000x128, .f32⟩) main_call2_v0) (TRef.of (T := ⟨S50000x128, .f32⟩) main_v36) maximumf ]

/-- Operations 48–69 of @main. -/
abbrev c6 : List (HloOp τ sig (Elt F)) :=
  [ unary main_arg1 main_v37 ((extractStridedSlice S1x500000 ![0, 0] · slices_S2x500000_S1x500000_0_0) : (⟨S2x500000, .i32⟩ : BufTy).Contents (Elt F) → (⟨S1x500000, .i32⟩ : BufTy).Contents (Elt F)),
    reshape main_v37 main_v38 rfl shapeCasts_S1x500000_S500000,
    unary main_arg1 main_v39 ((extractStridedSlice S1x500000 ![1, 0] · slices_S2x500000_S1x500000_1_0) : (⟨S2x500000, .i32⟩ : BufTy).Contents (Elt F) → (⟨S1x500000, .i32⟩ : BufTy).Contents (Elt F)),
    reshape main_v39 main_v40 rfl shapeCasts_S1x500000_S500000,
    nullary main_c_3 (constantI S_ 32 0#32),
    unary main_c_3 main_v41 (broadcastInDim S500000 ![] bcast_S_S500000 : (⟨S_, .i32⟩ : BufTy).Contents (Elt F) → (⟨S500000, .i32⟩ : BufTy).Contents (Elt F)),
    binary main_v40 main_v41 main_v42 (cmpi .slt : (⟨S500000, .i32⟩ : BufTy).Contents (Elt F) → (⟨S500000, .i32⟩ : BufTy).Contents (Elt F) → (⟨S500000, .i1⟩ : BufTy).Contents (Elt F)),
    nullary main_c_4 (constantI S_ 32 50000#32),
    unary main_c_4 main_v43 (broadcastInDim S500000 ![] bcast_S_S500000 : (⟨S_, .i32⟩ : BufTy).Contents (Elt F) → (⟨S500000, .i32⟩ : BufTy).Contents (Elt F)),
    binary main_v40 main_v43 main_v44 (addi : (⟨S500000, .i32⟩ : BufTy).Contents (Elt F) → (⟨S500000, .i32⟩ : BufTy).Contents (Elt F) → (⟨S500000, .i32⟩ : BufTy).Contents (Elt F)),
    ternary main_v42 main_v44 main_v40 main_v45 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v45 main_v46 (broadcastInDim S500000x1 ![0] bcast_S500000_S500000x1_0 : (⟨S500000, .i32⟩ : BufTy).Contents (Elt F) → (⟨S500000x1, .i32⟩ : BufTy).Contents (Elt F)),
    binary main_v36 main_v46 main_v47 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_c_5 (constantI S_ 32 0#32),
    unary main_c_5 main_v48 (broadcastInDim S500000 ![] bcast_S_S500000 : (⟨S_, .i32⟩ : BufTy).Contents (Elt F) → (⟨S500000, .i32⟩ : BufTy).Contents (Elt F)),
    binary main_v38 main_v48 main_v49 (cmpi .slt : (⟨S500000, .i32⟩ : BufTy).Contents (Elt F) → (⟨S500000, .i32⟩ : BufTy).Contents (Elt F) → (⟨S500000, .i1⟩ : BufTy).Contents (Elt F)),
    nullary main_c_6 (constantI S_ 32 50000#32),
    unary main_c_6 main_v50 (broadcastInDim S500000 ![] bcast_S_S500000 : (⟨S_, .i32⟩ : BufTy).Contents (Elt F) → (⟨S500000, .i32⟩ : BufTy).Contents (Elt F)),
    binary main_v38 main_v50 main_v51 (addi : (⟨S500000, .i32⟩ : BufTy).Contents (Elt F) → (⟨S500000, .i32⟩ : BufTy).Contents (Elt F) → (⟨S500000, .i32⟩ : BufTy).Contents (Elt F)),
    ternary main_v49 main_v51 main_v38 main_v52 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v52 main_v53 (broadcastInDim S500000x1 ![0] bcast_S500000_S500000x1_0 : (⟨S500000, .i32⟩ : BufTy).Contents (Elt F) → (⟨S500000x1, .i32⟩ : BufTy).Contents (Elt F)),
    binary main_v36 main_v53 main_v54 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) ]

/-- Operations 70–74 of @main. -/
abbrev c7 : List (HloOp τ sig (Elt F)) :=
  [ nary ![main_v47, main_v54, main_arg2] main_v55 (fun u => concatenate S500000x272 1 [⟨S500000x128, u 0⟩, ⟨S500000x128, u 1⟩, ⟨S500000x16, u 2⟩] concatenates_S500000x128_S500000x128_S500000x16_S500000x272_d1),
    binary main_v55 main_arg10 main_v56 ((fun l r => Host.dotGeneral dot_S500000x272_S272x128_S500000x128_1_0_0_1_n_n none l r) : (⟨S500000x272, .f32⟩ : BufTy).Contents (Elt F) → (⟨S272x128, .f32⟩ : BufTy).Contents (Elt F) → (⟨S500000x128, .f32⟩ : BufTy).Contents (Elt F)),
    unary main_arg11 main_v57 (broadcastInDim S1x128 ![1] bcast_S128_S1x128_1 : (⟨S128, .f32⟩ : BufTy).Contents (Elt F) → (⟨S1x128, .f32⟩ : BufTy).Contents (Elt F)),
    unary main_v57 main_v58 (broadcastInDim S500000x128 ![0, 1] bcast_S1x128_S500000x128_0_1 : (⟨S1x128, .f32⟩ : BufTy).Contents (Elt F) → (⟨S500000x128, .f32⟩ : BufTy).Contents (Elt F)),
    binary main_v56 main_v58 main_v59 (addf : (⟨S500000x128, .f32⟩ : BufTy).Contents (Elt F) → (⟨S500000x128, .f32⟩ : BufTy).Contents (Elt F) → (⟨S500000x128, .f32⟩ : BufTy).Contents (Elt F)) ]

/-- Operations 75–78 of @main. -/
abbrev c8 : List (HloOp τ sig (Elt F)) :=
  [ nullary main_cst_7 (constant S_ .f32 0x00000000#32),
    unary main_cst_7 main_v60 (broadcastInDim S50000x128 ![] bcast_S_S50000x128 : (⟨S_, .f32⟩ : BufTy).Contents (Elt F) → (⟨S50000x128, .f32⟩ : BufTy).Contents (Elt F)),
    unary main_v40 main_v61 (broadcastInDim S500000x1 ![0] bcast_S500000_S500000x1_0 : (⟨S500000, .i32⟩ : BufTy).Contents (Elt F) → (⟨S500000x1, .i32⟩ : BufTy).Contents (Elt F)),
    ternary main_v60 main_v61 main_v59 main_v62 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]

/-- Operations 79–100 of @main. -/
abbrev c9 : List (HloOp τ sig (Elt F)) :=
  [ unary main_arg3 main_v63 ((extractStridedSlice S1x100000 ![0, 0] · slices_S2x100000_S1x100000_0_0) : (⟨S2x100000, .i32⟩ : BufTy).Contents (Elt F) → (⟨S1x100000, .i32⟩ : BufTy).Contents (Elt F)),
    reshape main_v63 main_v64 rfl shapeCasts_S1x100000_S100000,
    nullary main_c_8 (constantI S_ 32 0#32),
    unary main_c_8 main_v65 (broadcastInDim S100000 ![] bcast_S_S100000 : (⟨S_, .i32⟩ : BufTy).Contents (Elt F) → (⟨S100000, .i32⟩ : BufTy).Contents (Elt F)),
    binary main_v64 main_v65 main_v66 (cmpi .slt : (⟨S100000, .i32⟩ : BufTy).Contents (Elt F) → (⟨S100000, .i32⟩ : BufTy).Contents (Elt F) → (⟨S100000, .i1⟩ : BufTy).Contents (Elt F)),
    nullary main_c_9 (constantI S_ 32 50000#32),
    unary main_c_9 main_v67 (broadcastInDim S100000 ![] bcast_S_S100000 : (⟨S_, .i32⟩ : BufTy).Contents (Elt F) → (⟨S100000, .i32⟩ : BufTy).Contents (Elt F)),
    binary main_v64 main_v67 main_v68 (addi : (⟨S100000, .i32⟩ : BufTy).Contents (Elt F) → (⟨S100000, .i32⟩ : BufTy).Contents (Elt F) → (⟨S100000, .i32⟩ : BufTy).Contents (Elt F)),
    ternary main_v66 main_v68 main_v64 main_v69 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v69 main_v70 (broadcastInDim S100000x1 ![0] bcast_S100000_S100000x1_0 : (⟨S100000, .i32⟩ : BufTy).Contents (Elt F) → (⟨S100000x1, .i32⟩ : BufTy).Contents (Elt F)),
    binary main_v62 main_v70 main_v71 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    unary main_arg3 main_v72 ((extractStridedSlice S1x100000 ![1, 0] · slices_S2x100000_S1x100000_1_0) : (⟨S2x100000, .i32⟩ : BufTy).Contents (Elt F) → (⟨S1x100000, .i32⟩ : BufTy).Contents (Elt F)),
    reshape main_v72 main_v73 rfl shapeCasts_S1x100000_S100000,
    nullary main_c_10 (constantI S_ 32 0#32),
    unary main_c_10 main_v74 (broadcastInDim S100000 ![] bcast_S_S100000 : (⟨S_, .i32⟩ : BufTy).Contents (Elt F) → (⟨S100000, .i32⟩ : BufTy).Contents (Elt F)),
    binary main_v73 main_v74 main_v75 (cmpi .slt : (⟨S100000, .i32⟩ : BufTy).Contents (Elt F) → (⟨S100000, .i32⟩ : BufTy).Contents (Elt F) → (⟨S100000, .i1⟩ : BufTy).Contents (Elt F)),
    nullary main_c_11 (constantI S_ 32 50000#32),
    unary main_c_11 main_v76 (broadcastInDim S100000 ![] bcast_S_S100000 : (⟨S_, .i32⟩ : BufTy).Contents (Elt F) → (⟨S100000, .i32⟩ : BufTy).Contents (Elt F)),
    binary main_v73 main_v76 main_v77 (addi : (⟨S100000, .i32⟩ : BufTy).Contents (Elt F) → (⟨S100000, .i32⟩ : BufTy).Contents (Elt F) → (⟨S100000, .i32⟩ : BufTy).Contents (Elt F)),
    ternary main_v75 main_v77 main_v73 main_v78 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v78 main_v79 (broadcastInDim S100000x1 ![0] bcast_S100000_S100000x1_0 : (⟨S100000, .i32⟩ : BufTy).Contents (Elt F) → (⟨S100000x1, .i32⟩ : BufTy).Contents (Elt F)),
    binary main_v62 main_v79 main_v80 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)) ]

/-- Operations 101–105 of @main. -/
abbrev c10 : List (HloOp τ sig (Elt F)) :=
  [ binary main_v71 main_v80 main_v81 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v81 main_arg12 main_v82 ((fun l r => Host.dotGeneral dot_S100000x256_S256x2_S100000x2_1_0_0_1_n_n none l r) : (⟨S100000x256, .f32⟩ : BufTy).Contents (Elt F) → (⟨S256x2, .f32⟩ : BufTy).Contents (Elt F) → (⟨S100000x2, .f32⟩ : BufTy).Contents (Elt F)),
    unary main_arg13 main_v83 (broadcastInDim S1x2 ![1] bcast_S2_S1x2_1 : (⟨S2, .f32⟩ : BufTy).Contents (Elt F) → (⟨S1x2, .f32⟩ : BufTy).Contents (Elt F)),
    unary main_v83 main_v84 (broadcastInDim S100000x2 ![0, 1] bcast_S1x2_S100000x2_0_1 : (⟨S1x2, .f32⟩ : BufTy).Contents (Elt F) → (⟨S100000x2, .f32⟩ : BufTy).Contents (Elt F)),
    binary main_v82 main_v84 main_v85 (addf : (⟨S100000x2, .f32⟩ : BufTy).Contents (Elt F) → (⟨S100000x2, .f32⟩ : BufTy).Contents (Elt F) → (⟨S100000x2, .f32⟩ : BufTy).Contents (Elt F)) ]

/-! ## What each stretch leaves -/

section Stretches

variable {x0 : (⟨S50000x128, .f32⟩ : BufTy).Contents (Elt F)} {x1 : (⟨S2x500000, .i32⟩ : BufTy).Contents (Elt F)} {x2 : (⟨S500000x16, .f32⟩ : BufTy).Contents (Elt F)} {x3 : (⟨S2x100000, .i32⟩ : BufTy).Contents (Elt F)} {x4 : (⟨S128x128, .f32⟩ : BufTy).Contents (Elt F)} {x5 : (⟨S128, .f32⟩ : BufTy).Contents (Elt F)} {x6 : (⟨S272x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S272x128, .f32⟩ : BufTy).Contents (Elt F)} {x11 : (⟨S128, .f32⟩ : BufTy).Contents (Elt F)} {x12 : (⟨S256x2, .f32⟩ : BufTy).Contents (Elt F)} {x13 : (⟨S2, .f32⟩ : BufTy).Contents (Elt F)}

set_option maxHeartbeats 4000000 in
theorem c1_v4 (W : Valuation τ sig (Elt F))
    (h_arg0 : W (Proc.devRef .tc main_arg0) = x0)
    (h_arg4 : W (Proc.devRef .tc main_arg4) = x4)
    (h_arg5 : W (Proc.devRef .tc main_arg5) = x5) :
    StableHlo.after (c1 (F := F)) W (Proc.devRef .tc main_v4) = val_main_v4 (F := F) x0 x4 x5 := by
  dsimp only [c1]
  after_results
  try simp only [h_arg0, h_arg4, h_arg5]

  try rfl

set_option maxHeartbeats 4000000 in
theorem c2_v15 (W : Valuation τ sig (Elt F))
    (h_arg1 : W (Proc.devRef .tc main_arg1) = x1)
    (h_v4 : W (Proc.devRef .tc main_v4) = val_main_v4 (F := F) x0 x4 x5) :
    StableHlo.after (c2 (F := F)) W (Proc.devRef .tc main_v15) = val_main_v15 (F := F) x0 x1 x4 x5 := by
  dsimp only [c2]
  after_results
  try simp only [h_arg1, h_v4]
  try (generalize W (Proc.devRef .tc main_v4) = a_v4 at h_v4 ⊢; subst h_v4)
  try rfl

set_option maxHeartbeats 4000000 in
theorem c2_v22 (W : Valuation τ sig (Elt F))
    (h_arg1 : W (Proc.devRef .tc main_arg1) = x1)
    (h_v4 : W (Proc.devRef .tc main_v4) = val_main_v4 (F := F) x0 x4 x5) :
    StableHlo.after (c2 (F := F)) W (Proc.devRef .tc main_v22) = val_main_v22 (F := F) x0 x1 x4 x5 := by
  dsimp only [c2]
  after_results
  try simp only [h_arg1, h_v4]
  try (generalize W (Proc.devRef .tc main_v4) = a_v4 at h_v4 ⊢; subst h_v4)
  try rfl

set_option maxHeartbeats 4000000 in
theorem c2_v8 (W : Valuation τ sig (Elt F))
    (h_arg1 : W (Proc.devRef .tc main_arg1) = x1)
    (h_v4 : W (Proc.devRef .tc main_v4) = val_main_v4 (F := F) x0 x4 x5) :
    StableHlo.after (c2 (F := F)) W (Proc.devRef .tc main_v8) = val_main_v8 (F := F) x1 := by
  dsimp only [c2]
  after_results
  try simp only [h_arg1, h_v4]
  try (generalize W (Proc.devRef .tc main_v4) = a_v4 at h_v4 ⊢; subst h_v4)
  try rfl

set_option maxHeartbeats 4000000 in
theorem c3_v27 (W : Valuation τ sig (Elt F))
    (h_v15 : W (Proc.devRef .tc main_v15) = val_main_v15 (F := F) x0 x1 x4 x5)
    (h_v22 : W (Proc.devRef .tc main_v22) = val_main_v22 (F := F) x0 x1 x4 x5)
    (h_arg2 : W (Proc.devRef .tc main_arg2) = x2)
    (h_arg6 : W (Proc.devRef .tc main_arg6) = x6)
    (h_arg7 : W (Proc.devRef .tc main_arg7) = x7) :
    StableHlo.after (c3 (F := F)) W (Proc.devRef .tc main_v27) = val_main_v27 (F := F) x0 x1 x2 x4 x5 x6 x7 := by
  dsimp only [c3]
  after_results
  simp only [Matrix.cons_val_zero, Matrix.cons_val_one, Matrix.cons_val_two, Matrix.head_cons, Matrix.tail_cons, Matrix.cons_val_succ]
  have h_arg2' : W (Proc.devRef .tc (Matrix.vecHead (Matrix.vecTail ![main_v22, main_arg2]))) = x2 := h_arg2
  try (generalize W (Proc.devRef .tc (Matrix.vecHead (Matrix.vecTail ![main_v22, main_arg2]))) = a2 at h_arg2' ⊢; subst h_arg2')
  try simp only [h_v15, h_v22, h_arg2, h_arg6, h_arg7]
  try (generalize W (Proc.devRef .tc main_v15) = a_v15 at h_v15 ⊢; subst h_v15)
  try (generalize W (Proc.devRef .tc main_v22) = a_v22 at h_v22 ⊢; subst h_v22)
  try rfl

set_option maxHeartbeats 4000000 in
theorem c4_v31 (W : Valuation τ sig (Elt F))
    (h_v8 : W (Proc.devRef .tc main_v8) = val_main_v8 (F := F) x1)
    (h_v27 : W (Proc.devRef .tc main_v27) = val_main_v27 (F := F) x0 x1 x2 x4 x5 x6 x7) :
    StableHlo.after (c4 (F := F)) W (Proc.devRef .tc main_v31) = val_main_v31 (F := F) x0 x1 x2 x4 x5 x6 x7 := by
  dsimp only [c4]
  after_results
  try simp only [h_v8, h_v27]
  try (generalize W (Proc.devRef .tc main_v8) = a_v8 at h_v8 ⊢; subst h_v8)
  try (generalize W (Proc.devRef .tc main_v27) = a_v27 at h_v27 ⊢; subst h_v27)
  try rfl

set_option maxHeartbeats 4000000 in
theorem c5_v36 (W : Valuation τ sig (Elt F))
    (h_v31 : W (Proc.devRef .tc main_v31) = val_main_v31 (F := F) x0 x1 x2 x4 x5 x6 x7)
    (h_arg8 : W (Proc.devRef .tc main_arg8) = x8)
    (h_arg9 : W (Proc.devRef .tc main_arg9) = x9) :
    StableHlo.after (c5 (F := F)) W (Proc.devRef .tc main_v36) = val_main_v36 (F := F) x0 x1 x2 x4 x5 x6 x7 x8 x9 := by
  dsimp only [c5]
  after_results
  try simp only [h_v31, h_arg8, h_arg9]
  try (generalize W (Proc.devRef .tc main_v31) = a_v31 at h_v31 ⊢; subst h_v31)
  try rfl

set_option maxHeartbeats 4000000 in
theorem c6_v47 (W : Valuation τ sig (Elt F))
    (h_arg1 : W (Proc.devRef .tc main_arg1) = x1)
    (h_v36 : W (Proc.devRef .tc main_v36) = val_main_v36 (F := F) x0 x1 x2 x4 x5 x6 x7 x8 x9) :
    StableHlo.after (c6 (F := F)) W (Proc.devRef .tc main_v47) = val_main_v47 (F := F) x0 x1 x2 x4 x5 x6 x7 x8 x9 := by
  dsimp only [c6]
  after_results
  try simp only [h_arg1, h_v36]
  try (generalize W (Proc.devRef .tc main_v36) = a_v36 at h_v36 ⊢; subst h_v36)
  try rfl

set_option maxHeartbeats 4000000 in
theorem c6_v54 (W : Valuation τ sig (Elt F))
    (h_arg1 : W (Proc.devRef .tc main_arg1) = x1)
    (h_v36 : W (Proc.devRef .tc main_v36) = val_main_v36 (F := F) x0 x1 x2 x4 x5 x6 x7 x8 x9) :
    StableHlo.after (c6 (F := F)) W (Proc.devRef .tc main_v54) = val_main_v54 (F := F) x0 x1 x2 x4 x5 x6 x7 x8 x9 := by
  dsimp only [c6]
  after_results
  try simp only [h_arg1, h_v36]
  try (generalize W (Proc.devRef .tc main_v36) = a_v36 at h_v36 ⊢; subst h_v36)
  try rfl

set_option maxHeartbeats 4000000 in
theorem c6_v40 (W : Valuation τ sig (Elt F))
    (h_arg1 : W (Proc.devRef .tc main_arg1) = x1)
    (h_v36 : W (Proc.devRef .tc main_v36) = val_main_v36 (F := F) x0 x1 x2 x4 x5 x6 x7 x8 x9) :
    StableHlo.after (c6 (F := F)) W (Proc.devRef .tc main_v40) = val_main_v40 (F := F) x1 := by
  dsimp only [c6]
  after_results
  try simp only [h_arg1, h_v36]
  try (generalize W (Proc.devRef .tc main_v36) = a_v36 at h_v36 ⊢; subst h_v36)
  try rfl

set_option maxHeartbeats 4000000 in
theorem c7_v59 (W : Valuation τ sig (Elt F))
    (h_v47 : W (Proc.devRef .tc main_v47) = val_main_v47 (F := F) x0 x1 x2 x4 x5 x6 x7 x8 x9)
    (h_v54 : W (Proc.devRef .tc main_v54) = val_main_v54 (F := F) x0 x1 x2 x4 x5 x6 x7 x8 x9)
    (h_arg2 : W (Proc.devRef .tc main_arg2) = x2)
    (h_arg10 : W (Proc.devRef .tc main_arg10) = x10)
    (h_arg11 : W (Proc.devRef .tc main_arg11) = x11) :
    StableHlo.after (c7 (F := F)) W (Proc.devRef .tc main_v59) = val_main_v59 (F := F) x0 x1 x2 x4 x5 x6 x7 x8 x9 x10 x11 := by
  dsimp only [c7]
  after_results
  simp only [Matrix.cons_val_zero, Matrix.cons_val_one, Matrix.cons_val_two, Matrix.head_cons, Matrix.tail_cons, Matrix.cons_val_succ]
  have h_arg2' : W (Proc.devRef .tc (Matrix.vecHead (Matrix.vecTail ![main_v54, main_arg2]))) = x2 := h_arg2
  try (generalize W (Proc.devRef .tc (Matrix.vecHead (Matrix.vecTail ![main_v54, main_arg2]))) = a2 at h_arg2' ⊢; subst h_arg2')
  try simp only [h_v47, h_v54, h_arg2, h_arg10, h_arg11]
  try (generalize W (Proc.devRef .tc main_v47) = a_v47 at h_v47 ⊢; subst h_v47)
  try (generalize W (Proc.devRef .tc main_v54) = a_v54 at h_v54 ⊢; subst h_v54)
  try rfl

set_option maxHeartbeats 4000000 in
theorem c8_v62 (W : Valuation τ sig (Elt F))
    (h_v40 : W (Proc.devRef .tc main_v40) = val_main_v40 (F := F) x1)
    (h_v59 : W (Proc.devRef .tc main_v59) = val_main_v59 (F := F) x0 x1 x2 x4 x5 x6 x7 x8 x9 x10 x11) :
    StableHlo.after (c8 (F := F)) W (Proc.devRef .tc main_v62) = val_main_v62 (F := F) x0 x1 x2 x4 x5 x6 x7 x8 x9 x10 x11 := by
  dsimp only [c8]
  after_results
  try simp only [h_v40, h_v59]
  try (generalize W (Proc.devRef .tc main_v40) = a_v40 at h_v40 ⊢; subst h_v40)
  try (generalize W (Proc.devRef .tc main_v59) = a_v59 at h_v59 ⊢; subst h_v59)
  try rfl

set_option maxHeartbeats 4000000 in
theorem c9_v71 (W : Valuation τ sig (Elt F))
    (h_arg3 : W (Proc.devRef .tc main_arg3) = x3)
    (h_v62 : W (Proc.devRef .tc main_v62) = val_main_v62 (F := F) x0 x1 x2 x4 x5 x6 x7 x8 x9 x10 x11) :
    StableHlo.after (c9 (F := F)) W (Proc.devRef .tc main_v71) = val_main_v71 (F := F) x0 x1 x2 x3 x4 x5 x6 x7 x8 x9 x10 x11 := by
  dsimp only [c9]
  after_results
  try simp only [h_arg3, h_v62]
  try (generalize W (Proc.devRef .tc main_v62) = a_v62 at h_v62 ⊢; subst h_v62)
  try rfl

set_option maxHeartbeats 4000000 in
theorem c9_v80 (W : Valuation τ sig (Elt F))
    (h_arg3 : W (Proc.devRef .tc main_arg3) = x3)
    (h_v62 : W (Proc.devRef .tc main_v62) = val_main_v62 (F := F) x0 x1 x2 x4 x5 x6 x7 x8 x9 x10 x11) :
    StableHlo.after (c9 (F := F)) W (Proc.devRef .tc main_v80) = val_main_v80 (F := F) x0 x1 x2 x3 x4 x5 x6 x7 x8 x9 x10 x11 := by
  dsimp only [c9]
  after_results
  try simp only [h_arg3, h_v62]
  try (generalize W (Proc.devRef .tc main_v62) = a_v62 at h_v62 ⊢; subst h_v62)
  try rfl

set_option maxHeartbeats 4000000 in
theorem c10_v85 (W : Valuation τ sig (Elt F))
    (h_v71 : W (Proc.devRef .tc main_v71) = val_main_v71 (F := F) x0 x1 x2 x3 x4 x5 x6 x7 x8 x9 x10 x11)
    (h_v80 : W (Proc.devRef .tc main_v80) = val_main_v80 (F := F) x0 x1 x2 x3 x4 x5 x6 x7 x8 x9 x10 x11)
    (h_arg12 : W (Proc.devRef .tc main_arg12) = x12)
    (h_arg13 : W (Proc.devRef .tc main_arg13) = x13) :
    StableHlo.after (c10 (F := F)) W (Proc.devRef .tc main_v85) = val_main_v85 (F := F) x0 x1 x2 x3 x4 x5 x6 x7 x8 x9 x10 x11 x12 x13 := by
  dsimp only [c10]
  after_results
  try simp only [h_v71, h_v80, h_arg12, h_arg13]
  try (generalize W (Proc.devRef .tc main_v71) = a_v71 at h_v71 ⊢; subst h_v71)
  try (generalize W (Proc.devRef .tc main_v80) = a_v80 at h_v80 ⊢; subst h_v80)
  try rfl

theorem c3_keep_v8 (W : Valuation τ sig (Elt F)) : StableHlo.after (c3 (F := F)) W (Proc.devRef .tc main_v8) = W (Proc.devRef .tc main_v8) := by
  dsimp only [c3]
  after_results
  try rfl

theorem c7_keep_v40 (W : Valuation τ sig (Elt F)) : StableHlo.after (c7 (F := F)) W (Proc.devRef .tc main_v40) = W (Proc.devRef .tc main_v40) := by
  dsimp only [c7]
  after_results
  try rfl

end Stretches

/-! ## The buffer contents after each stretch, and the arguments through them -/

abbrev W1 (V : Valuation τ sig (Elt F)) : Valuation τ sig (Elt F) := StableHlo.after (c1 (F := F)) V
abbrev W2 (V : Valuation τ sig (Elt F)) : Valuation τ sig (Elt F) := StableHlo.after (c2 (F := F)) (W1 V)
abbrev W3 (V : Valuation τ sig (Elt F)) : Valuation τ sig (Elt F) := StableHlo.after (c3 (F := F)) (W2 V)
abbrev W4 (V : Valuation τ sig (Elt F)) : Valuation τ sig (Elt F) := StableHlo.after (c4 (F := F)) (W3 V)
abbrev W5 (V : Valuation τ sig (Elt F)) : Valuation τ sig (Elt F) := StableHlo.after (c5 (F := F)) (W4 V)
abbrev W6 (V : Valuation τ sig (Elt F)) : Valuation τ sig (Elt F) := StableHlo.after (c6 (F := F)) (W5 V)
abbrev W7 (V : Valuation τ sig (Elt F)) : Valuation τ sig (Elt F) := StableHlo.after (c7 (F := F)) (W6 V)
abbrev W8 (V : Valuation τ sig (Elt F)) : Valuation τ sig (Elt F) := StableHlo.after (c8 (F := F)) (W7 V)
abbrev W9 (V : Valuation τ sig (Elt F)) : Valuation τ sig (Elt F) := StableHlo.after (c9 (F := F)) (W8 V)
abbrev W10 (V : Valuation τ sig (Elt F)) : Valuation τ sig (Elt F) := StableHlo.after (c10 (F := F)) (W9 V)

set_option maxRecDepth 8192 in
set_option maxHeartbeats 8000000 in
theorem W1_arg1 (V : Valuation τ sig (Elt F)) : W1 V (Proc.devRef .tc main_arg1) = V (Proc.devRef .tc main_arg1) := by
  dsimp only [W1, c1]
  after_results_simp
  try rfl

set_option maxRecDepth 8192 in
set_option maxHeartbeats 8000000 in
theorem W2_arg2 (V : Valuation τ sig (Elt F)) : W2 V (Proc.devRef .tc main_arg2) = V (Proc.devRef .tc main_arg2) := by
  dsimp only [W2, W1, c1, c2]
  after_results_simp
  try rfl

set_option maxRecDepth 8192 in
set_option maxHeartbeats 8000000 in
theorem W2_arg6 (V : Valuation τ sig (Elt F)) : W2 V (Proc.devRef .tc main_arg6) = V (Proc.devRef .tc main_arg6) := by
  dsimp only [W2, W1, c1, c2]
  after_results_simp
  try rfl

set_option maxRecDepth 8192 in
set_option maxHeartbeats 8000000 in
theorem W2_arg7 (V : Valuation τ sig (Elt F)) : W2 V (Proc.devRef .tc main_arg7) = V (Proc.devRef .tc main_arg7) := by
  dsimp only [W2, W1, c1, c2]
  after_results_simp
  try rfl

set_option maxRecDepth 8192 in
set_option maxHeartbeats 8000000 in
theorem W4_arg8 (V : Valuation τ sig (Elt F)) : W4 V (Proc.devRef .tc main_arg8) = V (Proc.devRef .tc main_arg8) := by
  dsimp only [W4, W3, W2, W1, c1, c2, c3, c4]
  after_results_simp
  try rfl

set_option maxRecDepth 8192 in
set_option maxHeartbeats 8000000 in
theorem W4_arg9 (V : Valuation τ sig (Elt F)) : W4 V (Proc.devRef .tc main_arg9) = V (Proc.devRef .tc main_arg9) := by
  dsimp only [W4, W3, W2, W1, c1, c2, c3, c4]
  after_results_simp
  try rfl

set_option maxRecDepth 8192 in
set_option maxHeartbeats 8000000 in
theorem W5_arg1 (V : Valuation τ sig (Elt F)) : W5 V (Proc.devRef .tc main_arg1) = V (Proc.devRef .tc main_arg1) := by
  dsimp only [W5, W4, W3, W2, W1, c1, c2, c3, c4, c5]
  after_results_simp
  try rfl

set_option maxRecDepth 8192 in
set_option maxHeartbeats 8000000 in
theorem W6_arg2 (V : Valuation τ sig (Elt F)) : W6 V (Proc.devRef .tc main_arg2) = V (Proc.devRef .tc main_arg2) := by
  dsimp only [W6, W5, W4, W3, W2, W1, c1, c2, c3, c4, c5, c6]
  after_results_simp
  try rfl

set_option maxRecDepth 8192 in
set_option maxHeartbeats 8000000 in
theorem W6_arg10 (V : Valuation τ sig (Elt F)) : W6 V (Proc.devRef .tc main_arg10) = V (Proc.devRef .tc main_arg10) := by
  dsimp only [W6, W5, W4, W3, W2, W1, c1, c2, c3, c4, c5, c6]
  after_results_simp
  try rfl

set_option maxRecDepth 8192 in
set_option maxHeartbeats 8000000 in
theorem W6_arg11 (V : Valuation τ sig (Elt F)) : W6 V (Proc.devRef .tc main_arg11) = V (Proc.devRef .tc main_arg11) := by
  dsimp only [W6, W5, W4, W3, W2, W1, c1, c2, c3, c4, c5, c6]
  after_results_simp
  try rfl

set_option maxRecDepth 8192 in
set_option maxHeartbeats 8000000 in
theorem W8_arg3 (V : Valuation τ sig (Elt F)) : W8 V (Proc.devRef .tc main_arg3) = V (Proc.devRef .tc main_arg3) := by
  dsimp only [W8, W7, W6, W5, W4, W3, W2, W1, c1, c2, c3, c4, c5, c6, c7, c8]
  after_results_simp
  try rfl

set_option maxRecDepth 8192 in
set_option maxHeartbeats 8000000 in
theorem W9_arg12 (V : Valuation τ sig (Elt F)) : W9 V (Proc.devRef .tc main_arg12) = V (Proc.devRef .tc main_arg12) := by
  dsimp only [W9, W8, W7, W6, W5, W4, W3, W2, W1, c1, c2, c3, c4, c5, c6, c7, c8, c9]
  after_results_simp
  try rfl

set_option maxRecDepth 8192 in
set_option maxHeartbeats 8000000 in
theorem W9_arg13 (V : Valuation τ sig (Elt F)) : W9 V (Proc.devRef .tc main_arg13) = V (Proc.devRef .tc main_arg13) := by
  dsimp only [W9, W8, W7, W6, W5, W4, W3, W2, W1, c1, c2, c3, c4, c5, c6, c7, c8, c9]
  after_results_simp
  try rfl

/-! ## The whole line -/

/-- After the whole line of operations the result buffer holds the last stage of the arguments' contents. -/
theorem after_v85 (V : Valuation τ sig (Elt F)) :
    StableHlo.after (ops (F := F)) V (Proc.devRef .tc main_v85)
      = val_main_v85 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have hcut : (ops (F := F)) = c1 ++ (c2 ++ (c3 ++ (c4 ++ (c5 ++ (c6 ++ (c7 ++ (c8 ++ (c9 ++ c10)))))))) := rfl
  rw [hcut]
  simp only [StableHlo.after_append]
  have e4 := c1_v4 V (x0 := (V (Proc.devRef .tc main_arg0))) (x4 := (V (Proc.devRef .tc main_arg4))) (x5 := (V (Proc.devRef .tc main_arg5))) rfl rfl rfl
  have e15 := c2_v15 (W1 V) (W1_arg1 V) e4
  have e22 := c2_v22 (W1 V) (W1_arg1 V) e4
  have e8 := c2_v8 (W1 V) (W1_arg1 V) e4
  have e27 := c3_v27 (W2 V) e15 e22 (W2_arg2 V) (W2_arg6 V) (W2_arg7 V)
  have e8' := (c3_keep_v8 (W2 V)).trans e8
  have e31 := c4_v31 (W3 V) e8' e27
  have e36 := c5_v36 (W4 V) e31 (W4_arg8 V) (W4_arg9 V)
  have e47 := c6_v47 (W5 V) (W5_arg1 V) e36
  have e54 := c6_v54 (W5 V) (W5_arg1 V) e36
  have e40 := c6_v40 (W5 V) (W5_arg1 V) e36
  have e59 := c7_v59 (W6 V) e47 e54 (W6_arg2 V) (W6_arg10 V) (W6_arg11 V)
  have e40' := (c7_keep_v40 (W6 V)).trans e40
  have e62 := c8_v62 (W7 V) e40' e59
  have e71 := c9_v71 (W8 V) (W8_arg3 V) e62
  have e80 := c9_v80 (W8 V) (W8_arg3 V) e62
  exact c10_v85 (W9 V) e71 e80 (W9_arg12 V) (W9_arg13 V)

/-- On every device, from any memory with zero counters: every weakly fair execution of the reference program
    terminates with its result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
          = Cert.ReferenceIdeal.ReadP.val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v85).trans (after_v85 (launchContents m c)),
      (h c main_arg0).trans (ops_keeps_arg0 (launchContents m c)),
      (h c main_arg1).trans (ops_keeps_arg1 (launchContents m c)),
      (h c main_arg2).trans (ops_keeps_arg2 (launchContents m c)),
      (h c main_arg3).trans (ops_keeps_arg3 (launchContents m c)),
      (h c main_arg4).trans (ops_keeps_arg4 (launchContents m c)),
      (h c main_arg5).trans (ops_keeps_arg5 (launchContents m c)),
      (h c main_arg6).trans (ops_keeps_arg6 (launchContents m c)),
      (h c main_arg7).trans (ops_keeps_arg7 (launchContents m c)),
      (h c main_arg8).trans (ops_keeps_arg8 (launchContents m c)),
      (h c main_arg9).trans (ops_keeps_arg9 (launchContents m c)),
      (h c main_arg10).trans (ops_keeps_arg10 (launchContents m c)),
      (h c main_arg11).trans (ops_keeps_arg11 (launchContents m c)),
      (h c main_arg12).trans (ops_keeps_arg12 (launchContents m c)),
      (h c main_arg13).trans (ops_keeps_arg13 (launchContents m c))⟩)
    (run_seq scopedRefs_eq scopedSems_eq defs main (fun _ => ops) main_eq (fun _ => ops_sub) m ρ)

end Cert.ReferenceIdeal.ValueP

end
-- ==== Proof.MessagePassing.lean ====
/-
  One message-passing layer over the extended reals, index by index, and the two laws that join its two
  arrangements.

  A node's hidden row is `relu (x · W_pre + b_pre)`. The message of edge `e` at feature `c` is the product of the
  concatenated row `[h(dst e) | h(src e) | ef(e)]` (272 = 128 + 128 + 16 coordinates) with column `c` of `W_msg`, plus
  `b_msg c`. A sum over 272 consecutive coordinates is the sum of its three consecutive ranges (only commutativity and
  associativity of `+` are used, which hold at the infinities too), so the message is also
  `(h(dst e) · W_msg[0:128] + h(src e) · W_msg[128:256]) + ef(e) · W_msg[256:272] + b_msg`: the node-level products
  can be formed once per node and gathered. The aggregation adds, at node `n`, the messages of the edges whose target
  is `n`; an edge whose target index lies outside `[0, 50000)` lands nowhere, so only the messages of edges with an
  in-range target matter to the result.
-/
import Idealize.ShloMosaic.Lib.ValueIdx
import Idealize.ShloMosaic.PureOps.Ideal.Laws

noncomputable section

namespace Cert.MessagePassing

open Idealize.ShloMosaic Idealize.ShloMosaic.ValueIdx

/-- Real-valued (extended) matrices and vectors over literal extents. -/
abbrev Mat (a b : Nat) := (⟨2, ![a, b]⟩ : Shape).Idx → EReal
abbrev Row (a : Nat) := (⟨1, ![a]⟩ : Shape).Idx → EReal
/-- A pair of index rows: row 0 the sources, row 1 the targets. -/
abbrev Pairs (n : Nat) := (⟨2, ![2, n]⟩ : Shape).Idx → BitVec 32

/-- An index word lies in the node range. -/
def InRange (w : BitVec 32) : Prop := 0 ≤ w.toInt ∧ w.toInt < 50000

/-- The node an index word names: its value clamped into `[0, 49999]` (for a word in range, its value). -/
def node (w : BitVec 32) : Fin 50000 := ⟨min w.toInt.toNat 49999, by omega⟩

theorem node_val_of_inRange {w : BitVec 32} (h : InRange w) : (node w).val = w.toInt.toNat := by
  obtain ⟨h0, h1⟩ := h
  show min w.toInt.toNat 49999 = w.toInt.toNat
  omega

/-- The hidden row: `relu (x · W_pre + b_pre)` at node `r`, feature `k`. -/
def hidden (x : Mat 50000 128) (pw : Mat 128 128) (pb : Row 128) : Mat 50000 128 :=
  fun i => max ((∑ j : Fin 128, x (ix2 (i 0) j) * pw (ix2 j (i 1))) + pb (ix1 (i 1))) 0

/-- The node-level products `h · [W_msg[0:128] | W_msg[128:256]]`: column `c < 128` is the target-side product,
    column `128 + c` the source-side one. -/
def projected (H : Mat 50000 128) (mw : Mat 272 128) : Mat 50000 256 :=
  fun i => ∑ k : Fin 128, H (ix2 (i 0) k) *
    (if h : (i 1).val < 128 then mw (ix2 ⟨k.val, by omega⟩ ⟨(i 1).val, h⟩)
     else mw (ix2 ⟨128 + k.val, by omega⟩ ⟨(i 1).val - 128, by have h2 : (i 1).val < 256 := (i 1).isLt; omega⟩))

/-- The message of edge `e` at feature `c`, in the gathered arrangement:
    `(h(dst e) · W[0:128] + h(src e) · W[128:256]) + ef(e) · W[256:272] + b`. -/
def message (H : Mat 50000 128) (ei : Pairs 500000) (ef : Mat 500000 16) (mw : Mat 272 128) (mb : Row 128) :
    Mat 500000 128 :=
  fun i =>
    ((∑ k : Fin 128, H (ix2 (node (ei (ix2 1 (i 0)))) k) * mw (ix2 ⟨k.val, by omega⟩ (i 1))
      + ∑ k : Fin 128, H (ix2 (node (ei (ix2 0 (i 0)))) k) * mw (ix2 ⟨128 + k.val, by omega⟩ (i 1)))
      + ∑ k : Fin 16, ef (ix2 (i 0) k) * mw (ix2 ⟨256 + k.val, by omega⟩ (i 1)))
    + mb (ix1 (i 1))

/-- A sum over 272 consecutive coordinates is the sum over its ranges `[0, 128)`, `[128, 256)` and `[256, 272)`. -/
theorem sum_three_ranges {M : Type*} [AddCommMonoid M] (f : Fin 272 → M) :
    ∑ k : Fin 272, f k = (∑ k : Fin 128, f ⟨k.val, by omega⟩ + ∑ k : Fin 128, f ⟨128 + k.val, by omega⟩)
      + ∑ k : Fin 16, f ⟨256 + k.val, by omega⟩ := by
  show ∑ k : Fin (128 + 128 + 16), f k = _
  rw [Fin.sum_univ_add, Fin.sum_univ_add]
  rfl

/-- The concatenated arrangement of a message: if `cat` reads `a` on `[0, 128)`, `b` on `[128, 256)` and `g` on
    `[256, 272)`, its product with a 272-column is the sum of the three partial products. -/
theorem concat_product (a b : Fin 128 → EReal) (g : Fin 16 → EReal) (cat w : Fin 272 → EReal)
    (ha : ∀ k : Fin 128, cat ⟨k.val, by omega⟩ = a k) (hb : ∀ k : Fin 128, cat ⟨128 + k.val, by omega⟩ = b k)
    (hg : ∀ k : Fin 16, cat ⟨256 + k.val, by omega⟩ = g k) :
    ∑ k : Fin 272, cat k * w k
      = (∑ k : Fin 128, a k * w ⟨k.val, by omega⟩ + ∑ k : Fin 128, b k * w ⟨128 + k.val, by omega⟩)
        + ∑ k : Fin 16, g k * w ⟨256 + k.val, by omega⟩ := by
  rw [sum_three_ranges]
  simp only [ha, hb, hg]

/-! ## The aggregation -/

/-- The scatter of per-edge rows onto node rows: one index per edge (axis 1 of the index array has extent 1), each
    update row of 128 features landing on the node row the index names. -/
def scat : ScatterDims ⟨2, ![50000, 128]⟩ ⟨2, ![500000, 1]⟩ ⟨2, ![500000, 128]⟩ where
  updateWindowDims := [1]
  insertedWindowDims := [0]
  scatterDimsToOperandDims := [0]
  indexVectorDim := 1
  wf := by decide

/-- The sum of the messages at each target node, over a zero array. -/
def aggregate (dst : (⟨2, ![500000, 1]⟩ : Shape).Idx → BitVec 32) (msg : Mat 500000 128) : Mat 50000 128 :=
  Ideal.hostScatterAdd scat (fun _ => 0) dst msg

/-- The aggregation sees a message only where it lands. -/
theorem aggregate_congr (dst : (⟨2, ![500000, 1]⟩ : Shape).Idx → BitVec 32) (msg msg' : Mat 500000 128)
    (h : ∀ j i, scat.resultIdx? j dst = some i → msg j = msg' j) : aggregate dst msg = aggregate dst msg' := by
  funext i
  unfold aggregate Ideal.hostScatterAdd
  refine congrArg (_ + ·) (Finset.sum_congr rfl fun j hj => ?_)
  exact h j i (Finset.mem_filter.mp hj).2

/-! ## The kernel's arrangement, the head, and the whole network -/

/-- The projection weights `[W_msg[0:128] | W_msg[128:256]]`: column `c < 128` of the target-side block, column
    `128 + c` of the source-side one. -/
def projWeights (mw : Mat 272 128) : Mat 128 256 := fun i =>
  if h : (i 1).val < 128 then
    mw (ix2 ⟨(i 0).val, by have h0 : (i 0).val < 128 := (i 0).isLt; omega⟩ ⟨(i 1).val, h⟩)
  else
    mw (ix2 ⟨128 + (i 0).val, by have h0 : (i 0).val < 128 := (i 0).isLt; omega⟩
      ⟨(i 1).val - 128, by have h1 : (i 1).val < 256 := (i 1).isLt; omega⟩)

/-- The edge-feature weights `W_msg[256:272]`. -/
def edgeWeights (mw : Mat 272 128) : Mat 16 128 := fun i =>
  mw (ix2 ⟨256 + (i 0).val, by have h0 : (i 0).val < 16 := (i 0).isLt; omega⟩ (i 1))

/-- A bias vector as a one-row matrix. -/
def asRow (b : Row 128) : Mat 1 128 := fun i => b (ix1 (i 1))

/-- What the fused pre-linear and projection kernel computes: row `r` is `relu (x[r] · W_pre + b) · W_in`. -/
def preProj (x : Mat 50000 128) (pw : Mat 128 128) (b2 : Mat 1 128) (win : Mat 128 256) : Mat 50000 256 :=
  fun i => ∑ k : Fin 128, max ((∑ j : Fin 128, x (ix2 (i 0) j) * pw (ix2 j k)) + b2 (ix2 0 k)) 0 * win (ix2 k (i 1))

/-- What the per-edge kernel computes: `(gi + gj) + ef · W_e + b`. -/
def edgeSum (gi gj : Mat 500000 128) (ef : Mat 500000 16) (we : Mat 16 128) (b2 : Mat 1 128) : Mat 500000 128 :=
  fun i => ((gi i + gj i) + ∑ k : Fin 16, ef (ix2 (i 0) k) * we (ix2 k (i 1))) + b2 (ix2 0 (i 1))

/-- The target indices as the scatter's index column. -/
def targets (ei : Pairs 500000) : (⟨2, ![500000, 1]⟩ : Shape).Idx → BitVec 32 := fun j => ei (ix2 1 (j 0))

/-- `relu` of a node array. -/
def relu (x : Mat 50000 128) : Mat 50000 128 := fun i => max (x i) 0

/-- The link-prediction head: `[x(first q) | x(second q)] · W_lp + b_lp`. -/
def head (x : Mat 50000 128) (li : Pairs 100000) (lw : Mat 256 2) (lb : Row 2) : Mat 100000 2 := fun i =>
  (∑ k : Fin 256,
      (if h : k.val < 128 then x (ix2 (node (li (ix2 0 (i 0)))) ⟨k.val, h⟩)
       else x (ix2 (node (li (ix2 1 (i 0)))) ⟨k.val - 128, by have hk : k.val < 256 := k.isLt; omega⟩))
        * lw (ix2 k (i 1)))
    + lb (ix1 (i 1))

/-- One convolution layer: the messages of the hidden rows, summed at their targets. -/
def layer (x : Mat 50000 128) (ei : Pairs 500000) (ef : Mat 500000 16) (pw : Mat 128 128) (pb : Row 128)
    (mw : Mat 272 128) (mb : Row 128) : Mat 50000 128 :=
  aggregate (targets ei) (message (hidden x pw pb) ei ef mw mb)

/-- The whole network: two layers with a relu between, then the head. -/
def model (x : Mat 50000 128) (ei : Pairs 500000) (ef : Mat 500000 16) (li : Pairs 100000)
    (pw1 : Mat 128 128) (pb1 : Row 128) (mw1 : Mat 272 128) (mb1 : Row 128)
    (pw2 : Mat 128 128) (pb2 : Row 128) (mw2 : Mat 272 128) (mb2 : Row 128) (lw : Mat 256 2) (lb : Row 2) :
    Mat 100000 2 :=
  head (layer (relu (layer x ei ef pw1 pb1 mw1 mb1)) ei ef pw2 pb2 mw2 mb2) li lw lb

end Cert.MessagePassing

end
-- ==== Proof.GatherRow.lean ====
/-
  Reading a row gather and a row scatter at an index.

  `take(x, idx, axis = 0)` over a matrix `x` of 50000 rows is a gather whose result row `e` is the row of `x` named by
  `idx[e]`, read signed and clamped into `[0, 49999]`; the column is kept. The matching scatter sends update row `e` to
  the node row `idx[e]`, read signed and NOT clamped: an update lands only when its index is in `[0, 50000)`.
-/
import Idealize.ShloMosaic.Lib.ValueIdx
import proofs.«422161_j25950192402497_2_alg».proof.Proof.MessagePassing

noncomputable section

namespace Cert.GatherRow

open Idealize.ShloMosaic Idealize.ShloMosaic.ValueIdx Cert.MessagePassing

/-- The dimension numbers of `take(x, idx, axis = 0)`: rows of `C` features out of 50000, one index per result row. -/
abbrev rowDims (n C : Nat)
    (wf : GatherDims.WF ⟨2, ![50000, C]⟩ ⟨2, ![n, 1]⟩ ⟨2, ![n, C]⟩ [1] [0] [] [0] [] 1 ![1, C]) :
    GatherDims ⟨2, ![50000, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row a gather result reads: the clamped start index (axis 0 is collapsed, so it has no offset). -/
theorem row_coord {n C : Nat}
    (wf : GatherDims.WF ⟨2, ![50000, C]⟩ ⟨2, ![n, 1]⟩ ⟨2, ![n, C]⟩ [1] [0] [] [0] [] 1 ![1, C])
    (idx : IVec ⟨2, ![n, 1]⟩ 32) (e : Fin n) (c : Fin C) :
    (rowDims n C wf).start (ix2 e c) idx 0 + (rowDims n C wf).batchCoord (ix2 e c) 0
      + (rowDims n C wf).offCoord (ix2 e c) 0 = (node (idx (ix2 e 0))).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims n C wf).startIndexMap from List.mem_singleton.mpr rfl)]
  have hsi : (rowDims n C wf).siIdx (ix2 e c) ⟨List.idxOf (0 : Fin 2) (rowDims n C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The column a gather result reads: its own (axis 1 is not indexed, and the result's offset axis reads it). -/
theorem col_coord {n C : Nat}
    (wf : GatherDims.WF ⟨2, ![50000, C]⟩ ⟨2, ![n, 1]⟩ ⟨2, ![n, C]⟩ [1] [0] [] [0] [] 1 ![1, C])
    (idx : IVec ⟨2, ![n, 1]⟩ 32) (e : Fin n) (c : Fin C) :
    (rowDims n C wf).start (ix2 e c) idx 1 + (rowDims n C wf).batchCoord (ix2 e c) 1
      + (rowDims n C wf).offCoord (ix2 e c) 1 = c.val := by
  rw [GatherDims.batchCoord_eq_zero _ _ _ List.not_mem_nil]
  unfold GatherDims.start
  rw [dif_neg (show ¬ (1 : Fin 2) ∈ (rowDims n C wf).startIndexMap from
    fun h => absurd (List.mem_singleton.mp h) (fun h' => Nat.one_ne_zero (congrArg Fin.val h')))]
  simp only [Nat.zero_add, Nat.add_zero]
  unfold GatherDims.offCoord
  rw [dif_pos ((GatherDims.mem_sKept (rowDims n C wf) 1).mpr
    ⟨fun h => absurd (List.mem_singleton.mp h) (fun h' => Nat.one_ne_zero (congrArg Fin.val h')), List.not_mem_nil⟩)]
  rfl

/-- The row gather at `(e, c)`: row `node (idx[e, 0])` of the operand, column `c`. -/
theorem gather_row {α : Type} {n C : Nat}
    (wf : GatherDims.WF ⟨2, ![50000, C]⟩ ⟨2, ![n, 1]⟩ ⟨2, ![n, C]⟩ [1] [0] [] [0] [] 1 ![1, C])
    (x : (⟨2, ![50000, C]⟩ : Shape).Idx → α) (idx : IVec ⟨2, ![n, 1]⟩ 32) (e : Fin n) (c : Fin C) :
    Host.gather (rowDims n C wf) x idx (ix2 e c) = x (ix2 (node (idx (ix2 e 0))) c) := by
  unfold Host.gather
  congr 1
  funext a
  refine Fin.ext ?_
  match a with
  | ⟨0, _⟩ => exact row_coord wf idx e c
  | ⟨1, _⟩ => exact col_coord wf idx e c

/-- An update that lands at a node has its target index in range, and lands at that index's node. -/
theorem landing_inRange (dst : (⟨2, ![500000, 1]⟩ : Shape).Idx → BitVec 32) (j : (⟨2, ![500000, 128]⟩ : Shape).Idx)
    (i : (⟨2, ![50000, 128]⟩ : Shape).Idx) (h : scat.resultIdx? j dst = some i) : InRange (dst (ix2 (j 0) 0)) := by
  unfold ScatterDims.resultIdx? at h
  split at h
  · rename_i hall
    have h0 := hall 0
    have hs : scat.start j dst 0 = (dst (ix2 (j 0) 0)).toInt := by
      unfold ScatterDims.start
      rw [dif_pos (show (0 : Fin 2) ∈ scat.scatterDimsToOperandDims from List.mem_singleton.mpr rfl)]
      have hsi : scat.siIdx j ⟨List.idxOf (0 : Fin 2) scat.scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw : scat.window j 0 = 0 := by
      unfold ScatterDims.window
      rw [dif_neg (show ¬ (0 : Fin 2) ∈ scat.sKept by decide)]
    rw [hs, hw] at h0
    have hsz : ((⟨2, ![50000, 128]⟩ : Shape).size 0 : Int) = 50000 := rfl
    exact ⟨by omega, by omega⟩
  · exact absurd h (by simp)

end Cert.GatherRow

end
-- ==== Proof.PreProjRegion.lean ====
/-
  What the fused pre-linear and projection kernel leaves in its output array.

  The grid has five points; point `t` reads rows `[10000 t, 10000 (t + 1))` of the node array and the three weight
  arrays whole, and writes the same rows of the output: `relu (x · W_pre + b) · W_in`, each a sum over the shared
  coordinate. The five row blocks tile the 50000 rows, so the output array after the run is that function of the
  arrays the region was entered with.
-/
import proofs.«422161_j25950192402497_2_alg».proof.Proof.Gen.KernelIdeal.Frame
import proofs.«422161_j25950192402497_2_alg».proof.Proof.GatherRow
import Idealize.ShloMosaic.Lib.Pipeline.Value
import Idealize.ShloMosaic.PureOps.Ideal.Laws

set_option maxRecDepth 16384

noncomputable section

namespace Cert.KernelIdeal.Value

open Cert.KernelIdeal.Gen
open Idealize.ShloMosaic Idealize.ShloMosaic.TcCoe Idealize.ShloMosaic.ValueIdx Idealize.SL.Sem
open Cert.MessagePassing Cert.GatherRow

/-! ## The two block products at an index -/

private theorem lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The first product, into a zero accumulator: entry `(p, k)` is the sum over the shared coordinate. -/
private theorem mmA_apply (a : FVec Ideal S10000x128 .f32) (b : FVec Ideal S128x128 .f32) (p : Fin 10000) (k : Fin 128) :
    matmul dot_S10000x128_S128x128_S10000x128_1_0_0_1_n_n (some .fp32) a b (constant (F := Ideal) S10000x128 .f32 0x00000000#32) (ix2 p k)
      = ∑ j : Fin 128, a (ix2 p j) * b (ix2 j k) := by
  show FloatOps.matmul dot_S10000x128_S128x128_S10000x128_1_0_0_1_n_n (some .fp32) a b (constant (F := Ideal) S10000x128 .f32 0x00000000#32) (ix2 p k) = _
  rw [Ideal.matmul_constant_zero_apply, ← Equiv.sum_comp (contrEquiv1 dot_S10000x128_S128x128_S10000x128_1_0_0_1_n_n 128 rfl rfl).symm]
  refine Finset.sum_congr rfl fun j _ => ?_
  have hk := contrEquiv1_symm_val dot_S10000x128_S128x128_S10000x128_1_0_0_1_n_n 128 rfl rfl j
  have el : dot_S10000x128_S128x128_S10000x128_1_0_0_1_n_n.lhsIdx (ix2 p k) ((contrEquiv1 dot_S10000x128_S128x128_S10000x128_1_0_0_1_n_n 128 rfl rfl).symm j) = ix2 p j := funext fun a => Fin.ext (by
    match a with
    | ⟨0, _⟩ => exact lhsA_0 _ _
    | ⟨1, _⟩ => exact (lhsA_1 _ _).trans hk)
  have er : dot_S10000x128_S128x128_S10000x128_1_0_0_1_n_n.rhsIdx (ix2 p k) ((contrEquiv1 dot_S10000x128_S128x128_S10000x128_1_0_0_1_n_n 128 rfl rfl).symm j) = ix2 j k := funext fun a => Fin.ext (by
    match a with
    | ⟨0, _⟩ => exact (rhsA_0 _ _).trans hk
    | ⟨1, _⟩ => exact rhsA_1 _ _)
  rw [el, er]

private theorem lhsB_0 (i : S10000x256.Idx) (q : dot_S10000x128_S128x256_S10000x256_1_0_0_1_n_n.contr.Idx) :
    (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
private theorem lhsB_1 (i : S10000x256.Idx) (q : dot_S10000x128_S128x256_S10000x256_1_0_0_1_n_n.contr.Idx) :
    (dot_S10000x128_S128x256_S10000x256_1_0_0_1_n_n.lhsIdx i q 1).val = (q ⟨0, by decide⟩).val :=
  dot_S10000x128_S128x256_S10000x256_1_0_0_1_n_n.lhsIdx_val_of_single rfl i q
private theorem rhsB_0 (i : S10000x256.Idx) (q : dot_S10000x128_S128x256_S10000x256_1_0_0_1_n_n.contr.Idx) :
    (dot_S10000x128_S128x256_S10000x256_1_0_0_1_n_n.rhsIdx i q 0).val = (q ⟨0, by decide⟩).val :=
  dot_S10000x128_S128x256_S10000x256_1_0_0_1_n_n.rhsIdx_val_of_single rfl i q
private theorem rhsB_1 (i : S10000x256.Idx) (q : dot_S10000x128_S128x256_S10000x256_1_0_0_1_n_n.contr.Idx) :
    (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- The second product, into a zero accumulator. -/
private theorem mmB_apply (a : FVec Ideal S10000x128 .f32) (b : FVec Ideal S128x256 .f32) (p : Fin 10000) (q : Fin 256) :
    matmul dot_S10000x128_S128x256_S10000x256_1_0_0_1_n_n (some .fp32) a b (constant (F := Ideal) S10000x256 .f32 0x00000000#32) (ix2 p q)
      = ∑ k : Fin 128, a (ix2 p k) * b (ix2 k q) := by
  show FloatOps.matmul dot_S10000x128_S128x256_S10000x256_1_0_0_1_n_n (some .fp32) a b (constant (F := Ideal) S10000x256 .f32 0x00000000#32) (ix2 p q) = _
  rw [Ideal.matmul_constant_zero_apply, ← Equiv.sum_comp (contrEquiv1 dot_S10000x128_S128x256_S10000x256_1_0_0_1_n_n 128 rfl rfl).symm]
  refine Finset.sum_congr rfl fun j _ => ?_
  have hk := contrEquiv1_symm_val dot_S10000x128_S128x256_S10000x256_1_0_0_1_n_n 128 rfl rfl j
  have el : dot_S10000x128_S128x256_S10000x256_1_0_0_1_n_n.lhsIdx (ix2 p q) ((contrEquiv1 dot_S10000x128_S128x256_S10000x256_1_0_0_1_n_n 128 rfl rfl).symm j) = ix2 p j := funext fun a => Fin.ext (by
    match a with
    | ⟨0, _⟩ => exact lhsB_0 _ _
    | ⟨1, _⟩ => exact (lhsB_1 _ _).trans hk)
  have er : dot_S10000x128_S128x256_S10000x256_1_0_0_1_n_n.rhsIdx (ix2 p q) ((contrEquiv1 dot_S10000x128_S128x256_S10000x256_1_0_0_1_n_n 128 rfl rfl).symm j) = ix2 j q := funext fun a => Fin.ext (by
    match a with
    | ⟨0, _⟩ => exact (rhsB_0 _ _).trans hk
    | ⟨1, _⟩ => exact rhsB_1 _ _)
  rw [el, er]

/-- The bias row spread down the rows: entry `(p, k)` is entry `(0, k)` of the row. -/
private theorem bias_apply (b : Vec Ideal S1x128 .f32) (p : Fin 10000) (k : Fin 128) :
    broadcastTo S10000x128 b broadcasts_S1x128_S10000x128 (ix2 p k) = b (ix2 0 k) := by
  refine broadcastTo_apply b broadcasts_S1x128_S10000x128 (ix2 p k) (ix2 0 k) fun a => ?_
  match a with
  | ⟨0, _⟩ => rfl
  | ⟨1, _⟩ => rfl

/-- The body's arithmetic at an index: `relu (x · W_pre + b) · W_in`. -/
private theorem pay0_apply (x0 : Vec Ideal S10000x128 .f32) (x1 : Vec Ideal S128x128 .f32) (x2 : Vec Ideal S1x128 .f32)
    (x3 : Vec Ideal S128x256 .f32) (p : Fin 10000) (q : Fin 256) :
    k0_pay1 x0 x1 x2 x3 (ix2 p q)
      = ∑ k : Fin 128, max ((∑ j : Fin 128, x0 (ix2 p j) * x1 (ix2 j k)) + x2 (ix2 0 k)) 0 * x3 (ix2 k q) := by
  unfold k0_pay1
  refine (mmB_apply _ _ p q).trans ?_
  refine Finset.sum_congr rfl fun k _ => ?_
  rw [shapeCast_self, shapeCast_self, maximumf_apply, addf_apply, broadcast_apply, mmA_apply, bias_apply]
  rw [show (FloatOps.ofBits FTy.f32 0x00000000#32 : Ideal .f32) = 0 from Ideal.ofBits_zero_f32]

/-- A block of the output from blocks of the inputs: if the node block's row `p` is row `r` of the node array and the
    three weight blocks are the weight arrays, the body's entry `(p, q)` is the whole-array function at `(r, q)`. -/
private theorem block_apply (x0 : Vec Ideal S10000x128 .f32) (x1 : Vec Ideal S128x128 .f32) (x2 : Vec Ideal S1x128 .f32)
    (x3 : Vec Ideal S128x256 .f32) (X : Mat 50000 128) (PW : Mat 128 128) (B : Mat 1 128) (WIN : Mat 128 256)
    (p : Fin 10000) (q : Fin 256) (r : Fin 50000)
    (h0 : ∀ k : Fin 128, x0 (ix2 p k) = X (ix2 r k)) (h1 : x1 = PW) (h2 : x2 = B) (h3 : x3 = WIN) :
    k0_pay1 x0 x1 x2 x3 (ix2 p q) = preProj X PW B WIN (ix2 r q) := by
  subst h1 h2 h3
  rw [pay0_apply]
  show _ = ∑ k : Fin 128, max ((∑ j : Fin 128, X (ix2 r j) * x1 (ix2 j k)) + x2 (ix2 0 k)) 0 * x3 (ix2 k q)
  simp only [h0]

/-- The second layer's body is the first's: it differs by a reshape of the node block to its own shape, the identity. -/
private theorem pay2_eq (x0 : Vec Ideal S10000x128 .f32) (x1 : Vec Ideal S128x128 .f32) (x2 : Vec Ideal S1x128 .f32)
    (x3 : Vec Ideal S128x256 .f32) : k2_pay1 x0 x1 x2 x3 = k0_pay1 x0 x1 x2 x3 := by
  unfold k2_pay1 k0_pay1
  simp only [shapeCast_self]

/-! ## The first layer's region: the blocks, what a point writes back, the cover -/

private theorem hz : (![0, 0] : Fin 2 → Nat) = fun _ => 0 := funext fun a => by fin_cases a <;> rfl

/-- The five windows' block indices at the five grid points: the node rows and the output rows move with the point,
    every other block index is zero. -/
private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Region0
variable (V : (c : Dev nD) → (b : Ref sig .tc) → Buf (Elt Ideal) ((c : Thread nD τ).loc b)) (c : Dev nD)

/-- The node block at point `t` is rows `10000 t + p` of the node array. -/
private theorem rows0 (t : Fin cfg0.N) (p : Fin 10000) (k : Fin 128) (r : Fin 50000) (hr : r.val = 10000 * t.val + p.val) :
    (iblk0 V c 0 t : Vec Ideal S10000x128 .f32) (ix2 p k) = (V c main_arg0 : Mat 50000 128) (ix2 r k) := by
  obtain ⟨e0, e1, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The three weight blocks are the weight arrays whole. -/
private theorem wpre0 (t : Fin cfg0.N) : (iblk0 V c 1 t : Vec Ideal S128x128 .f32) = (V c main_arg4 : Mat 128 128) := by
  obtain ⟨-, -, e0, e1, -⟩ := idx_facts0 t
  funext y
  show V c main_arg4 (((cfg0.win 1).blk t).view.emb y) = V c main_arg4 y
  refine congrArg (V c main_arg4) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega
private theorem bias0 (t : Fin cfg0.N) : (iblk0 V c 2 t : Vec Ideal S1x128 .f32) = (V c main_v8 : Mat 1 128) := by
  obtain ⟨-, -, -, -, e0, e1, -⟩ := idx_facts0 t
  funext y
  show V c main_v8 (((cfg0.win 2).blk t).view.emb y) = V c main_v8 y
  refine congrArg (V c main_v8) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega
private theorem wproj0 (t : Fin cfg0.N) : (iblk0 V c 3 t : Vec Ideal S128x256 .f32) = (V c main_v7 : Mat 128 256) := by
  obtain ⟨-, -, -, -, -, -, e0, e1, -⟩ := idx_facts0 t
  funext y
  show V c main_v7 (((cfg0.win 3).blk t).view.emb y) = V c main_v7 y
  refine congrArg (V c main_v7) (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- What point `t` computes at block index `j` is the whole-array function at row `10000 t + j₀`, column `j₁`. -/
private theorem point0 (t : Fin cfg0.N) (j : S10000x256.Idx) (i : S50000x256.Idx)
    (h0 : (i 0).val = 10000 * t.val + (j 0).val) (h1 : (i 1).val = (j 1).val) :
    k0_pay1 (iblk0 V c 0 t) (iblk0 V c 1 t) (iblk0 V c 2 t) (iblk0 V c 3 t) j
      = preProj (V c main_arg0) (V c main_arg4) (V c main_v8) (V c main_v7) i := by
  obtain ⟨p, q, rfl⟩ : ∃ (p : Fin 10000) (q : Fin 256), j = ix2 p q := ⟨j 0, j 1, eq_ix2 j⟩
  have hq : q = i 1 := Fin.ext h1.symm
  subst hq
  refine (block_apply (iblk0 V c 0 t) (iblk0 V c 1 t) (iblk0 V c 2 t) (iblk0 V c 3 t)
    (V c main_arg0) (V c main_arg4) (V c main_v8) (V c main_v7) p (i 1) (i 0)
    (fun k => rows0 V c t p k (i 0) h0) (wpre0 V c t) (bias0 V c t) (wproj0 V c t)).trans ?_
  exact congrArg (preProj (V c main_arg0) (V c main_arg4) (V c main_v8) (V c main_v7)) (eq_ix2 i).symm

/-- What point `t` writes back is block `t` of the whole-array function. -/
private theorem flushed0_eq (t : Fin cfg0.N) :
    (dat0 (F := Ideal) V c).flushed 4 t = ((cfg0.win 4).blk t).view.read (Elt Ideal)
      (preProj (V c main_arg0) (V c main_arg4) (V c main_v8) (V c main_v7)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x128) hz, View.ld_unit_zero (S := S1x128) hz,
    View.ld_unit_zero (S := S128x256) hz]
  obtain ⟨-, -, -, -, -, -, -, -, e0, e1⟩ := idx_facts0 t
  funext j
  refine point0 V c t j (((cfg0.win 4).blk t).view.emb j) ?_ ?_
  · show win0_4.index t (0 : Fin 2) * 10000 + 1 * (j 0).val = 10000 * t.val + (j 0).val; rw [e0]; omega
  · show win0_4.index t (1 : Fin 2) * 256 + 1 * (j 1).val = (j 1).val; rw [e1]; omega

end Region0

/-- An index of the output array is in point `t`'s block iff each coordinate is in the block's range on its axis. -/
private theorem mem_blk0 (t : Fin cfg0.N) (i : S50000x256.Idx) :
    i ∈ ((cfg0.win 4).blk t).view.set ↔ ∀ a : Fin 2, win0_4.index t a * S10000x256.size a ≤ (i a).val ∧ (i a).val < win0_4.index t a * S10000x256.size a + S10000x256.size a := by
  show i ∈ ((View.whole main_v9).slice (win0_4.rect t)).set ↔ _
  rw [View.set_slice_whole, Rect.mem_set_unit]
  exact Iff.rfl

/-- The five row blocks tile the 50000 rows: row `r` is in the block of point `r / 10000`. -/
private theorem cover0 (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ : ∃ t : Fin cfg0.N, t.val = (i 0).val / 10000 :=
    ⟨⟨(i 0).val / 10000, by rw [show cfg0.N = 5 from N_0]; omega⟩, rfl⟩
  obtain ⟨-, -, -, -, -, -, -, -, e0, e1⟩ := idx_facts0 t
  refine ⟨t, flush0_4 t, ?_⟩
  rw [mem_blk0]
  intro a
  match a with
  | ⟨0, _⟩ => show win0_4.index t (0 : Fin 2) * 10000 ≤ (i 0).val ∧ (i 0).val < win0_4.index t (0 : Fin 2) * 10000 + 10000; rw [e0, ht]; omega
  | ⟨1, _⟩ => show win0_4.index t (1 : Fin 2) * 256 ≤ (i 1).val ∧ (i 1).val < win0_4.index t (1 : Fin 2) * 256 + 256; rw [e1]; omega

theorem final0 (V : (c : Dev nD) → (b : Ref sig .tc) → Buf (Elt Ideal) ((c : Thread nD τ).loc b)) (c : Dev nD) :
    ((dat0 (F := Ideal) V c).arrAt 4 cfg0.N : Mat 50000 256)
      = preProj (V c main_arg0) (V c main_arg4) (V c main_v8) (V c main_v7) :=
  (dat0 (F := Ideal) V c).arrAt_eq_of_cover 4 (preProj (V c main_arg0) (V c main_arg4) (V c main_v8) (V c main_v7))
    (fun t _ => flushed0_eq V c t) cover0

/-! ## The second layer's region: the same kernel at the same sizes, over its own arrays -/

/-- The five windows' block indices at the five grid points: the node rows and the output rows move with the point,
    every other block index is zero. -/
private theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section Region2
variable (V : (c : Dev nD) → (b : Ref sig .tc) → Buf (Elt Ideal) ((c : Thread nD τ).loc b)) (c : Dev nD)

/-- The node block at point `t` is rows `10000 t + p` of the node array. -/
private theorem rows2 (t : Fin cfg2.N) (p : Fin 10000) (k : Fin 128) (r : Fin 50000) (hr : r.val = 10000 * t.val + p.val) :
    (iblk2 V c 0 t : Vec Ideal S10000x128 .f32) (ix2 p k) = (V c main_v19 : Mat 50000 128) (ix2 r k) := by
  obtain ⟨e0, e1, -⟩ := idx_facts2 t
  show V c main_v19 (((cfg2.win 0).blk t).view.emb (ix2 p k)) = V c main_v19 (ix2 r k)
  refine congrArg (V c main_v19) (funext fun a => Fin.ext ?_)
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- The three weight blocks are the weight arrays whole. -/
private theorem wpre2 (t : Fin cfg2.N) : (iblk2 V c 1 t : Vec Ideal S128x128 .f32) = (V c main_arg8 : Mat 128 128) := by
  obtain ⟨-, -, e0, e1, -⟩ := idx_facts2 t
  funext y
  show V c main_arg8 (((cfg2.win 1).blk t).view.emb y) = V c main_arg8 y
  refine congrArg (V c main_arg8) (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega
private theorem bias2 (t : Fin cfg2.N) : (iblk2 V c 2 t : Vec Ideal S1x128 .f32) = (V c main_v24 : Mat 1 128) := by
  obtain ⟨-, -, -, -, e0, e1, -⟩ := idx_facts2 t
  funext y
  show V c main_v24 (((cfg2.win 2).blk t).view.emb y) = V c main_v24 y
  refine congrArg (V c main_v24) (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega
private theorem wproj2 (t : Fin cfg2.N) : (iblk2 V c 3 t : Vec Ideal S128x256 .f32) = (V c main_v23 : Mat 128 256) := by
  obtain ⟨-, -, -, -, -, -, e0, e1, -⟩ := idx_facts2 t
  funext y
  show V c main_v23 (((cfg2.win 3).blk t).view.emb y) = V c main_v23 y
  refine congrArg (V c main_v23) (funext fun a => Fin.ext ?_)
  match a with
  | ⟨0, _⟩ => show win2_3.index t (0 : Fin 2) * 128 + 1 * (y 0).val = (y 0).val; rw [e0]; omega
  | ⟨1, _⟩ => show win2_3.index t (1 : Fin 2) * 256 + 1 * (y 1).val = (y 1).val; rw [e1]; omega

/-- What point `t` computes at block index `j` is the whole-array function at row `10000 t + j₀`, column `j₁`. -/
private theorem point2 (t : Fin cfg2.N) (j : S10000x256.Idx) (i : S50000x256.Idx)
    (h0 : (i 0).val = 10000 * t.val + (j 0).val) (h1 : (i 1).val = (j 1).val) :
    k2_pay1 (iblk2 V c 0 t) (iblk2 V c 1 t) (iblk2 V c 2 t) (iblk2 V c 3 t) j
      = preProj (V c main_v19) (V c main_arg8) (V c main_v24) (V c main_v23) i := by
  obtain ⟨p, q, rfl⟩ : ∃ (p : Fin 10000) (q : Fin 256), j = ix2 p q := ⟨j 0, j 1, eq_ix2 j⟩
  have hq : q = i 1 := Fin.ext h1.symm
  subst hq
  refine (congrFun (pay2_eq (iblk2 V c 0 t) (iblk2 V c 1 t) (iblk2 V c 2 t) (iblk2 V c 3 t)) (ix2 p (i 1))).trans ?_
  refine (block_apply (iblk2 V c 0 t) (iblk2 V c 1 t) (iblk2 V c 2 t) (iblk2 V c 3 t)
    (V c main_v19) (V c main_arg8) (V c main_v24) (V c main_v23) p (i 1) (i 0)
    (fun k => rows2 V c t p k (i 0) h0) (wpre2 V c t) (bias2 V c t) (wproj2 V c t)).trans ?_
  exact congrArg (preProj (V c main_v19) (V c main_arg8) (V c main_v24) (V c main_v23)) (eq_ix2 i).symm

/-- What point `t` writes back is block `t` of the whole-array function. -/
private theorem flushed2_eq (t : Fin cfg2.N) :
    (dat2 (F := Ideal) V c).flushed 4 t = ((cfg2.win 4).blk t).view.read (Elt Ideal)
      (preProj (V c main_v19) (V c main_arg8) (V c main_v24) (V c main_v23)) := by
  show (cfg2.win 4).cut (grid2.coords t) ((dat2 V c).after 4 t) = _
  rw [after2_4]
  unfold out2_4
  rw [View.canon_unit_zero hz]
  simp only [View.ld_unit_zero (S := S10000x128) hz, View.ld_unit_zero (S := S128x128) hz, View.ld_unit_zero (S := S1x128) hz,
    View.ld_unit_zero (S := S128x256) hz]
  obtain ⟨-, -, -, -, -, -, -, -, e0, e1⟩ := idx_facts2 t
  funext j
  refine point2 V c t j (((cfg2.win 4).blk t).view.emb j) ?_ ?_
  · show win2_4.index t (0 : Fin 2) * 10000 + 1 * (j 0).val = 10000 * t.val + (j 0).val; rw [e0]; omega
  · show win2_4.index t (1 : Fin 2) * 256 + 1 * (j 1).val = (j 1).val; rw [e1]; omega

end Region2

/-- An index of the output array is in point `t`'s block iff each coordinate is in the block's range on its axis. -/
private theorem mem_blk2 (t : Fin cfg2.N) (i : S50000x256.Idx) :
    i ∈ ((cfg2.win 4).blk t).view.set ↔ ∀ a : Fin 2, win2_4.index t a * S10000x256.size a ≤ (i a).val ∧ (i a).val < win2_4.index t a * S10000x256.size a + S10000x256.size a := by
  show i ∈ ((View.whole main_v25).slice (win2_4.rect t)).set ↔ _
  rw [View.set_slice_whole, Rect.mem_set_unit]
  exact Iff.rfl

/-- The five row blocks tile the 50000 rows: row `r` is in the block of point `r / 10000`. -/
private theorem cover2 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  obtain ⟨t, ht⟩ : ∃ t : Fin cfg2.N, t.val = (i 0).val / 10000 :=
    ⟨⟨(i 0).val / 10000, by rw [show cfg2.N = 5 from N_2]; omega⟩, rfl⟩
  obtain ⟨-, -, -, -, -, -, -, -, e0, e1⟩ := idx_facts2 t
  refine ⟨t, flush2_4 t, ?_⟩
  rw [mem_blk2]
  intro a
  match a with
  | ⟨0, _⟩ => show win2_4.index t (0 : Fin 2) * 10000 ≤ (i 0).val ∧ (i 0).val < win2_4.index t (0 : Fin 2) * 10000 + 10000; rw [e0, ht]; omega
  | ⟨1, _⟩ => show win2_4.index t (1 : Fin 2) * 256 ≤ (i 1).val ∧ (i 1).val < win2_4.index t (1 : Fin 2) * 256 + 256; rw [e1]; omega

theorem final2 (V : (c : Dev nD) → (b : Ref sig .tc) → Buf (Elt Ideal) ((c : Thread nD τ).loc b)) (c : Dev nD) :
    ((dat2 (F := Ideal) V c).arrAt 4 cfg2.N : Mat 50000 256)
      = preProj (V c main_v19) (V c main_arg8) (V c main_v24) (V c main_v23) :=
  (dat2 (F := Ideal) V c).arrAt_eq_of_cover 4 (preProj (V c main_v19) (V c main_arg8) (V c main_v24) (V c main_v23))
    (fun t _ => flushed2_eq V c t) cover2

end Cert.KernelIdeal.Value

end
-- ==== Proof.MsgRegion.lean ====
/-
  What the per-edge kernel leaves in its output array.

  The grid has fifty points; point `t` reads rows `[10000 t, 10000 (t + 1))` of the two gathered arrays and of the
  edge features, the edge weights and the bias whole, and writes the same rows of the output:
  `(gi + gj) + ef · W_e + b`. The fifty row blocks tile the 500000 rows.
-/
import proofs.«422161_j25950192402497_2_alg».proof.Proof.Gen.KernelIdeal.Frame
import proofs.«422161_j25950192402497_2_alg».proof.Proof.GatherRow
import Idealize.ShloMosaic.Lib.Pipeline.Value
import Idealize.ShloMosaic.PureOps.Ideal.Laws

set_option maxRecDepth 16384

noncomputable section

namespace Cert.KernelIdeal.Value

open Cert.KernelIdeal.Gen
open Idealize.ShloMosaic Idealize.ShloMosaic.TcCoe Idealize.ShloMosaic.ValueIdx Idealize.SL.Sem
open Cert.MessagePassing Cert.GatherRow

/-- The zero offsets of a whole-buffer access, however spelt. -/
private theorem zeroOffsets : (![0, 0] : Fin 2 → Nat) = fun _ => 0 :=
  funext fun a => match a with | ⟨0, _⟩ => rfl | ⟨1, _⟩ => rfl

/-! ## The edge-feature product at an index -/

/-- The product's left operand at output index `i` and contraction position `q` is read at row `i 0` … -/
private theorem featLhs_row (i : S10000x128.Idx) (q : dot_S10000x16_S16x128_S10000x128_1_0_0_1_n_n.contr.Idx) :
    (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
/-- … and column `q`; -/
private theorem featLhs_col (i : S10000x128.Idx) (q : dot_S10000x16_S16x128_S10000x128_1_0_0_1_n_n.contr.Idx) :
    (dot_S10000x16_S16x128_S10000x128_1_0_0_1_n_n.lhsIdx i q 1).val = (q ⟨0, by decide⟩).val :=
  dot_S10000x16_S16x128_S10000x128_1_0_0_1_n_n.lhsIdx_val_of_single rfl i q
/-- its right operand at row `q` … -/
private theorem featRhs_row (i : S10000x128.Idx) (q : dot_S10000x16_S16x128_S10000x128_1_0_0_1_n_n.contr.Idx) :
    (dot_S10000x16_S16x128_S10000x128_1_0_0_1_n_n.rhsIdx i q 0).val = (q ⟨0, by decide⟩).val :=
  dot_S10000x16_S16x128_S10000x128_1_0_0_1_n_n.rhsIdx_val_of_single rfl i q
/-- … and column `i 1`. -/
private theorem featRhs_col (i : S10000x128.Idx) (q : dot_S10000x16_S16x128_S10000x128_1_0_0_1_n_n.contr.Idx) :
    (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

/-- The block product into a zero accumulator, at row `p` and feature `q`: the sum over the sixteen edge features. -/
private theorem featProduct_apply (x : FVec Ideal S10000x16 .f32) (w : FVec Ideal S16x128 .f32) (p : Fin 10000) (q : Fin 128) :
    matmul dot_S10000x16_S16x128_S10000x128_1_0_0_1_n_n (some .fp32) x w (constant (F := Ideal) S10000x128 .f32 0x00000000#32) (ix2 p q)
      = ∑ k : Fin 16, x (ix2 p k) * w (ix2 k q) := by
  simp only [matmul]
  rw [Ideal.matmul_constant_zero_apply, ← Equiv.sum_comp (contrEquiv1 dot_S10000x16_S16x128_S10000x128_1_0_0_1_n_n 16 rfl rfl).symm]
  refine Finset.sum_congr rfl fun k _ => ?_
  have hk := contrEquiv1_symm_val dot_S10000x16_S16x128_S10000x128_1_0_0_1_n_n 16 rfl rfl k
  have el : dot_S10000x16_S16x128_S10000x128_1_0_0_1_n_n.lhsIdx (ix2 p q) ((contrEquiv1 dot_S10000x16_S16x128_S10000x128_1_0_0_1_n_n 16 rfl rfl).symm k) = ix2 p k := funext fun a => Fin.ext (by
    match a with
    | ⟨0, _⟩ => exact featLhs_row _ _
    | ⟨1, _⟩ => exact (featLhs_col _ _).trans hk)
  have er : dot_S10000x16_S16x128_S10000x128_1_0_0_1_n_n.rhsIdx (ix2 p q) ((contrEquiv1 dot_S10000x16_S16x128_S10000x128_1_0_0_1_n_n 16 rfl rfl).symm k) = ix2 k q := funext fun a => Fin.ext (by
    match a with
    | ⟨0, _⟩ => exact (featRhs_row _ _).trans hk
    | ⟨1, _⟩ => exact featRhs_col _ _)
  rw [el, er]

/-- The bias row broadcast down the block, at row `p` and feature `q`: the bias at `q`. -/
private theorem biasRows_apply (b : FVec Ideal S1x128 .f32) (p : Fin 10000) (q : Fin 128) :
    broadcastTo S10000x128 b broadcasts_S1x128_S10000x128 (ix2 p q) = b (ix2 0 q) := by
  refine broadcastTo_apply b broadcasts_S1x128_S10000x128 (ix2 p q) (ix2 0 q) fun a => ?_
  match a with
  | ⟨0, _⟩ => rfl
  | ⟨1, _⟩ => show q.val = if (128 : Nat) = 1 then 0 else q.val; rw [if_neg (by decide)]

/-- The body's arithmetic at row `p` and feature `q` of its blocks. -/
private theorem payload_apply (x0 x1 : Vec Ideal S10000x128 .f32) (x2 : Vec Ideal S10000x16 .f32) (x3 : Vec Ideal S16x128 .f32)
    (x4 : Vec Ideal S1x128 .f32) (p : Fin 10000) (q : Fin 128) :
    k1_pay1 x0 x1 x2 x3 x4 (ix2 p q)
      = ((x0 (ix2 p q) + x1 (ix2 p q)) + ∑ k : Fin 16, x2 (ix2 p k) * x3 (ix2 k q)) + x4 (ix2 0 q) := by
  unfold k1_pay1
  simp only [shapeCast_self]
  rw [addf_apply, addf_apply, addf_apply, featProduct_apply, biasRows_apply]

/-- The body's arithmetic at row `p`, feature `q` of its blocks is `edgeSum` at an array index `i`, once each block reads,
    at the places the arithmetic visits, what its array holds at the matching places. -/
private theorem payload_eq_edgeSum (x0 x1 : Vec Ideal S10000x128 .f32) (x2 : Vec Ideal S10000x16 .f32) (x3 : Vec Ideal S16x128 .f32)
    (x4 : Vec Ideal S1x128 .f32) (gi gj : Mat 500000 128) (ef : Mat 500000 16) (we : Mat 16 128) (b2 : Mat 1 128)
    (p : Fin 10000) (q : Fin 128) (i : S500000x128.Idx)
    (h0 : x0 (ix2 p q) = gi i) (h1 : x1 (ix2 p q) = gj i)
    (h2 : ∀ k : Fin 16, x2 (ix2 p k) = ef (ix2 (i 0) k))
    (h3 : ∀ k : Fin 16, x3 (ix2 k q) = we (ix2 k (i 1)))
    (h4 : x4 (ix2 0 q) = b2 (ix2 0 (i 1))) :
    k1_pay1 x0 x1 x2 x3 x4 (ix2 p q) = edgeSum gi gj ef we b2 i := by
  rw [payload_apply, h0, h1, h4]
  exact congrArg (· + b2 (ix2 0 (i 1))) (congrArg (gi i + gj i + ·)
    (Finset.sum_congr rfl fun k _ => congrArg₂ (· * ·) (h2 k) (h3 k)))

/-! ## The first layer's region: from the blocks to the array -/

/-- The windows' block indices, decided over the fifty points: the two gathered arrays, the edge features and the output
    move together, block row `t` at point `t`; the edge weights and the bias row stay at block `(0, 0)`. -/
private theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `edgeSum` of the arrays the region was entered with: the output block's
    row `y` is array row `10000 t + y`, where the two gathered blocks and the edge-feature block read the same row and
    the weights and the bias are read whole. -/
private theorem flushed_eq1 (V : (c : Dev nD) → (b : Ref sig .tc) → Buf (Elt Ideal) ((c : Thread nD τ).loc b)) (c : Dev nD)
    (t : Fin cfg1.N) :
    (dat1 (F := Ideal) V c).flushed 5 t = ((cfg1.win 5).blk t).view.read (Elt Ideal)
      (edgeSum (V c main_v12) (V c main_v13) (V c main_arg2) (V c main_v6) (V c main_v14)) := by
  show (cfg1.win 5).cut (grid1.coords t) ((dat1 V c).after 5 t) = _
  rw [after1_5]
  unfold out1_5
  rw [View.canon_unit_zero zeroOffsets]
  simp only [View.ld_unit_zero (S := S10000x128) zeroOffsets, View.ld_unit_zero (S := S10000x16) zeroOffsets,
    View.ld_unit_zero (S := S16x128) zeroOffsets, View.ld_unit_zero (S := S1x128) zeroOffsets]
  obtain ⟨a0, a1, b0, b1, c0, c1, d0, d1, e0, e1, f0, f1⟩ := blockIndex1 t
  funext j
  have hj0 : (j 0).val < 10000 := (j 0).isLt
  have hj1 : (j 1).val < 128 := (j 1).isLt
  have hy : (cfg1.win 5).xinj (grid1.coords t) j = ix2 (⟨(j 0).val, hj0⟩ : Fin 10000) (⟨(j 1).val, hj1⟩ : Fin 128) :=
    funext fun a => match a with | ⟨0, _⟩ => rfl | ⟨1, _⟩ => rfl
  refine (congrArg (k1_pay1 (iblk1 V c 0 t) (iblk1 V c 1 t) (iblk1 V c 2 t) (iblk1 V c 3 t) (iblk1 V c 4 t)) hy).trans ?_
  refine payload_eq_edgeSum (iblk1 V c 0 t) (iblk1 V c 1 t) (iblk1 V c 2 t) (iblk1 V c 3 t) (iblk1 V c 4 t)
    (V c main_v12) (V c main_v13) (V c main_arg2) (V c main_v6) (V c main_v14)
    ⟨(j 0).val, hj0⟩ ⟨(j 1).val, hj1⟩ (((cfg1.win 5).blk t).view.emb j) ?_ ?_ ?_ ?_ ?_
  · show V c main_v12 (((cfg1.win 0).blk t).view.emb (ix2 (⟨(j 0).val, hj0⟩ : Fin 10000) (⟨(j 1).val, hj1⟩ : Fin 128)))
      = V c main_v12 (((cfg1.win 5).blk t).view.emb j)
    refine congrArg _ (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 128 + 1 * (j 1).val = win1_5.index t (1 : Fin 2) * 128 + 1 * (j 1).val; omega
  · show V c main_v13 (((cfg1.win 1).blk t).view.emb (ix2 (⟨(j 0).val, hj0⟩ : Fin 10000) (⟨(j 1).val, hj1⟩ : Fin 128)))
      = V c main_v13 (((cfg1.win 5).blk t).view.emb j)
    refine congrArg _ (funext fun a => Fin.ext ?_)
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 128 + 1 * (j 1).val = win1_5.index t (1 : Fin 2) * 128 + 1 * (j 1).val; omega
  · intro k
    have hk : k.val < 16 := k.isLt
    show V c main_arg2 (((cfg1.win 2).blk t).view.emb (ix2 (⟨(j 0).val, hj0⟩ : Fin 10000) k))
      = V c main_arg2 (ix2 (((cfg1.win 5).blk t).view.emb j 0) k)
    refine congrArg _ (funext fun a => Fin.ext ?_)
    match a with
    | ⟨0, _⟩ => show win1_2.index t (0 : Fin 2) * 10000 + 1 * (j 0).val = win1_5.index t (0 : Fin 2) * 10000 + 1 * (j 0).val; omega
    | ⟨1, _⟩ => show win1_2.index t (1 : Fin 2) * 16 + 1 * k.val = k.val; omega
  · intro k
    have hk : k.val < 16 := k.isLt
    show V c main_v6 (((cfg1.win 3).blk t).view.emb (ix2 k (⟨(j 1).val, hj1⟩ : Fin 128)))
      = V c main_v6 (ix2 k (((cfg1.win 5).blk t).view.emb j 1))
    refine congrArg _ (funext fun a => Fin.ext ?_)
    match a with
    | ⟨0, _⟩ => show win1_3.index t (0 : Fin 2) * 16 + 1 * k.val = k.val; omega
    | ⟨1, _⟩ => show win1_3.index t (1 : Fin 2) * 128 + 1 * (j 1).val = win1_5.index t (1 : Fin 2) * 128 + 1 * (j 1).val; omega
  · show V c main_v14 (((cfg1.win 4).blk t).view.emb (ix2 (0 : Fin 1) (⟨(j 1).val, hj1⟩ : Fin 128)))
      = V c main_v14 (ix2 (0 : Fin 1) (((cfg1.win 5).blk t).view.emb j 1))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the output array is in point `t`'s block iff each coordinate is in the block's range on its axis. -/
private theorem mem_block1 (t : Fin cfg1.N) (i : S500000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v15).slice (win1_5.rect t)).set ↔ _
  rw [View.set_slice_whole, Rect.mem_set_unit]
  exact Iff.rfl

/-- The fifty row blocks tile the 500000 rows: row `r` lies in the block of point `r / 10000`. -/
private theorem covered1 (i : S500000x128.Idx) :
    ∃ t : Fin cfg1.N, (cfg1.win 5).flush t = true ∧ i ∈ ((cfg1.win 5).blk t).view.set := by
  have hi0 : (i 0).val < 500000 := (i 0).isLt
  have hi1 : (i 1).val < 128 := (i 1).isLt
  have hN : cfg1.N = 50 := N_1
  have ht : (i 0).val / 10000 < cfg1.N := by rw [hN]; omega
  refine ⟨⟨(i 0).val / 10000, ht⟩, flush1_5 _, ?_⟩
  rw [mem_block1]
  obtain ⟨-, -, -, -, -, -, -, -, -, -, f0, f1⟩ := blockIndex1 ⟨(i 0).val / 10000, ht⟩
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [f0]
    show (i 0).val / 10000 * 10000 ≤ (i 0).val ∧ (i 0).val < (i 0).val / 10000 * 10000 + 10000
    omega
  | ⟨1, _⟩ =>
    show win1_5.index ⟨(i 0).val / 10000, ht⟩ (1 : Fin 2) * 128 ≤ (i 1).val
      ∧ (i 1).val < win1_5.index ⟨(i 0).val / 10000, ht⟩ (1 : Fin 2) * 128 + 128
    omega

theorem final1 (V : (c : Dev nD) → (b : Ref sig .tc) → Buf (Elt Ideal) ((c : Thread nD τ).loc b)) (c : Dev nD) :
    ((dat1 (F := Ideal) V c).arrAt 5 cfg1.N : Mat 500000 128)
      = edgeSum (V c main_v12) (V c main_v13) (V c main_arg2) (V c main_v6) (V c main_v14) :=
  (dat1 (F := Ideal) V c).arrAt_eq_of_cover 5 (edgeSum (V c main_v12) (V c main_v13) (V c main_arg2) (V c main_v6) (V c main_v14))
    (fun t _ => flushed_eq1 V c t) covered1

/-! ## The second message-passing layer's region: the same body on the same sizes -/

/-- The per-edge kernel of the second layer does the same arithmetic as that of the first. -/
private theorem sameBody (x0 x1 : Vec Ideal S10000x128 .f32) (x2 : Vec Ideal S10000x16 .f32) (x3 : Vec Ideal S16x128 .f32)
    (x4 : Vec Ideal S1x128 .f32) : k3_pay1 x0 x1 x2 x3 x4 = k1_pay1 x0 x1 x2 x3 x4 := rfl

/-- The windows' block indices, decided over the fifty points: the two gathered arrays, the edge features and the output
    move together, block row `t` at point `t`; the edge weights and the bias row stay at block `(0, 0)`. -/
private theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of `edgeSum` of the arrays the region was entered with: the output block's
    row `y` is array row `10000 t + y`, where the two gathered blocks and the edge-feature block read the same row and
    the weights and the bias are read whole. -/
private theorem flushed_eq3 (V : (c : Dev nD) → (b : Ref sig .tc) → Buf (Elt Ideal) ((c : Thread nD τ).loc b)) (c : Dev nD)
    (t : Fin cfg3.N) :
    (dat3 (F := Ideal) V c).flushed 5 t = ((cfg3.win 5).blk t).view.read (Elt Ideal)
      (edgeSum (V c main_v28) (V c main_v29) (V c main_arg2) (V c main_v22) (V c main_v30)) := by
  show (cfg3.win 5).cut (grid3.coords t) ((dat3 V c).after 5 t) = _
  rw [after3_5]
  unfold out3_5
  rw [View.canon_unit_zero zeroOffsets]
  simp only [View.ld_unit_zero (S := S10000x128) zeroOffsets, View.ld_unit_zero (S := S10000x16) zeroOffsets,
    View.ld_unit_zero (S := S16x128) zeroOffsets, View.ld_unit_zero (S := S1x128) zeroOffsets]
  obtain ⟨a0, a1, b0, b1, c0, c1, d0, d1, e0, e1, f0, f1⟩ := blockIndex3 t
  funext j
  have hj0 : (j 0).val < 10000 := (j 0).isLt
  have hj1 : (j 1).val < 128 := (j 1).isLt
  have hy : (cfg3.win 5).xinj (grid3.coords t) j = ix2 (⟨(j 0).val, hj0⟩ : Fin 10000) (⟨(j 1).val, hj1⟩ : Fin 128) :=
    funext fun a => match a with | ⟨0, _⟩ => rfl | ⟨1, _⟩ => rfl
  refine (congrArg (k3_pay1 (iblk3 V c 0 t) (iblk3 V c 1 t) (iblk3 V c 2 t) (iblk3 V c 3 t) (iblk3 V c 4 t)) hy).trans ?_
  refine (congrFun (sameBody (iblk3 V c 0 t) (iblk3 V c 1 t) (iblk3 V c 2 t) (iblk3 V c 3 t) (iblk3 V c 4 t)) _).trans ?_
  refine payload_eq_edgeSum (iblk3 V c 0 t) (iblk3 V c 1 t) (iblk3 V c 2 t) (iblk3 V c 3 t) (iblk3 V c 4 t)
    (V c main_v28) (V c main_v29) (V c main_arg2) (V c main_v22) (V c main_v30)
    ⟨(j 0).val, hj0⟩ ⟨(j 1).val, hj1⟩ (((cfg3.win 5).blk t).view.emb j) ?_ ?_ ?_ ?_ ?_
  · show V c main_v28 (((cfg3.win 0).blk t).view.emb (ix2 (⟨(j 0).val, hj0⟩ : Fin 10000) (⟨(j 1).val, hj1⟩ : Fin 128)))
      = V c main_v28 (((cfg3.win 5).blk t).view.emb j)
    refine congrArg _ (funext fun a => Fin.ext ?_)
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 128 + 1 * (j 1).val = win3_5.index t (1 : Fin 2) * 128 + 1 * (j 1).val; omega
  · show V c main_v29 (((cfg3.win 1).blk t).view.emb (ix2 (⟨(j 0).val, hj0⟩ : Fin 10000) (⟨(j 1).val, hj1⟩ : Fin 128)))
      = V c main_v29 (((cfg3.win 5).blk t).view.emb j)
    refine congrArg _ (funext fun a => Fin.ext ?_)
    match a with
    | ⟨0, _⟩ => show win3_1.index t (0 : Fin 2) * 10000 + 1 * (j 0).val = win3_5.index t (0 : Fin 2) * 10000 + 1 * (j 0).val; omega
    | ⟨1, _⟩ => show win3_1.index t (1 : Fin 2) * 128 + 1 * (j 1).val = win3_5.index t (1 : Fin 2) * 128 + 1 * (j 1).val; omega
  · intro k
    have hk : k.val < 16 := k.isLt
    show V c main_arg2 (((cfg3.win 2).blk t).view.emb (ix2 (⟨(j 0).val, hj0⟩ : Fin 10000) k))
      = V c main_arg2 (ix2 (((cfg3.win 5).blk t).view.emb j 0) k)
    refine congrArg _ (funext fun a => Fin.ext ?_)
    match a with
    | ⟨0, _⟩ => show win3_2.index t (0 : Fin 2) * 10000 + 1 * (j 0).val = win3_5.index t (0 : Fin 2) * 10000 + 1 * (j 0).val; omega
    | ⟨1, _⟩ => show win3_2.index t (1 : Fin 2) * 16 + 1 * k.val = k.val; omega
  · intro k
    have hk : k.val < 16 := k.isLt
    show V c main_v22 (((cfg3.win 3).blk t).view.emb (ix2 k (⟨(j 1).val, hj1⟩ : Fin 128)))
      = V c main_v22 (ix2 k (((cfg3.win 5).blk t).view.emb j 1))
    refine congrArg _ (funext fun a => Fin.ext ?_)
    match a with
    | ⟨0, _⟩ => show win3_3.index t (0 : Fin 2) * 16 + 1 * k.val = k.val; omega
    | ⟨1, _⟩ => show win3_3.index t (1 : Fin 2) * 128 + 1 * (j 1).val = win3_5.index t (1 : Fin 2) * 128 + 1 * (j 1).val; omega
  · show V c main_v30 (((cfg3.win 4).blk t).view.emb (ix2 (0 : Fin 1) (⟨(j 1).val, hj1⟩ : Fin 128)))
      = V c main_v30 (ix2 (0 : Fin 1) (((cfg3.win 5).blk t).view.emb j 1))
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega

/-- An index of the output array is in point `t`'s block iff each coordinate is in the block's range on its axis. -/
private theorem mem_block3 (t : Fin cfg3.N) (i : S500000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v31).slice (win3_5.rect t)).set ↔ _
  rw [View.set_slice_whole, Rect.mem_set_unit]
  exact Iff.rfl

/-- The fifty row blocks tile the 500000 rows: row `r` lies in the block of point `r / 10000`. -/
private theorem covered3 (i : S500000x128.Idx) :
    ∃ t : Fin cfg3.N, (cfg3.win 5).flush t = true ∧ i ∈ ((cfg3.win 5).blk t).view.set := by
  have hi0 : (i 0).val < 500000 := (i 0).isLt
  have hi1 : (i 1).val < 128 := (i 1).isLt
  have hN : cfg3.N = 50 := N_3
  have ht : (i 0).val / 10000 < cfg3.N := by rw [hN]; omega
  refine ⟨⟨(i 0).val / 10000, ht⟩, flush3_5 _, ?_⟩
  rw [mem_block3]
  obtain ⟨-, -, -, -, -, -, -, -, -, -, f0, f1⟩ := blockIndex3 ⟨(i 0).val / 10000, ht⟩
  intro a
  match a with
  | ⟨0, _⟩ =>
    show win3_5.index ⟨(i 0).val / 10000, ht⟩ (0 : Fin 2) * 10000 ≤ (i 0).val
      ∧ (i 0).val < win3_5.index ⟨(i 0).val / 10000, ht⟩ (0 : Fin 2) * 10000 + 10000
    rw [f0]
    show (i 0).val / 10000 * 10000 ≤ (i 0).val ∧ (i 0).val < (i 0).val / 10000 * 10000 + 10000
    omega
  | ⟨1, _⟩ =>
    show win3_5.index ⟨(i 0).val / 10000, ht⟩ (1 : Fin 2) * 128 ≤ (i 1).val
      ∧ (i 1).val < win3_5.index ⟨(i 0).val / 10000, ht⟩ (1 : Fin 2) * 128 + 128
    omega

theorem final3 (V : (c : Dev nD) → (b : Ref sig .tc) → Buf (Elt Ideal) ((c : Thread nD τ).loc b)) (c : Dev nD) :
    ((dat3 (F := Ideal) V c).arrAt 5 cfg3.N : Mat 500000 128)
      = edgeSum (V c main_v28) (V c main_v29) (V c main_arg2) (V c main_v22) (V c main_v30) :=
  (dat3 (F := Ideal) V c).arrAt_eq_of_cover 5 (edgeSum (V c main_v28) (V c main_v29) (V c main_arg2) (V c main_v22) (V c main_v30))
    (fun t _ => flushed_eq3 V c t) covered3

end Cert.KernelIdeal.Value

end
-- ==== Proof.HostWeights.lean ====
/-
  The host operations that prepare a layer's weights, and the aggregation between the layers.

  Before each projection kernel the message weights are cut into their three row blocks, the first two laid side by
  side (`projWeights`), and the pre-linear bias is reshaped to one row. Between the layers the messages are summed
  at their targets over a zero array and passed through `relu`.
-/
import proofs.«422161_j25950192402497_2_alg».proof.Proof.Gen.KernelIdeal.Frame
import proofs.«422161_j25950192402497_2_alg».proof.Proof.GatherRow
import Idealize.ShloMosaic.Lib.Pipeline.Value
import Idealize.ShloMosaic.Lib.StableHlo.Run
import Idealize.ShloMosaic.PureOps.Ideal.Laws
import Idealize.ShloMosaic.Lib.ValueLayout

set_option maxRecDepth 16384

noncomputable section

namespace Cert.KernelIdeal.Value

open Cert.KernelIdeal.Gen
open Idealize.ShloMosaic Idealize.ShloMosaic.TcCoe Idealize.ShloMosaic.ValueIdx Idealize.SL.Sem
open Cert.MessagePassing Cert.GatherRow

open Idealize.ShloMosaic.StableHlo
open Cert.KernelIdeal.Facts

variable (m : (ℓ : Loc nD τ sig) → Buf (Elt Ideal) ℓ) (ρ : Dev nD → PrngReg)

/-- A buffer that no operation of a host stretch writes holds after the stretch what it held before. -/
local macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The operations read at an index -/

/-- A vector cast to a one-row matrix reads, at `(u, j)`, the vector at `j`. -/
private theorem shapeCast_eq_asRow (b : Row 128) (h : (⟨1, ![128]⟩ : Shape).ShapeCasts ⟨2, ![1, 128]⟩) :
    shapeCast ⟨2, ![1, 128]⟩ b h = asRow b := by
  funext i
  obtain ⟨u, j, rfl⟩ : ∃ u j, i = ix2 u j := ⟨i 0, i 1, eq_ix2 i⟩
  exact shapeCast_a_1a_apply b h u j

/-- Rows `0:128` and rows `128:256` of the message weights, laid side by side, are the projection weights: column
    `c < 128` reads row block 0 at column `c`, column `128 + c` reads row block 1 at column `c`. -/
private theorem concat_eq_projWeights (mw : Mat 272 128)
    (h0 : (⟨2, ![272, 128]⟩ : Shape).Slices ![0, 0] ⟨2, ![128, 128]⟩)
    (h1 : (⟨2, ![272, 128]⟩ : Shape).Slices ![128, 0] ⟨2, ![128, 128]⟩)
    (hc : Shape.Concatenates [(⟨2, ![128, 128]⟩ : Shape), ⟨2, ![128, 128]⟩] ⟨2, ![128, 256]⟩ 1) :
    concatenate ⟨2, ![128, 256]⟩ 1
        [⟨⟨2, ![128, 128]⟩, extractStridedSlice ⟨2, ![128, 128]⟩ ![0, 0] mw h0⟩,
         ⟨⟨2, ![128, 128]⟩, extractStridedSlice ⟨2, ![128, 128]⟩ ![128, 0] mw h1⟩] hc
      = projWeights mw := by
  funext i
  have hi0 : (i 0).val < 128 := (i 0).isLt
  have hi1 : (i 1).val < 256 := (i 1).isLt
  unfold projWeights
  by_cases h : (i 1).val < 128
  · rw [dif_pos h]
    refine (concatenate_pair_apply_left (t := ⟨2, ![128, 256]⟩) (s₁ := ⟨2, ![128, 128]⟩) (s₂ := ⟨2, ![128, 128]⟩) (1 : Fin 2) _ _ hc i rfl
      (ix2 (i 0) (⟨(i 1).val, h⟩ : Fin 128)) fun b => ?_).trans ?_
    · match b with
      | ⟨0, _⟩ => rfl
      | ⟨1, _⟩ => rfl
    · refine extractStridedSlice_apply ![0, 0] mw h0 _ _ fun a => ?_
      match a with
      | ⟨0, _⟩ => show (i 0).val = 0 + (i 0).val; omega
      | ⟨1, _⟩ => show (i 1).val = 0 + (i 1).val; omega
  · rw [dif_neg h]
    refine (concatenate_pair_apply_right (t := ⟨2, ![128, 256]⟩) (s₁ := ⟨2, ![128, 128]⟩) (s₂ := ⟨2, ![128, 128]⟩) (1 : Fin 2) _ _ hc i rfl rfl
      (ix2 (i 0) (⟨(i 1).val - 128, by omega⟩ : Fin 128)) (fun b hb => ?_) ?_).trans ?_
    · match b with
      | ⟨0, _⟩ => rfl
      | ⟨1, _⟩ => exact absurd rfl hb
    · show (i 1).val - 128 + 128 = (i 1).val; omega
    · refine extractStridedSlice_apply ![128, 0] mw h1 _ _ fun a => ?_
      match a with
      | ⟨0, _⟩ => show 128 + (i 0).val = 128 + (i 0).val; rfl
      | ⟨1, _⟩ => show (i 1).val - 128 = 0 + ((i 1).val - 128); omega

/-- A typed reference's two transports cancel. -/
private theorem ofBuf_toBuf {sig : RefSig} {T : BufTy} {Val : EltTy → Type} (x : StableHlo.TRef sig T) (v : T.Contents Val) :
    x.ofBuf (x.toBuf v) = v := by
  obtain ⟨r, ty_eq, h1, h2⟩ := x; subst ty_eq; rfl

/-- Row 1 of a pair array, cut out and flattened, read at `e` is the array at `(1, e)`. -/
private theorem row1_apply (x : Pairs 500000) (hs : (⟨2, ![2, 500000]⟩ : Shape).Slices ![1, 0] ⟨2, ![1, 500000]⟩)
    (hc : (⟨2, ![1, 500000]⟩ : Shape).ShapeCasts ⟨1, ![500000]⟩) (e : Fin 500000) :
    shapeCast ⟨1, ![500000]⟩ (extractStridedSlice ⟨2, ![1, 500000]⟩ ![1, 0] x hs) hc (ix1 e) = x (ix2 1 e) := by
  refine (shapeCast_1a_a_apply _ hc e).trans ?_
  refine extractStridedSlice_apply ![1, 0] x hs _ _ fun a => ?_
  match a with
  | ⟨0, _⟩ => rfl
  | ⟨1, _⟩ => show e.val = 0 + e.val; omega

/-- A vector broadcast to a one-column matrix reads, at `(e, u)`, the vector at `e`. -/
private theorem column_apply (v : (⟨1, ![500000]⟩ : Shape).Idx → BitVec 32)
    (hb : (⟨1, ![500000]⟩ : Shape).BroadcastsInDim ⟨2, ![500000, 1]⟩ ![0]) (j : (⟨2, ![500000, 1]⟩ : Shape).Idx) :
    broadcastInDim ⟨2, ![500000, 1]⟩ ![0] hb v j = v (ix1 (j 0)) := by
  refine broadcastInDim_apply ![0] hb v j _ fun a => ?_
  match a with
  | ⟨0, _⟩ =>
    show (j 0).val = if (500000 : Nat) = 1 then 0 else (j 0).val
    rw [if_neg (by decide)]

/-- The zero constant broadcast to any shape is zero everywhere. -/
private theorem zero_bcast_apply {t : Shape} (hz : S_.BroadcastsInDim t ![]) (j : t.Idx) :
    broadcastInDim t ![] hz (constant (F := Ideal) S_ .f32 0x00000000#32) j = (0 : EReal) := by
  refine (broadcastInDim_apply ![] hz _ j ix0 fun a => a.elim0).trans ?_
  rw [constant_apply]
  exact Ideal.ofBits_zero_f32

/-- The accumulating scatter of the messages over a zero array at the broadcast target column, followed by the maximum
    with a zero array, is `relu` of the aggregation at the targets. -/
private theorem relu_scatter_eq (ei : Pairs 500000) (dst : (⟨1, ![500000]⟩ : Shape).Idx → BitVec 32)
    (hdst : ∀ e : Fin 500000, dst (ix1 e) = ei (ix2 1 e)) (U : Mat 500000 128)
    (hz : S_.BroadcastsInDim ⟨2, ![50000, 128]⟩ ![])
    (hb : (⟨1, ![500000]⟩ : Shape).BroadcastsInDim ⟨2, ![500000, 1]⟩ ![0])
    (d : ScatterDims ⟨2, ![50000, 128]⟩ ⟨2, ![500000, 1]⟩ ⟨2, ![500000, 128]⟩) (hd : d = scat) :
    maximumf (F := Ideal) (φ := .f32)
        (Host.scatterAdd d (broadcastInDim ⟨2, ![50000, 128]⟩ ![] hz (constant S_ .f32 0x00000000#32))
          (broadcastInDim ⟨2, ![500000, 1]⟩ ![0] hb dst) U)
        (broadcastInDim ⟨2, ![50000, 128]⟩ ![] hz (constant S_ .f32 0x00000000#32))
      = relu (aggregate (targets ei) U) := by
  subst hd
  have hZ : broadcastInDim ⟨2, ![50000, 128]⟩ ![] hz (constant (F := Ideal) S_ .f32 0x00000000#32) = fun _ => (0 : EReal) :=
    funext (zero_bcast_apply hz)
  have hI : broadcastInDim ⟨2, ![500000, 1]⟩ ![0] hb dst = targets ei :=
    funext fun j => (column_apply dst hb j).trans (hdst (j 0))
  rw [hZ, hI]
  rfl

/-! ## Buffers that reach a later boundary untouched

No host operation writes an argument of the program and no kernel region has one among its output windows, so an
argument read at a later boundary is the launch memory's. The target row of the edge pairs, cut out before region 0,
is likewise read unchanged after region 1. -/

private theorem W10_arg8_launch (c : Dev nD) : W10 m ρ c (Proc.devRef .tc main_arg8) = m ((c.tc : Thread nD τ).loc main_arg8) :=
  calc W10 m ρ c (Proc.devRef .tc main_arg8)
    _ = W9 m ρ c (Proc.devRef .tc main_arg8) := by unwritten hostOps2_2
    _ = W8 m ρ c (Proc.devRef .tc main_arg8) := by unwritten hostOps2_1
    _ = W7 m ρ c (Proc.devRef .tc main_arg8) := by unwritten hostOps2
    _ = W6 m ρ c (Proc.devRef .tc main_arg8) := W7_of_ne m ρ c main_arg8 (by decide)
    _ = W5 m ρ c (Proc.devRef .tc main_arg8) := by unwritten hostOps1_3
    _ = W4 m ρ c (Proc.devRef .tc main_arg8) := by unwritten hostOps1_2
    _ = W3 m ρ c (Proc.devRef .tc main_arg8) := by unwritten hostOps1_1
    _ = W2 m ρ c (Proc.devRef .tc main_arg8) := by unwritten hostOps1
    _ = W1 m ρ c (Proc.devRef .tc main_arg8) := W2_of_ne m ρ c main_arg8 (by decide)
    _ = W0 m ρ c (Proc.devRef .tc main_arg8) := by unwritten hostOps0
    _ = m ((c.tc : Thread nD τ).loc main_arg8) := rfl

private theorem W7_arg9_launch (c : Dev nD) : W7 m ρ c (Proc.devRef .tc main_arg9) = m ((c.tc : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := by unwritten hostOps1_3
    _ = W4 m ρ c (Proc.devRef .tc main_arg9) := by unwritten hostOps1_2
    _ = W3 m ρ c (Proc.devRef .tc main_arg9) := by unwritten hostOps1_1
    _ = W2 m ρ c (Proc.devRef .tc main_arg9) := by unwritten hostOps1
    _ = W1 m ρ c (Proc.devRef .tc main_arg9) := W2_of_ne m ρ c main_arg9 (by decide)
    _ = W0 m ρ c (Proc.devRef .tc main_arg9) := by unwritten hostOps0
    _ = m ((c.tc : Thread nD τ).loc main_arg9) := rfl

private theorem W7_arg10_launch (c : Dev nD) : W7 m ρ c (Proc.devRef .tc main_arg10) = m ((c.tc : Thread nD τ).loc main_arg10) :=
  calc W7 m ρ c (Proc.devRef .tc main_arg10)
    _ = W6 m ρ c (Proc.devRef .tc main_arg10) := W7_of_ne m ρ c main_arg10 (by decide)
    _ = W5 m ρ c (Proc.devRef .tc main_arg10) := by unwritten hostOps1_3
    _ = W4 m ρ c (Proc.devRef .tc main_arg10) := by unwritten hostOps1_2
    _ = W3 m ρ c (Proc.devRef .tc main_arg10) := by unwritten hostOps1_1
    _ = W2 m ρ c (Proc.devRef .tc main_arg10) := by unwritten hostOps1
    _ = W1 m ρ c (Proc.devRef .tc main_arg10) := W2_of_ne m ρ c main_arg10 (by decide)
    _ = W0 m ρ c (Proc.devRef .tc main_arg10) := by unwritten hostOps0
    _ = m ((c.tc : Thread nD τ).loc main_arg10) := rfl

private theorem W7_v3_eq_W1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := by unwritten hostOps1_3
    _ = W4 m ρ c (Proc.devRef .tc main_v3) := by unwritten hostOps1_2
    _ = W3 m ρ c (Proc.devRef .tc main_v3) := by unwritten hostOps1_1
    _ = W2 m ρ c (Proc.devRef .tc main_v3) := by unwritten hostOps1
    _ = W1 m ρ c (Proc.devRef .tc main_v3) := W2_of_ne m ρ c main_v3 (by decide)

/-- The target row as the first stretch leaves it: row 1 of the edge pairs, flattened. -/
private theorem W1_v3 (c : Dev nD) :
    (W1 m ρ c (Proc.devRef .tc main_v3) : (⟨1, ![500000]⟩ : Shape).Idx → BitVec 32)
      = shapeCast S500000 (extractStridedSlice S1x500000 ![1, 0] (m ((c.tc : Thread nD τ).loc main_arg1) : Pairs 500000)
          slices_S2x500000_S1x500000_1_0) shapeCasts_S1x500000_S500000 := by
  dsimp only [W1, hostOps0]
  after_results
  rfl

/-! ## The two stretches -/

theorem W1_arg0 (c : Dev nD) : W1 m ρ c (Proc.devRef .tc main_arg0) = m ((c.tc : Thread nD τ).loc main_arg0) := by
  dsimp only [W1, hostOps0]
  after_results
theorem W1_arg4 (c : Dev nD) : W1 m ρ c (Proc.devRef .tc main_arg4) = m ((c.tc : Thread nD τ).loc main_arg4) := by
  dsimp only [W1, hostOps0]
  after_results
theorem W1_v8 (c : Dev nD) : (W1 m ρ c (Proc.devRef .tc main_v8) : Mat 1 128) = asRow (m ((c.tc : Thread nD τ).loc main_arg5)) := by
  dsimp only [W1, hostOps0]
  after_results
  exact shapeCast_eq_asRow (m ((c.tc : Thread nD τ).loc main_arg5)) shapeCasts_S128_S1x128
theorem W1_v7 (c : Dev nD) : (W1 m ρ c (Proc.devRef .tc main_v7) : Mat 128 256) = projWeights (m ((c.tc : Thread nD τ).loc main_arg6)) := by
  dsimp only [W1, hostOps0]
  after_results
  exact concat_eq_projWeights (m ((c.tc : Thread nD τ).loc main_arg6)) _ _ _

set_option maxRecDepth 65536 in
set_option maxHeartbeats 16000000 in
theorem W10_v19 (c : Dev nD) :
    (W10 m ρ c (Proc.devRef .tc main_v19) : Mat 50000 128)
      = relu (aggregate (targets (m ((c.tc : Thread nD τ).loc main_arg1))) (W7 m ρ c (Proc.devRef .tc main_v15))) := by
  dsimp only [W10, W9, W8, hostOps2, hostOps2_1, hostOps2_2]
  after_results_simp
  simp only [ofBuf_toBuf]
  rw [show ∀ v : (⟨S50000x128, .f32⟩ : BufTy).Contents (Elt Ideal),
      (StableHlo.TRef.of (T := ⟨S50000x128, .f32⟩) main_v19).toBuf v = v from fun _ => rfl]
  rw [show ∀ v : (⟨S50000x128, .f32⟩ : BufTy).Contents (Elt Ideal),
      (StableHlo.TRef.of (T := ⟨S50000x128, .f32⟩) main_v18).ofBuf v = v from fun _ => rfl]
  -- the index column is the target row: carried from the first stretch, where it is row 1 of the pairs, flattened
  refine relu_scatter_eq (m ((c.tc : Thread nD τ).loc main_arg1)) (W7 m ρ c (Proc.devRef .tc main_v3)) (fun e => ?_) _ _ _ _ rfl
  rw [W7_v3_eq_W1 m ρ c, W1_v3 m ρ c]
  exact row1_apply _ _ _ e
theorem W10_arg8 (c : Dev nD) : W10 m ρ c (Proc.devRef .tc main_arg8) = m ((c.tc : Thread nD τ).loc main_arg8) :=
  W10_arg8_launch m ρ c
theorem W10_v24 (c : Dev nD) : (W10 m ρ c (Proc.devRef .tc main_v24) : Mat 1 128) = asRow (m ((c.tc : Thread nD τ).loc main_arg9)) := by
  dsimp only [W10, hostOps2_2]
  after_results
  rw [W7_arg9_launch m ρ c]
  exact shapeCast_eq_asRow (m ((c.tc : Thread nD τ).loc main_arg9)) shapeCasts_S128_S1x128
theorem W10_v23 (c : Dev nD) : (W10 m ρ c (Proc.devRef .tc main_v23) : Mat 128 256) = projWeights (m ((c.tc : Thread nD τ).loc main_arg10)) := by
  dsimp only [W10, hostOps2_2]
  after_results
  rw [W7_arg10_launch m ρ c]
  exact concat_eq_projWeights (m ((c.tc : Thread nD τ).loc main_arg10)) _ _ _

end Cert.KernelIdeal.Value

end
-- ==== Proof.TakeRows.lean ====
/-
  `take(x, idx, axis = 0)` with its out-of-range fill, read at an index.

  The take wraps a negative index once (`idx < 0 ? idx + 50000 : idx`), tests the wrapped index against
  `[0, 49999]`, gathers the row the (clamped) wrapped index names, and replaces the row by a fill value where the
  test fails. For an index already in `[0, 50000)` the wrap is the identity and the test passes, so the take is the
  plain row read.
-/
import Idealize.ShloMosaic.Lib.ReduceAll
import proofs.«422161_j25950192402497_2_alg».proof.Proof.GatherRow

noncomputable section

namespace Cert.TakeRows

open Idealize.ShloMosaic Idealize.ShloMosaic.ValueIdx Cert.MessagePassing Cert.GatherRow

/-! ### Words in range -/

private theorem toInt_zero : (0#32 : BitVec 32).toInt = 0 := by decide

private theorem toInt_last : (49999#32 : BitVec 32).toInt = 49999 := by decide

/-- A word in range is not negative, so the wrap by 50000 leaves it. -/
private theorem wrap_of_inRange (w : BitVec 32) (h : InRange w) :
    Scalar.select (IntOp.cmpi .slt w 0#32) (IntOp.addi w 50000#32) w = w := by
  have hc : ¬ IntOp.cmpi .slt w 0#32 = 1#1 := by
    intro hc
    have hlt := IntOp.cmpi_slt.1 hc
    rw [toInt_zero] at hlt
    exact absurd h.1 (by omega)
  exact if_neg hc

/-- A word in range passes both range tests. -/
private theorem test_of_inRange (w : BitVec 32) (h : InRange w) :
    IntOp.andi (IntOp.cmpi .sge w 0#32) (IntOp.cmpi .sle w 49999#32) = 1#1 := by
  refine IntOp.andi_eq_one.2 ⟨IntOp.cmpi_sge.2 ?_, IntOp.cmpi_sle.2 ?_⟩
  · rw [toInt_zero]; exact h.1
  · rw [toInt_last]; have h2 := h.2; omega

/-- A left fold by `and` from 1 over bits that are all 1 is 1. -/
private theorem foldl_andi_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := by rw [h a (List.mem_cons.2 (Or.inl rfl))]; decide
    rw [List.foldl_cons, ha]
    exact foldl_andi_one f l (fun i hi => h i (List.mem_cons.2 (Or.inr hi)))

/-! ### The layout operations at an index -/

/-- A vector laid along the first axis of a rectangle reads, at `(e, c)`, the vector at `e`. -/
private theorem bcast_axis0 {α : Type} {n m : Nat} (b : (⟨1, ![n]⟩ : Shape).BroadcastsInDim ⟨2, ![n, m]⟩ ![0])
    (v : (⟨1, ![n]⟩ : Shape).Idx → α) (e : Fin n) (c : Fin m) :
    broadcastInDim ⟨2, ![n, m]⟩ ![0] b v (ix2 e c) = v (ix1 e) := by
  unfold broadcastInDim
  congr 1
  funext a
  refine Fin.ext ?_
  match a with
  | ⟨0, _⟩ =>
    have he := e.isLt
    split
    · next h1 => change n = 1 at h1; show (0 : Nat) = e.val; omega
    · rfl

/-- The wrapped index column at row `e` is the index word itself when that word is in range. -/
private theorem column_of_inRange {n : Nat}
    (b1 : (⟨0, ![]⟩ : Shape).BroadcastsInDim ⟨1, ![n]⟩ ![])
    (b2 : (⟨1, ![n]⟩ : Shape).BroadcastsInDim ⟨2, ![n, 1]⟩ ![0])
    (idx : IVec ⟨1, ![n]⟩ 32) (e : Fin n) (h : InRange (idx (ix1 e))) (c : Fin 1) :
    broadcastInDim ⟨2, ![n, 1]⟩ ![0] b2
      (select (cmpi .slt idx (broadcastInDim ⟨1, ![n]⟩ ![] b1 (constantI ⟨0, ![]⟩ 32 0#32)))
        (addi idx (broadcastInDim ⟨1, ![n]⟩ ![] b1 (constantI ⟨0, ![]⟩ 32 50000#32))) idx) (ix2 e c)
      = idx (ix1 e) :=
  (bcast_axis0 b2 _ e c).trans (wrap_of_inRange _ h)

/-- The range test reduced over the column axis is 1 at row `e` when the column holds a word in range there. -/
private theorem ok_of_inRange {n : Nat}
    (b3 : (⟨0, ![]⟩ : Shape).BroadcastsInDim ⟨2, ![n, 1]⟩ ![])
    (b4 : (⟨1, ![1]⟩ : Shape).BroadcastsInDim ⟨2, ![1, 1]⟩ ![1])
    (b5 : (⟨2, ![1, 1]⟩ : Shape).BroadcastsInDim ⟨2, ![n, 1]⟩ ![0, 1])
    (r : (⟨2, ![n, 1]⟩ : Shape).ReducesTo [1] ⟨1, ![n]⟩) (hS : 0 < (⟨0, ![]⟩ : Shape).numel)
    (I : IVec ⟨2, ![n, 1]⟩ 32) (e : Fin n) (w : BitVec 32) (hI : ∀ c : Fin 1, I (ix2 e c) = w) (h : InRange w) :
    Host.reduce IntOp.andi
      (andi (cmpi .sge I (broadcastInDim ⟨2, ![n, 1]⟩ ![] b3 (constantI ⟨0, ![]⟩ 32 0#32)))
        (cmpi .sle I (broadcastInDim ⟨2, ![n, 1]⟩ ![0, 1] b5
          (broadcastInDim ⟨2, ![1, 1]⟩ ![1] b4 (constantI ⟨1, ![1]⟩ 32 49999#32)))))
      (constantI ⟨0, ![]⟩ 1 1#1) r hS (ix1 e) = 1#1 := by
  rw [Host.reduce_eq_foldl]
  refine foldl_andi_one _ _ ?_
  intro i hi
  obtain ⟨a, c, rfl⟩ : ∃ a c, i = ix2 a c := ⟨i 0, i 1, eq_ix2 i⟩
  have hd : r.drop (ix2 a c) = ix1 e := of_decide_eq_true (List.mem_filter.1 hi).2
  have hae : a = e := by
    refine Fin.ext ?_
    have h0 := congrArg (fun j : (⟨1, ![n]⟩ : Shape).Idx => (j 0).val) hd
    exact h0
  subst hae
  show IntOp.andi (IntOp.cmpi .sge (I (ix2 a c)) 0#32) (IntOp.cmpi .sle (I (ix2 a c)) 49999#32) = 1#1
  rw [hI c]
  exact test_of_inRange w h

/-! ### The take -/

/-- The take of rows of a 50000-row matrix by `n` index words, operation by operation. -/
def takeRows {n : Nat}
    (b1 : (⟨0, ![]⟩ : Shape).BroadcastsInDim ⟨1, ![n]⟩ ![])
    (b2 : (⟨1, ![n]⟩ : Shape).BroadcastsInDim ⟨2, ![n, 1]⟩ ![0])
    (b3 : (⟨0, ![]⟩ : Shape).BroadcastsInDim ⟨2, ![n, 1]⟩ ![])
    (b4 : (⟨1, ![1]⟩ : Shape).BroadcastsInDim ⟨2, ![1, 1]⟩ ![1])
    (b5 : (⟨2, ![1, 1]⟩ : Shape).BroadcastsInDim ⟨2, ![n, 1]⟩ ![0, 1])
    (r : (⟨2, ![n, 1]⟩ : Shape).ReducesTo [1] ⟨1, ![n]⟩) (hS : 0 < (⟨0, ![]⟩ : Shape).numel)
    (wf : GatherDims.WF ⟨2, ![50000, 128]⟩ ⟨2, ![n, 1]⟩ ⟨2, ![n, 128]⟩ [1] [0] [] [0] [] 1 ![1, 128])
    (b6 : (⟨1, ![n]⟩ : Shape).BroadcastsInDim ⟨2, ![n, 128]⟩ ![0])
    (b7 : (⟨0, ![]⟩ : Shape).BroadcastsInDim ⟨2, ![n, 128]⟩ ![])
    (x : Mat 50000 128) (idx : IVec ⟨1, ![n]⟩ 32) : (⟨2, ![n, 128]⟩ : Shape).Idx → EReal :=
  let wrapped : IVec ⟨1, ![n]⟩ 32 :=
    select (cmpi .slt idx (broadcastInDim ⟨1, ![n]⟩ ![] b1 (constantI ⟨0, ![]⟩ 32 0#32)))
      (addi idx (broadcastInDim ⟨1, ![n]⟩ ![] b1 (constantI ⟨0, ![]⟩ 32 50000#32))) idx
  let I : IVec ⟨2, ![n, 1]⟩ 32 := broadcastInDim ⟨2, ![n, 1]⟩ ![0] b2 wrapped
  let ok : IVec ⟨1, ![n]⟩ 1 :=
    Host.reduce IntOp.andi
      (andi (cmpi .sge I (broadcastInDim ⟨2, ![n, 1]⟩ ![] b3 (constantI ⟨0, ![]⟩ 32 0#32)))
        (cmpi .sle I (broadcastInDim ⟨2, ![n, 1]⟩ ![0, 1] b5
          (broadcastInDim ⟨2, ![1, 1]⟩ ![1] b4 (constantI ⟨1, ![1]⟩ 32 49999#32)))))
      (constantI ⟨0, ![]⟩ 1 1#1) r hS
  select (broadcastInDim ⟨2, ![n, 128]⟩ ![0] b6 ok) (Host.gather (rowDims n 128 wf) x I)
    (broadcastInDim ⟨2, ![n, 128]⟩ ![] b7 (constant (F := Ideal) ⟨0, ![]⟩ .f32 0x7FC00000#32))

/-- For an index in range the take is the plain row read. -/
theorem takeRows_apply {n : Nat}
    (b1 : (⟨0, ![]⟩ : Shape).BroadcastsInDim ⟨1, ![n]⟩ ![])
    (b2 : (⟨1, ![n]⟩ : Shape).BroadcastsInDim ⟨2, ![n, 1]⟩ ![0])
    (b3 : (⟨0, ![]⟩ : Shape).BroadcastsInDim ⟨2, ![n, 1]⟩ ![])
    (b4 : (⟨1, ![1]⟩ : Shape).BroadcastsInDim ⟨2, ![1, 1]⟩ ![1])
    (b5 : (⟨2, ![1, 1]⟩ : Shape).BroadcastsInDim ⟨2, ![n, 1]⟩ ![0, 1])
    (r : (⟨2, ![n, 1]⟩ : Shape).ReducesTo [1] ⟨1, ![n]⟩) (hS : 0 < (⟨0, ![]⟩ : Shape).numel)
    (wf : GatherDims.WF ⟨2, ![50000, 128]⟩ ⟨2, ![n, 1]⟩ ⟨2, ![n, 128]⟩ [1] [0] [] [0] [] 1 ![1, 128])
    (b6 : (⟨1, ![n]⟩ : Shape).BroadcastsInDim ⟨2, ![n, 128]⟩ ![0])
    (b7 : (⟨0, ![]⟩ : Shape).BroadcastsInDim ⟨2, ![n, 128]⟩ ![])
    (x : Mat 50000 128) (idx : IVec ⟨1, ![n]⟩ 32) (e : Fin n) (k : Fin 128) (h : InRange (idx (ix1 e))) :
    takeRows b1 b2 b3 b4 b5 r hS wf b6 b7 x idx (ix2 e k) = x (ix2 (node (idx (ix1 e))) k) := by
  unfold takeRows
  dsimp only
  rw [select_apply, bcast_axis0 b6,
    ok_of_inRange b3 b4 b5 r hS _ e _ (column_of_inRange b1 b2 idx e h) h, select_one, gather_row,
    column_of_inRange b1 b2 idx e h 0]

end Cert.TakeRows

end
-- ==== Proof.HostTake1.lean ====
/-
  The host operations between the first projection kernel and the first per-edge kernel: the projected node rows
  are cut into their target-side and source-side halves, and each half is read at the edges' target (source) nodes.
  For an edge whose index is in range the read is the plain row read of the projected array.
-/
import proofs.«422161_j25950192402497_2_alg».proof.Proof.Gen.KernelIdeal.Frame
import proofs.«422161_j25950192402497_2_alg».proof.Proof.TakeRows
import Idealize.ShloMosaic.Lib.Pipeline.Value
import Idealize.ShloMosaic.Lib.StableHlo.Run
import Idealize.ShloMosaic.Lib.ValueLayout
import Idealize.ShloMosaic.PureOps.Ideal.Laws

set_option maxRecDepth 16384

noncomputable section

namespace Cert.KernelIdeal.Value

open Cert.KernelIdeal.Gen
open Idealize.ShloMosaic Idealize.ShloMosaic.TcCoe Idealize.ShloMosaic.ValueIdx Idealize.SL.Sem
open Cert.MessagePassing Cert.GatherRow
open Cert.TakeRows

variable (m : (ℓ : Loc nD τ sig) → Buf (Elt Ideal) ℓ) (ρ : Dev nD → PrngReg)

section Auxiliary
open Idealize.ShloMosaic.StableHlo

/-- No operation of a literal list writes a given buffer: the list is opened into its operations, each operation's
    written set is the singleton of its result, and the result is a different reference. -/
local macro "none_writes" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Contents carried to a typed buffer and back are the contents. -/
private theorem ofBuf_toBuf {sig : RefSig} {T : BufTy} {Val : EltTy → Type} (x : StableHlo.TRef sig T)
    (v : T.Contents Val) : x.ofBuf (x.toBuf v) = v := by
  obtain ⟨r, ty_eq, h1, h2⟩ := x
  subst ty_eq
  rfl

/-! ### The index vectors: rows of the edge index pairs -/

/-- The target indices, row 1 of the pairs sliced out and flattened, read at edge `e`. -/
private theorem W1_v3_apply (c : Dev nD) (e : Fin 500000) :
    (W1 m ρ c (Proc.devRef .tc main_v3) : (⟨1, ![500000]⟩ : Shape).Idx → BitVec 32) (ix1 e)
      = (m ((c.tc : Thread nD τ).loc main_arg1) : Pairs 500000) (ix2 1 e) := by
  dsimp only [W1, hostOps0]
  after_results
  refine (shapeCast_1a_a_apply _ _ e).trans ?_
  refine extractStridedSlice_apply (s := S2x500000) ![1, 0] _ slices_S2x500000_S1x500000_1_0 _ _ fun a => ?_
  match a with
  | ⟨0, _⟩ => rfl
  | ⟨1, _⟩ => exact (Nat.zero_add _).symm

/-- The source indices, row 0 of the pairs sliced out and flattened, read at edge `e`. -/
private theorem W1_v1_apply (c : Dev nD) (e : Fin 500000) :
    (W1 m ρ c (Proc.devRef .tc main_v1) : (⟨1, ![500000]⟩ : Shape).Idx → BitVec 32) (ix1 e)
      = (m ((c.tc : Thread nD τ).loc main_arg1) : Pairs 500000) (ix2 0 e) := by
  dsimp only [W1, hostOps0]
  after_results
  refine (shapeCast_1a_a_apply _ _ e).trans ?_
  refine extractStridedSlice_apply (s := S2x500000) ![0, 0] _ slices_S2x500000_S1x500000_0_0 _ _ fun a => ?_
  match a with
  | ⟨0, _⟩ => rfl
  | ⟨1, _⟩ => exact (Nat.zero_add _).symm

/-- The projection kernel leaves the target indices as it found them. -/
private theorem W2_v3_apply (c : Dev nD) (e : Fin 500000) :
    (W2 m ρ c (Proc.devRef .tc main_v3) : (⟨1, ![500000]⟩ : Shape).Idx → BitVec 32) (ix1 e)
      = (m ((c.tc : Thread nD τ).loc main_arg1) : Pairs 500000) (ix2 1 e) :=
  (congrFun (W2_of_ne m ρ c main_v3 (by decide)) (ix1 e)).trans (W1_v3_apply m ρ c e)

/-- The projection kernel leaves the source indices as it found them. -/
private theorem W2_v1_apply (c : Dev nD) (e : Fin 500000) :
    (W2 m ρ c (Proc.devRef .tc main_v1) : (⟨1, ![500000]⟩ : Shape).Idx → BitVec 32) (ix1 e)
      = (m ((c.tc : Thread nD τ).loc main_arg1) : Pairs 500000) (ix2 0 e) :=
  (congrFun (W2_of_ne m ρ c main_v1 (by decide)) (ix1 e)).trans (W1_v1_apply m ρ c e)

/-! ### The two takes

Each take is a line of operations over its own intermediate buffers; read at `(e, k)` it is `takeRows` of a half of
the projected array and an index vector, and for an index in range `takeRows` is the row read. The half is a slice of
the projected array: columns `[0, 128)` for the targets, `[128, 256)` for the sources. -/

set_option maxRecDepth 65536 in
set_option maxHeartbeats 16000000 in
/-- The target-side take at `(e, k)`: row `node (target e)`, column `k` of the projected array. -/
private theorem W4_v12_apply (c : Dev nD) (e : Fin 500000) (k : Fin 128)
    (h : InRange ((W2 m ρ c (Proc.devRef .tc main_v3) : (⟨1, ![500000]⟩ : Shape).Idx → BitVec 32) (ix1 e))) :
    (W4 m ρ c (Proc.devRef .tc main_v12) : Mat 500000 128) (ix2 e k)
      = (W2 m ρ c (Proc.devRef .tc main_v9) : Mat 50000 256)
          (ix2 (node ((W2 m ρ c (Proc.devRef .tc main_v3) : (⟨1, ![500000]⟩ : Shape).Idx → BitVec 32) (ix1 e)))
            ⟨k.val, by omega⟩) := by
  dsimp only [W4, W3, hostOps1, hostOps1_1]
  after_results_simp
  simp only [ofBuf_toBuf]
  rw [show ∀ v : (⟨S500000x128, .f32⟩ : BufTy).Contents (Elt Ideal),
    (StableHlo.TRef.of (T := ⟨S500000x128, .f32⟩) main_v12).toBuf v = v from fun _ => rfl]
  refine (takeRows_apply bcast_S_S500000 bcast_S500000_S500000x1_0 bcast_S_S500000x1 bcast_S1_S1x1_1
        bcast_S1x1_S500000x1_0_1 reducesTo_S500000x1_S500000_d1 h_S_
        gather_S50000x128_S500000x1_S500000x128_1_0_n_n_0_1_1128_wf
        bcast_S500000_S500000x128_0 bcast_S_S500000x128 _ _ e k h).trans ?_
  rw [show ∀ v : (⟨S50000x128, .f32⟩ : BufTy).Contents (Elt Ideal),
    (StableHlo.TRef.of (T := ⟨S50000x128, .f32⟩) main_v10).ofBuf v = v from fun _ => rfl]
  refine extractStridedSlice_apply (s := S50000x256) ![0, 0] _ slices_S50000x256_S50000x128_0_0 _ _ fun a => ?_
  match a with
  | ⟨0, _⟩ => exact (Nat.zero_add _).symm
  | ⟨1, _⟩ => exact (Nat.zero_add _).symm

set_option maxRecDepth 65536 in
set_option maxHeartbeats 16000000 in
/-- The source-side take at `(e, k)`: row `node (source e)`, column `128 + k` of the projected array. -/
private theorem W5_v13_apply (c : Dev nD) (e : Fin 500000) (k : Fin 128)
    (h : InRange ((W2 m ρ c (Proc.devRef .tc main_v1) : (⟨1, ![500000]⟩ : Shape).Idx → BitVec 32) (ix1 e))) :
    (W5 m ρ c (Proc.devRef .tc main_v13) : Mat 500000 128) (ix2 e k)
      = (W2 m ρ c (Proc.devRef .tc main_v9) : Mat 50000 256)
          (ix2 (node ((W2 m ρ c (Proc.devRef .tc main_v1) : (⟨1, ![500000]⟩ : Shape).Idx → BitVec 32) (ix1 e)))
            ⟨128 + k.val, by omega⟩) := by
  dsimp only [W5, W4, W3, hostOps1, hostOps1_1, hostOps1_2]
  after_results_simp
  simp only [ofBuf_toBuf]
  rw [show ∀ v : (⟨S500000x128, .f32⟩ : BufTy).Contents (Elt Ideal),
    (StableHlo.TRef.of (T := ⟨S500000x128, .f32⟩) main_v13).toBuf v = v from fun _ => rfl]
  refine (takeRows_apply bcast_S_S500000 bcast_S500000_S500000x1_0 bcast_S_S500000x1 bcast_S1_S1x1_1
        bcast_S1x1_S500000x1_0_1 reducesTo_S500000x1_S500000_d1 h_S_
        gather_S50000x128_S500000x1_S500000x128_1_0_n_n_0_1_1128_wf
        bcast_S500000_S500000x128_0 bcast_S_S500000x128 _ _ e k h).trans ?_
  rw [show ∀ v : (⟨S50000x128, .f32⟩ : BufTy).Contents (Elt Ideal),
    (StableHlo.TRef.of (T := ⟨S50000x128, .f32⟩) main_v11).ofBuf v = v from fun _ => rfl]
  refine extractStridedSlice_apply (s := S50000x256) ![0, 128] _ slices_S50000x256_S50000x128_0_128 _ _ fun a => ?_
  match a with
  | ⟨0, _⟩ => exact (Nat.zero_add _).symm
  | ⟨1, _⟩ => rfl

/-! ### Buffers the later operations leave alone -/

/-- The target-side take is written by the first take only. -/
private theorem W6_v12_back (c : Dev nD) :
    W6 m ρ c (Proc.devRef .tc main_v12) = W4 m ρ c (Proc.devRef .tc main_v12) :=
  calc W6 m ρ c (Proc.devRef .tc main_v12)
    _ = W5 m ρ c (Proc.devRef .tc main_v12) :=
        StableHlo.after_of_forall_not_mem (b := Proc.devRef .tc main_v12) _ _ (by none_writes hostOps1_3)
    _ = W4 m ρ c (Proc.devRef .tc main_v12) :=
        StableHlo.after_of_forall_not_mem (b := Proc.devRef .tc main_v12) _ _ (by none_writes hostOps1_2)

/-- The source-side take is not touched by the bias reshape. -/
private theorem W6_v13_back (c : Dev nD) :
    W6 m ρ c (Proc.devRef .tc main_v13) = W5 m ρ c (Proc.devRef .tc main_v13) :=
  StableHlo.after_of_forall_not_mem (b := Proc.devRef .tc main_v13) _ _ (by none_writes hostOps1_3)

/-- The edge weights are written before the projection kernel and by nothing after. -/
private theorem W6_v6_back (c : Dev nD) :
    W6 m ρ c (Proc.devRef .tc main_v6) = W1 m ρ c (Proc.devRef .tc main_v6) :=
  calc W6 m ρ c (Proc.devRef .tc main_v6)
    _ = W5 m ρ c (Proc.devRef .tc main_v6) :=
        StableHlo.after_of_forall_not_mem (b := Proc.devRef .tc main_v6) _ _ (by none_writes hostOps1_3)
    _ = W4 m ρ c (Proc.devRef .tc main_v6) :=
        StableHlo.after_of_forall_not_mem (b := Proc.devRef .tc main_v6) _ _ (by none_writes hostOps1_2)
    _ = W3 m ρ c (Proc.devRef .tc main_v6) :=
        StableHlo.after_of_forall_not_mem (b := Proc.devRef .tc main_v6) _ _ (by none_writes hostOps1_1)
    _ = W2 m ρ c (Proc.devRef .tc main_v6) :=
        StableHlo.after_of_forall_not_mem (b := Proc.devRef .tc main_v6) _ _ (by none_writes hostOps1)
    _ = W1 m ρ c (Proc.devRef .tc main_v6) := W2_of_ne m ρ c main_v6 (by decide)

/-- The message bias is an input nothing writes: before its reshape it holds its launch contents. -/
private theorem W5_arg7 (c : Dev nD) :
    W5 m ρ c (Proc.devRef .tc main_arg7) = m ((c.tc : Thread nD τ).loc main_arg7) :=
  calc W5 m ρ c (Proc.devRef .tc main_arg7)
    _ = W4 m ρ c (Proc.devRef .tc main_arg7) :=
        StableHlo.after_of_forall_not_mem (b := Proc.devRef .tc main_arg7) _ _ (by none_writes hostOps1_2)
    _ = W3 m ρ c (Proc.devRef .tc main_arg7) :=
        StableHlo.after_of_forall_not_mem (b := Proc.devRef .tc main_arg7) _ _ (by none_writes hostOps1_1)
    _ = W2 m ρ c (Proc.devRef .tc main_arg7) :=
        StableHlo.after_of_forall_not_mem (b := Proc.devRef .tc main_arg7) _ _ (by none_writes hostOps1)
    _ = W1 m ρ c (Proc.devRef .tc main_arg7) := W2_of_ne m ρ c main_arg7 (by decide)
    _ = W0 m ρ c (Proc.devRef .tc main_arg7) :=
        StableHlo.after_of_forall_not_mem (b := Proc.devRef .tc main_arg7) _ _ (by none_writes hostOps0)
    _ = m ((c.tc : Thread nD τ).loc main_arg7) := rfl

/-- The edge features are an input no host operation and no array of the projection kernel touches. -/
private theorem W6_arg2_launch (c : Dev nD) :
    W6 m ρ c (Proc.devRef .tc main_arg2) = m ((c.tc : Thread nD τ).loc main_arg2) :=
  calc W6 m ρ c (Proc.devRef .tc main_arg2)
    _ = W5 m ρ c (Proc.devRef .tc main_arg2) :=
        StableHlo.after_of_forall_not_mem (b := Proc.devRef .tc main_arg2) _ _ (by none_writes hostOps1_3)
    _ = W4 m ρ c (Proc.devRef .tc main_arg2) :=
        StableHlo.after_of_forall_not_mem (b := Proc.devRef .tc main_arg2) _ _ (by none_writes hostOps1_2)
    _ = W3 m ρ c (Proc.devRef .tc main_arg2) :=
        StableHlo.after_of_forall_not_mem (b := Proc.devRef .tc main_arg2) _ _ (by none_writes hostOps1_1)
    _ = W2 m ρ c (Proc.devRef .tc main_arg2) :=
        StableHlo.after_of_forall_not_mem (b := Proc.devRef .tc main_arg2) _ _ (by none_writes hostOps1)
    _ = W1 m ρ c (Proc.devRef .tc main_arg2) := W2_of_ne m ρ c main_arg2 (by decide)
    _ = W0 m ρ c (Proc.devRef .tc main_arg2) :=
        StableHlo.after_of_forall_not_mem (b := Proc.devRef .tc main_arg2) _ _ (by none_writes hostOps0)
    _ = m ((c.tc : Thread nD τ).loc main_arg2) := rfl

/-- The bias reshaped to one row, read at `(u, j)`, from any entry contents: the bias at `j`. -/
private theorem hostOps1_3_v14 (V : Valuation τ sig (Elt Ideal)) (u : Fin 1) (j : Fin 128) :
    (StableHlo.after hostOps1_3 V (Proc.devRef .tc main_v14) : Mat 1 128) (ix2 u j)
      = (V (Proc.devRef .tc main_arg7) : Row 128) (ix1 j) := by
  dsimp only [hostOps1_3]
  after_results
  exact shapeCast_a_1a_apply _ _ u j

end Auxiliary

theorem W6_v12 (c : Dev nD) (e : Fin 500000) (k : Fin 128)
    (h : InRange ((m ((c.tc : Thread nD τ).loc main_arg1) : Pairs 500000) (ix2 1 e))) :
    (W6 m ρ c (Proc.devRef .tc main_v12) : Mat 500000 128) (ix2 e k)
      = (W2 m ρ c (Proc.devRef .tc main_v9) : Mat 50000 256)
          (ix2 (node ((m ((c.tc : Thread nD τ).loc main_arg1) : Pairs 500000) (ix2 1 e))) ⟨k.val, by omega⟩) := by
  -- the index word the take reads at `e` is the target of edge `e`
  have hw := W2_v3_apply m ρ c e
  refine (congrFun (W6_v12_back m ρ c) (ix2 e k)).trans ?_
  refine (W4_v12_apply m ρ c e k (hw ▸ h)).trans ?_
  rw [hw]
theorem W6_v13 (c : Dev nD) (e : Fin 500000) (k : Fin 128)
    (h : InRange ((m ((c.tc : Thread nD τ).loc main_arg1) : Pairs 500000) (ix2 0 e))) :
    (W6 m ρ c (Proc.devRef .tc main_v13) : Mat 500000 128) (ix2 e k)
      = (W2 m ρ c (Proc.devRef .tc main_v9) : Mat 50000 256)
          (ix2 (node ((m ((c.tc : Thread nD τ).loc main_arg1) : Pairs 500000) (ix2 0 e))) ⟨128 + k.val, by omega⟩) := by
  -- the index word the take reads at `e` is the source of edge `e`
  have hw := W2_v1_apply m ρ c e
  refine (congrFun (W6_v13_back m ρ c) (ix2 e k)).trans ?_
  refine (W5_v13_apply m ρ c e k (hw ▸ h)).trans ?_
  rw [hw]
theorem W6_arg2 (c : Dev nD) : W6 m ρ c (Proc.devRef .tc main_arg2) = m ((c.tc : Thread nD τ).loc main_arg2) :=
  W6_arg2_launch m ρ c
theorem W6_v6 (c : Dev nD) : (W6 m ρ c (Proc.devRef .tc main_v6) : Mat 16 128) = edgeWeights (m ((c.tc : Thread nD τ).loc main_arg6)) := by
  funext i
  refine (congrFun (W6_v6_back m ρ c) i).trans ?_
  dsimp only [W1, hostOps0]
  after_results
  unfold edgeWeights
  -- rows `[256, 272)` of the message weights: the slice at `(a, b)` is the array at `(256 + a, b)`
  refine extractStridedSlice_apply (s := S272x128) ![256, 0] _ slices_S272x128_S16x128_256_0 _ _ fun a => ?_
  match a with
  | ⟨0, _⟩ => rfl
  | ⟨1, _⟩ => exact (Nat.zero_add _).symm
theorem W6_v14 (c : Dev nD) : (W6 m ρ c (Proc.devRef .tc main_v14) : Mat 1 128) = asRow (m ((c.tc : Thread nD τ).loc main_arg7)) := by
  funext i
  obtain ⟨u, j, rfl⟩ : ∃ u j, i = ix2 u j := ⟨i 0, i 1, eq_ix2 i⟩
  refine (hostOps1_3_v14 (W5 m ρ c) u j).trans ?_
  exact congrFun (W5_arg7 m ρ c) (ix1 j)

end Cert.KernelIdeal.Value

end
-- ==== Proof.HostTake2.lean ====
/-
  The host operations between the second projection kernel and the second per-edge kernel: as for the first layer,
  the projected node rows are cut into halves and each half is read at the edges' target (source) nodes.
-/
import proofs.«422161_j25950192402497_2_alg».proof.Proof.Gen.KernelIdeal.Frame
import proofs.«422161_j25950192402497_2_alg».proof.Proof.TakeRows
import Idealize.ShloMosaic.Lib.Pipeline.Value
import Idealize.ShloMosaic.Lib.StableHlo.Run
import Idealize.ShloMosaic.Lib.ValueLayout
import Idealize.ShloMosaic.PureOps.Ideal.Laws

set_option maxRecDepth 16384

noncomputable section

namespace Cert.KernelIdeal.Value

open Cert.KernelIdeal.Gen
open Idealize.ShloMosaic Idealize.ShloMosaic.TcCoe Idealize.ShloMosaic.ValueIdx Idealize.SL.Sem
open Cert.MessagePassing Cert.GatherRow
open Cert.TakeRows

variable (m : (ℓ : Loc nD τ sig) → Buf (Elt Ideal) ℓ) (ρ : Dev nD → PrngReg)

section Auxiliary
open Idealize.ShloMosaic.StableHlo

/-- No operation of a literal list writes a given buffer: the list is opened into its operations, each operation's
    written set is the singleton of its result, and the result is a different reference. -/
local macro "none_writes" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- A buffer none of a list's operations writes holds after the list what it held before. -/
local macro "kept " b:ident " through " ops:ident : term =>
  `(StableHlo.after_of_forall_not_mem (b := Proc.devRef .tc $b) _ _ (by none_writes $ops))

/-- Contents carried to a typed buffer and back are the contents. -/
private theorem ofBuf_toBuf {sig : RefSig} {T : BufTy} {Val : EltTy → Type} (x : StableHlo.TRef sig T)
    (v : T.Contents Val) : x.ofBuf (x.toBuf v) = v := by
  obtain ⟨r, ty_eq, h1, h2⟩ := x
  subst ty_eq
  rfl

/-! ### The index vectors: rows of the edge index pairs

They are cut from the pairs before the first kernel; no later operation and no kernel's array touches them, so at the
second projection kernel's exit they still hold the rows. -/

/-- The target indices, row 1 of the pairs sliced out and flattened, read at edge `e`. -/
private theorem W1_v3_apply (c : Dev nD) (e : Fin 500000) :
    (W1 m ρ c (Proc.devRef .tc main_v3) : (⟨1, ![500000]⟩ : Shape).Idx → BitVec 32) (ix1 e)
      = (m ((c.tc : Thread nD τ).loc main_arg1) : Pairs 500000) (ix2 1 e) := by
  dsimp only [W1, hostOps0]
  after_results
  refine (shapeCast_1a_a_apply _ _ e).trans ?_
  refine extractStridedSlice_apply (s := S2x500000) ![1, 0] _ slices_S2x500000_S1x500000_1_0 _ _ fun a => ?_
  match a with
  | ⟨0, _⟩ => rfl
  | ⟨1, _⟩ => exact (Nat.zero_add _).symm

/-- The source indices, row 0 of the pairs sliced out and flattened, read at edge `e`. -/
private theorem W1_v1_apply (c : Dev nD) (e : Fin 500000) :
    (W1 m ρ c (Proc.devRef .tc main_v1) : (⟨1, ![500000]⟩ : Shape).Idx → BitVec 32) (ix1 e)
      = (m ((c.tc : Thread nD τ).loc main_arg1) : Pairs 500000) (ix2 0 e) := by
  dsimp only [W1, hostOps0]
  after_results
  refine (shapeCast_1a_a_apply _ _ e).trans ?_
  refine extractStridedSlice_apply (s := S2x500000) ![0, 0] _ slices_S2x500000_S1x500000_0_0 _ _ fun a => ?_
  match a with
  | ⟨0, _⟩ => rfl
  | ⟨1, _⟩ => exact (Nat.zero_add _).symm

/-- The target indices are written once, before the first kernel. -/
private theorem W11_v3_back (c : Dev nD) :
    W11 m ρ c (Proc.devRef .tc main_v3) = W1 m ρ c (Proc.devRef .tc main_v3) :=
  calc W11 m ρ c (Proc.devRef .tc main_v3)
    _ = W10 m ρ c (Proc.devRef .tc main_v3) := W11_of_ne m ρ c main_v3 (by decide)
    _ = W9 m ρ c (Proc.devRef .tc main_v3) := kept main_v3 through hostOps2_2
    _ = W8 m ρ c (Proc.devRef .tc main_v3) := kept main_v3 through hostOps2_1
    _ = W7 m ρ c (Proc.devRef .tc main_v3) := kept main_v3 through hostOps2
    _ = W6 m ρ c (Proc.devRef .tc main_v3) := W7_of_ne m ρ c main_v3 (by decide)
    _ = W5 m ρ c (Proc.devRef .tc main_v3) := kept main_v3 through hostOps1_3
    _ = W4 m ρ c (Proc.devRef .tc main_v3) := kept main_v3 through hostOps1_2
    _ = W3 m ρ c (Proc.devRef .tc main_v3) := kept main_v3 through hostOps1_1
    _ = W2 m ρ c (Proc.devRef .tc main_v3) := kept main_v3 through hostOps1
    _ = W1 m ρ c (Proc.devRef .tc main_v3) := W2_of_ne m ρ c main_v3 (by decide)

/-- The source indices are written once, before the first kernel. -/
private theorem W11_v1_back (c : Dev nD) :
    W11 m ρ c (Proc.devRef .tc main_v1) = W1 m ρ c (Proc.devRef .tc main_v1) :=
  calc W11 m ρ c (Proc.devRef .tc main_v1)
    _ = W10 m ρ c (Proc.devRef .tc main_v1) := W11_of_ne m ρ c main_v1 (by decide)
    _ = W9 m ρ c (Proc.devRef .tc main_v1) := kept main_v1 through hostOps2_2
    _ = W8 m ρ c (Proc.devRef .tc main_v1) := kept main_v1 through hostOps2_1
    _ = W7 m ρ c (Proc.devRef .tc main_v1) := kept main_v1 through hostOps2
    _ = W6 m ρ c (Proc.devRef .tc main_v1) := W7_of_ne m ρ c main_v1 (by decide)
    _ = W5 m ρ c (Proc.devRef .tc main_v1) := kept main_v1 through hostOps1_3
    _ = W4 m ρ c (Proc.devRef .tc main_v1) := kept main_v1 through hostOps1_2
    _ = W3 m ρ c (Proc.devRef .tc main_v1) := kept main_v1 through hostOps1_1
    _ = W2 m ρ c (Proc.devRef .tc main_v1) := kept main_v1 through hostOps1
    _ = W1 m ρ c (Proc.devRef .tc main_v1) := W2_of_ne m ρ c main_v1 (by decide)

/-- At the second projection kernel's exit the target indices are row 1 of the pairs. -/
private theorem W11_v3_apply (c : Dev nD) (e : Fin 500000) :
    (W11 m ρ c (Proc.devRef .tc main_v3) : (⟨1, ![500000]⟩ : Shape).Idx → BitVec 32) (ix1 e)
      = (m ((c.tc : Thread nD τ).loc main_arg1) : Pairs 500000) (ix2 1 e) :=
  (congrFun (W11_v3_back m ρ c) (ix1 e)).trans (W1_v3_apply m ρ c e)

/-- At the second projection kernel's exit the source indices are row 0 of the pairs. -/
private theorem W11_v1_apply (c : Dev nD) (e : Fin 500000) :
    (W11 m ρ c (Proc.devRef .tc main_v1) : (⟨1, ![500000]⟩ : Shape).Idx → BitVec 32) (ix1 e)
      = (m ((c.tc : Thread nD τ).loc main_arg1) : Pairs 500000) (ix2 0 e) :=
  (congrFun (W11_v1_back m ρ c) (ix1 e)).trans (W1_v1_apply m ρ c e)

/-! ### The two takes

Each take is a line of operations over its own intermediate buffers; read at `(e, k)` it is `takeRows` of a half of
the projected array and an index vector, and for an index in range `takeRows` is the row read. The half is a slice of
the projected array: columns `[0, 128)` for the targets, `[128, 256)` for the sources. -/

set_option maxRecDepth 65536 in
set_option maxHeartbeats 16000000 in
/-- The target-side take at `(e, k)`: row `node (target e)`, column `k` of the projected array. -/
private theorem W13_v28_apply (c : Dev nD) (e : Fin 500000) (k : Fin 128)
    (h : InRange ((W11 m ρ c (Proc.devRef .tc main_v3) : (⟨1, ![500000]⟩ : Shape).Idx → BitVec 32) (ix1 e))) :
    (W13 m ρ c (Proc.devRef .tc main_v28) : Mat 500000 128) (ix2 e k)
      = (W11 m ρ c (Proc.devRef .tc main_v25) : Mat 50000 256)
          (ix2 (node ((W11 m ρ c (Proc.devRef .tc main_v3) : (⟨1, ![500000]⟩ : Shape).Idx → BitVec 32) (ix1 e)))
            ⟨k.val, by omega⟩) := by
  dsimp only [W13, W12, hostOps3, hostOps3_1]
  after_results_simp
  simp only [ofBuf_toBuf]
  rw [show ∀ v : (⟨S500000x128, .f32⟩ : BufTy).Contents (Elt Ideal),
    (StableHlo.TRef.of (T := ⟨S500000x128, .f32⟩) main_v28).toBuf v = v from fun _ => rfl]
  refine (takeRows_apply bcast_S_S500000 bcast_S500000_S500000x1_0 bcast_S_S500000x1 bcast_S1_S1x1_1
        bcast_S1x1_S500000x1_0_1 reducesTo_S500000x1_S500000_d1 h_S_
        gather_S50000x128_S500000x1_S500000x128_1_0_n_n_0_1_1128_wf
        bcast_S500000_S500000x128_0 bcast_S_S500000x128 _ _ e k h).trans ?_
  rw [show ∀ v : (⟨S50000x128, .f32⟩ : BufTy).Contents (Elt Ideal),
    (StableHlo.TRef.of (T := ⟨S50000x128, .f32⟩) main_v26).ofBuf v = v from fun _ => rfl]
  refine extractStridedSlice_apply (s := S50000x256) ![0, 0] _ slices_S50000x256_S50000x128_0_0 _ _ fun a => ?_
  match a with
  | ⟨0, _⟩ => exact (Nat.zero_add _).symm
  | ⟨1, _⟩ => exact (Nat.zero_add _).symm

set_option maxRecDepth 65536 in
set_option maxHeartbeats 16000000 in
/-- The source-side take at `(e, k)`: row `node (source e)`, column `128 + k` of the projected array. -/
private theorem W14_v29_apply (c : Dev nD) (e : Fin 500000) (k : Fin 128)
    (h : InRange ((W11 m ρ c (Proc.devRef .tc main_v1) : (⟨1, ![500000]⟩ : Shape).Idx → BitVec 32) (ix1 e))) :
    (W14 m ρ c (Proc.devRef .tc main_v29) : Mat 500000 128) (ix2 e k)
      = (W11 m ρ c (Proc.devRef .tc main_v25) : Mat 50000 256)
          (ix2 (node ((W11 m ρ c (Proc.devRef .tc main_v1) : (⟨1, ![500000]⟩ : Shape).Idx → BitVec 32) (ix1 e)))
            ⟨128 + k.val, by omega⟩) := by
  dsimp only [W14, W13, W12, hostOps3, hostOps3_1, hostOps3_2]
  after_results_simp
  simp only [ofBuf_toBuf]
  rw [show ∀ v : (⟨S500000x128, .f32⟩ : BufTy).Contents (Elt Ideal),
    (StableHlo.TRef.of (T := ⟨S500000x128, .f32⟩) main_v29).toBuf v = v from fun _ => rfl]
  refine (takeRows_apply bcast_S_S500000 bcast_S500000_S500000x1_0 bcast_S_S500000x1 bcast_S1_S1x1_1
        bcast_S1x1_S500000x1_0_1 reducesTo_S500000x1_S500000_d1 h_S_
        gather_S50000x128_S500000x1_S500000x128_1_0_n_n_0_1_1128_wf
        bcast_S500000_S500000x128_0 bcast_S_S500000x128 _ _ e k h).trans ?_
  rw [show ∀ v : (⟨S50000x128, .f32⟩ : BufTy).Contents (Elt Ideal),
    (StableHlo.TRef.of (T := ⟨S50000x128, .f32⟩) main_v27).ofBuf v = v from fun _ => rfl]
  refine extractStridedSlice_apply (s := S50000x256) ![0, 128] _ slices_S50000x256_S50000x128_0_128 _ _ fun a => ?_
  match a with
  | ⟨0, _⟩ => exact (Nat.zero_add _).symm
  | ⟨1, _⟩ => rfl

/-! ### Buffers the later operations leave alone -/

/-- The target-side take is written by the first take only. -/
private theorem W15_v28_back (c : Dev nD) :
    W15 m ρ c (Proc.devRef .tc main_v28) = W13 m ρ c (Proc.devRef .tc main_v28) :=
  calc W15 m ρ c (Proc.devRef .tc main_v28)
    _ = W14 m ρ c (Proc.devRef .tc main_v28) := kept main_v28 through hostOps3_3
    _ = W13 m ρ c (Proc.devRef .tc main_v28) := kept main_v28 through hostOps3_2

/-- The source-side take is not touched by the bias reshape. -/
private theorem W15_v29_back (c : Dev nD) :
    W15 m ρ c (Proc.devRef .tc main_v29) = W14 m ρ c (Proc.devRef .tc main_v29) :=
  kept main_v29 through hostOps3_3

/-- The edge features are an input no host operation writes; the first per-edge kernel reads them as one of its
    arrays and leaves them as entered. -/
private theorem W15_arg2_launch (c : Dev nD) :
    W15 m ρ c (Proc.devRef .tc main_arg2) = m ((c.tc : Thread nD τ).loc main_arg2) :=
  calc W15 m ρ c (Proc.devRef .tc main_arg2)
    _ = W14 m ρ c (Proc.devRef .tc main_arg2) := kept main_arg2 through hostOps3_3
    _ = W13 m ρ c (Proc.devRef .tc main_arg2) := kept main_arg2 through hostOps3_2
    _ = W12 m ρ c (Proc.devRef .tc main_arg2) := kept main_arg2 through hostOps3_1
    _ = W11 m ρ c (Proc.devRef .tc main_arg2) := kept main_arg2 through hostOps3
    _ = W10 m ρ c (Proc.devRef .tc main_arg2) := W11_of_ne m ρ c main_arg2 (by decide)
    _ = W9 m ρ c (Proc.devRef .tc main_arg2) := kept main_arg2 through hostOps2_2
    _ = W8 m ρ c (Proc.devRef .tc main_arg2) := kept main_arg2 through hostOps2_1
    _ = W7 m ρ c (Proc.devRef .tc main_arg2) := kept main_arg2 through hostOps2
    _ = W6 m ρ c (Proc.devRef .tc main_arg2) :=
        (W7_arr m ρ c 2).trans (((dat1 (V6 m ρ) c).arrAt_in 2 rfl _).trans (A_eq1 (V6 m ρ) c 2))
    _ = W5 m ρ c (Proc.devRef .tc main_arg2) := kept main_arg2 through hostOps1_3
    _ = W4 m ρ c (Proc.devRef .tc main_arg2) := kept main_arg2 through hostOps1_2
    _ = W3 m ρ c (Proc.devRef .tc main_arg2) := kept main_arg2 through hostOps1_1
    _ = W2 m ρ c (Proc.devRef .tc main_arg2) := kept main_arg2 through hostOps1
    _ = W1 m ρ c (Proc.devRef .tc main_arg2) := W2_of_ne m ρ c main_arg2 (by decide)
    _ = W0 m ρ c (Proc.devRef .tc main_arg2) := kept main_arg2 through hostOps0
    _ = m ((c.tc : Thread nD τ).loc main_arg2) := rfl

/-- The second layer's edge weights are written before the second projection kernel and by nothing after. -/
private theorem W15_v22_back (c : Dev nD) :
    W15 m ρ c (Proc.devRef .tc main_v22) = W10 m ρ c (Proc.devRef .tc main_v22) :=
  calc W15 m ρ c (Proc.devRef .tc main_v22)
    _ = W14 m ρ c (Proc.devRef .tc main_v22) := kept main_v22 through hostOps3_3
    _ = W13 m ρ c (Proc.devRef .tc main_v22) := kept main_v22 through hostOps3_2
    _ = W12 m ρ c (Proc.devRef .tc main_v22) := kept main_v22 through hostOps3_1
    _ = W11 m ρ c (Proc.devRef .tc main_v22) := kept main_v22 through hostOps3
    _ = W10 m ρ c (Proc.devRef .tc main_v22) := W11_of_ne m ρ c main_v22 (by decide)

/-- The second layer's message weights are an input nothing writes. -/
private theorem W9_arg10 (c : Dev nD) :
    W9 m ρ c (Proc.devRef .tc main_arg10) = m ((c.tc : Thread nD τ).loc main_arg10) :=
  calc W9 m ρ c (Proc.devRef .tc main_arg10)
    _ = W8 m ρ c (Proc.devRef .tc main_arg10) := kept main_arg10 through hostOps2_1
    _ = W7 m ρ c (Proc.devRef .tc main_arg10) := kept main_arg10 through hostOps2
    _ = W6 m ρ c (Proc.devRef .tc main_arg10) := W7_of_ne m ρ c main_arg10 (by decide)
    _ = W5 m ρ c (Proc.devRef .tc main_arg10) := kept main_arg10 through hostOps1_3
    _ = W4 m ρ c (Proc.devRef .tc main_arg10) := kept main_arg10 through hostOps1_2
    _ = W3 m ρ c (Proc.devRef .tc main_arg10) := kept main_arg10 through hostOps1_1
    _ = W2 m ρ c (Proc.devRef .tc main_arg10) := kept main_arg10 through hostOps1
    _ = W1 m ρ c (Proc.devRef .tc main_arg10) := W2_of_ne m ρ c main_arg10 (by decide)
    _ = W0 m ρ c (Proc.devRef .tc main_arg10) := kept main_arg10 through hostOps0
    _ = m ((c.tc : Thread nD τ).loc main_arg10) := rfl

/-- Rows `[256, 272)` of the message weights sliced out, read at an index, from any entry contents. -/
private theorem hostOps2_2_v22 (V : Valuation τ sig (Elt Ideal)) (i : (⟨2, ![16, 128]⟩ : Shape).Idx) :
    (StableHlo.after hostOps2_2 V (Proc.devRef .tc main_v22) : Mat 16 128) i
      = edgeWeights (V (Proc.devRef .tc main_arg10) : Mat 272 128) i := by
  dsimp only [hostOps2_2]
  after_results
  unfold edgeWeights
  refine extractStridedSlice_apply (s := S272x128) ![256, 0] _ slices_S272x128_S16x128_256_0 _ _ fun a => ?_
  match a with
  | ⟨0, _⟩ => rfl
  | ⟨1, _⟩ => exact (Nat.zero_add _).symm

/-- The second layer's message bias is an input nothing writes: before its reshape it holds its launch contents. -/
private theorem W14_arg11 (c : Dev nD) :
    W14 m ρ c (Proc.devRef .tc main_arg11) = m ((c.tc : Thread nD τ).loc main_arg11) :=
  calc W14 m ρ c (Proc.devRef .tc main_arg11)
    _ = W13 m ρ c (Proc.devRef .tc main_arg11) := kept main_arg11 through hostOps3_2
    _ = W12 m ρ c (Proc.devRef .tc main_arg11) := kept main_arg11 through hostOps3_1
    _ = W11 m ρ c (Proc.devRef .tc main_arg11) := kept main_arg11 through hostOps3
    _ = W10 m ρ c (Proc.devRef .tc main_arg11) := W11_of_ne m ρ c main_arg11 (by decide)
    _ = W9 m ρ c (Proc.devRef .tc main_arg11) := kept main_arg11 through hostOps2_2
    _ = W8 m ρ c (Proc.devRef .tc main_arg11) := kept main_arg11 through hostOps2_1
    _ = W7 m ρ c (Proc.devRef .tc main_arg11) := kept main_arg11 through hostOps2
    _ = W6 m ρ c (Proc.devRef .tc main_arg11) := W7_of_ne m ρ c main_arg11 (by decide)
    _ = W5 m ρ c (Proc.devRef .tc main_arg11) := kept main_arg11 through hostOps1_3
    _ = W4 m ρ c (Proc.devRef .tc main_arg11) := kept main_arg11 through hostOps1_2
    _ = W3 m ρ c (Proc.devRef .tc main_arg11) := kept main_arg11 through hostOps1_1
    _ = W2 m ρ c (Proc.devRef .tc main_arg11) := kept main_arg11 through hostOps1
    _ = W1 m ρ c (Proc.devRef .tc main_arg11) := W2_of_ne m ρ c main_arg11 (by decide)
    _ = W0 m ρ c (Proc.devRef .tc main_arg11) := kept main_arg11 through hostOps0
    _ = m ((c.tc : Thread nD τ).loc main_arg11) := rfl

/-- The bias reshaped to one row, read at `(u, j)`, from any entry contents: the bias at `j`. -/
private theorem hostOps3_3_v30 (V : Valuation τ sig (Elt Ideal)) (u : Fin 1) (j : Fin 128) :
    (StableHlo.after hostOps3_3 V (Proc.devRef .tc main_v30) : Mat 1 128) (ix2 u j)
      = (V (Proc.devRef .tc main_arg11) : Row 128) (ix1 j) := by
  dsimp only [hostOps3_3]
  after_results
  exact shapeCast_a_1a_apply _ _ u j

end Auxiliary

theorem W15_v28 (c : Dev nD) (e : Fin 500000) (k : Fin 128)
    (h : InRange ((m ((c.tc : Thread nD τ).loc main_arg1) : Pairs 500000) (ix2 1 e))) :
    (W15 m ρ c (Proc.devRef .tc main_v28) : Mat 500000 128) (ix2 e k)
      = (W11 m ρ c (Proc.devRef .tc main_v25) : Mat 50000 256)
          (ix2 (node ((m ((c.tc : Thread nD τ).loc main_arg1) : Pairs 500000) (ix2 1 e))) ⟨k.val, by omega⟩) := by
  -- the index word the take reads at `e` is the target of edge `e`
  have hw := W11_v3_apply m ρ c e
  refine (congrFun (W15_v28_back m ρ c) (ix2 e k)).trans ?_
  refine (W13_v28_apply m ρ c e k (hw ▸ h)).trans ?_
  rw [hw]
theorem W15_v29 (c : Dev nD) (e : Fin 500000) (k : Fin 128)
    (h : InRange ((m ((c.tc : Thread nD τ).loc main_arg1) : Pairs 500000) (ix2 0 e))) :
    (W15 m ρ c (Proc.devRef .tc main_v29) : Mat 500000 128) (ix2 e k)
      = (W11 m ρ c (Proc.devRef .tc main_v25) : Mat 50000 256)
          (ix2 (node ((m ((c.tc : Thread nD τ).loc main_arg1) : Pairs 500000) (ix2 0 e))) ⟨128 + k.val, by omega⟩) := by
  -- the index word the take reads at `e` is the source of edge `e`
  have hw := W11_v1_apply m ρ c e
  refine (congrFun (W15_v29_back m ρ c) (ix2 e k)).trans ?_
  refine (W14_v29_apply m ρ c e k (hw ▸ h)).trans ?_
  rw [hw]
theorem W15_arg2 (c : Dev nD) : W15 m ρ c (Proc.devRef .tc main_arg2) = m ((c.tc : Thread nD τ).loc main_arg2) :=
  W15_arg2_launch m ρ c
theorem W15_v22 (c : Dev nD) : (W15 m ρ c (Proc.devRef .tc main_v22) : Mat 16 128) = edgeWeights (m ((c.tc : Thread nD τ).loc main_arg10)) := by
  funext i
  refine (congrFun (W15_v22_back m ρ c) i).trans ?_
  refine (hostOps2_2_v22 (W9 m ρ c) i).trans ?_
  exact congrArg (fun w : Mat 272 128 => edgeWeights w i) (W9_arg10 m ρ c)
theorem W15_v30 (c : Dev nD) : (W15 m ρ c (Proc.devRef .tc main_v30) : Mat 1 128) = asRow (m ((c.tc : Thread nD τ).loc main_arg11)) := by
  funext i
  obtain ⟨u, j, rfl⟩ : ∃ u j, i = ix2 u j := ⟨i 0, i 1, eq_ix2 i⟩
  refine (hostOps3_3_v30 (W14 m ρ c) u j).trans ?_
  exact congrFun (W14_arg11 m ρ c) (ix1 j)

end Cert.KernelIdeal.Value

end
-- ==== Proof.HostHead.lean ====
/-
  The host operations after the last kernel: the second layer's messages are summed at their targets, the node rows
  of each query pair are read and laid side by side, and the pair is scored by `W_lp` and `b_lp`.
-/
import proofs.«422161_j25950192402497_2_alg».proof.Proof.Gen.KernelIdeal.Frame
import proofs.«422161_j25950192402497_2_alg».proof.Proof.TakeRows
import Idealize.ShloMosaic.Lib.Pipeline.Value
import Idealize.ShloMosaic.Lib.StableHlo.Run
import Idealize.ShloMosaic.PureOps.Ideal.Laws
import Idealize.ShloMosaic.Lib.ValueLayout

set_option maxRecDepth 16384

noncomputable section

namespace Cert.KernelIdeal.Value

open Cert.KernelIdeal.Gen
open Idealize.ShloMosaic Idealize.ShloMosaic.TcCoe Idealize.ShloMosaic.ValueIdx Idealize.SL.Sem
open Cert.MessagePassing Cert.GatherRow
open Cert.TakeRows

variable (m : (ℓ : Loc nD τ sig) → Buf (Elt Ideal) ℓ) (ρ : Dev nD → PrngReg)

/-- A buffer that no operation of a stretch writes keeps its contents across the stretch. -/
local macro "unwritten_by" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Row `r` of a pair array, sliced out and flattened, read at `e` is the array at `(r, e)`. -/
private theorem row_apply {α : Type} {n : Nat} (o : Nat) (r : Fin 2) (ho : r.val = o)
    (x : (⟨2, ![2, n]⟩ : Shape).Idx → α)
    (hs : (⟨2, ![2, n]⟩ : Shape).Slices ![o, 0] ⟨2, ![1, n]⟩) (hc : (⟨2, ![1, n]⟩ : Shape).ShapeCasts ⟨1, ![n]⟩)
    (e : Fin n) :
    shapeCast ⟨1, ![n]⟩ (extractStridedSlice ⟨2, ![1, n]⟩ ![o, 0] x hs) hc (ix1 e) = x (ix2 r e) := by
  refine (shapeCast_1a_a_apply _ hc e).trans ?_
  refine extractStridedSlice_apply ![o, 0] x hs _ _ fun a => ?_
  match a with
  | ⟨0, _⟩ => show r.val = o + 0; omega
  | ⟨1, _⟩ => show e.val = 0 + e.val; omega

/-- A vector laid out as a one-column matrix reads, at `j`, the vector at `j`'s row. -/
private theorem column_apply {α : Type} {n : Nat} (b : (⟨1, ![n]⟩ : Shape).BroadcastsInDim ⟨2, ![n, 1]⟩ ![0])
    (v : (⟨1, ![n]⟩ : Shape).Idx → α) (j : (⟨2, ![n, 1]⟩ : Shape).Idx) :
    broadcastInDim ⟨2, ![n, 1]⟩ ![0] b v j = v (ix1 (j 0)) := by
  refine broadcastInDim_apply ![0] b v j (ix1 (j 0)) fun a => ?_
  match a with
  | ⟨0, _⟩ =>
    show (j 0).val = if n = 1 then 0 else (j 0).val
    split
    · next h1 => have hj : (j 0).val < n := (j 0).isLt; omega
    · rfl

/-- The target vector is written once, before the first kernel, and nothing later touches it. -/
private theorem W16_v3 (c : Dev nD) :
    W16 m ρ c (Proc.devRef .tc main_v3) = W1 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by unwritten_by hostOps3_3
    _ = W13 m ρ c (Proc.devRef .tc main_v3) := by unwritten_by hostOps3_2
    _ = W12 m ρ c (Proc.devRef .tc main_v3) := by unwritten_by hostOps3_1
    _ = W11 m ρ c (Proc.devRef .tc main_v3) := by unwritten_by hostOps3
    _ = W10 m ρ c (Proc.devRef .tc main_v3) := W11_of_ne m ρ c main_v3 (by decide)
    _ = W9 m ρ c (Proc.devRef .tc main_v3) := by unwritten_by hostOps2_2
    _ = W8 m ρ c (Proc.devRef .tc main_v3) := by unwritten_by hostOps2_1
    _ = W7 m ρ c (Proc.devRef .tc main_v3) := by unwritten_by hostOps2
    _ = W6 m ρ c (Proc.devRef .tc main_v3) := W7_of_ne m ρ c main_v3 (by decide)
    _ = W5 m ρ c (Proc.devRef .tc main_v3) := by unwritten_by hostOps1_3
    _ = W4 m ρ c (Proc.devRef .tc main_v3) := by unwritten_by hostOps1_2
    _ = W3 m ρ c (Proc.devRef .tc main_v3) := by unwritten_by hostOps1_1
    _ = W2 m ρ c (Proc.devRef .tc main_v3) := by unwritten_by hostOps1
    _ = W1 m ρ c (Proc.devRef .tc main_v3) := W2_of_ne m ρ c main_v3 (by decide)

/-- The target vector at `e` is row 1 of the edge index pairs at `e`. -/
private theorem W1_v3_apply (c : Dev nD) (e : Fin 500000) :
    (W1 m ρ c (Proc.devRef .tc main_v3) : (⟨1, ![500000]⟩ : Shape).Idx → BitVec 32) (ix1 e)
      = (m ((c.tc : Thread nD τ).loc main_arg1) : Pairs 500000) (ix2 1 e) := by
  dsimp only [W1, hostOps0]
  after_results_simp
  exact row_apply 1 1 rfl _ slices_S2x500000_S1x500000_1_0 shapeCasts_S1x500000_S500000 e

/-- The second layer's messages summed at their targets: the scatter onto a zero array by the target column. -/
private theorem W17_v34 (c : Dev nD) :
    (W17 m ρ c (Proc.devRef .tc main_v34) : Mat 50000 128)
      = aggregate (targets (m ((c.tc : Thread nD τ).loc main_arg1))) (W16 m ρ c (Proc.devRef .tc main_v31)) := by
  dsimp only [W17, hostOps4]
  after_results_simp
  have hz : broadcastInDim S50000x128 ![] bcast_S_S50000x128 (constant (F := Ideal) S_ FTy.f32 0#32)
      = fun _ => (0 : EReal) := by
    funext i
    exact Ideal.ofBits_zero_f32
  have hi : broadcastInDim S500000x1 ![0] bcast_S500000_S500000x1_0
        (W16 m ρ c (Proc.devRef .tc main_v3) : (⟨1, ![500000]⟩ : Shape).Idx → BitVec 32)
      = targets (m ((c.tc : Thread nD τ).loc main_arg1)) := by
    funext j
    refine (column_apply bcast_S500000_S500000x1_0 _ j).trans ?_
    rw [W16_v3]
    exact W1_v3_apply m ρ c (j 0)
  rw [hz, hi]
  rfl

/-- The label pairs are an argument: no host operation and no kernel writes them. -/
private theorem W16_arg3 (c : Dev nD) :
    W16 m ρ c (Proc.devRef .tc main_arg3) = m ((c.tc : Thread nD τ).loc main_arg3) :=
  calc W16 m ρ c (Proc.devRef .tc main_arg3)
    _ = W17 m ρ c (Proc.devRef .tc main_arg3) := by symm; unwritten_by hostOps4
    _ = W18 m ρ c (Proc.devRef .tc main_arg3) := by symm; unwritten_by hostOps4_1
    _ = W19 m ρ c (Proc.devRef .tc main_arg3) := by symm; unwritten_by hostOps4_2
    _ = W20 m ρ c (Proc.devRef .tc main_arg3) := by symm; unwritten_by hostOps4_3
    _ = m ((c.tc : Thread nD τ).loc main_arg3) := W20_main_arg3 m ρ c

/-- The first label vector at `q` is row 0 of the label pairs at `q`. -/
private theorem W17_v36_apply (c : Dev nD) (q : Fin 100000) :
    (W17 m ρ c (Proc.devRef .tc main_v36) : (⟨1, ![100000]⟩ : Shape).Idx → BitVec 32) (ix1 q)
      = (m ((c.tc : Thread nD τ).loc main_arg3) : Pairs 100000) (ix2 0 q) := by
  dsimp only [W17, hostOps4]
  after_results_simp
  rw [W16_arg3]
  exact row_apply 0 0 rfl _ slices_S2x100000_S1x100000_0_0 shapeCasts_S1x100000_S100000 q

/-- The second label vector at `q` is row 1 of the label pairs at `q`. -/
private theorem W17_v38_apply (c : Dev nD) (q : Fin 100000) :
    (W17 m ρ c (Proc.devRef .tc main_v38) : (⟨1, ![100000]⟩ : Shape).Idx → BitVec 32) (ix1 q)
      = (m ((c.tc : Thread nD τ).loc main_arg3) : Pairs 100000) (ix2 1 q) := by
  dsimp only [W17, hostOps4]
  after_results_simp
  rw [W16_arg3]
  exact row_apply 1 1 rfl _ slices_S2x100000_S1x100000_1_0 shapeCasts_S1x100000_S100000 q

/-- A typed reference's view of a buffer and back is the identity. -/
private theorem ofBuf_toBuf {sig : RefSig} {T : BufTy} {Val : EltTy → Type} (x : StableHlo.TRef sig T)
    (v : T.Contents Val) : x.ofBuf (x.toBuf v) = v := by
  obtain ⟨r, ty_eq, h1, h2⟩ := x; subst ty_eq; rfl

set_option maxRecDepth 65536 in
set_option maxHeartbeats 16000000 in
/-- The first take, from any entry contents `V`: for a label word in range, the row of the operand that word names. -/
private theorem take5_apply (V : Valuation τ sig (Elt Ideal)) (q : Fin 100000) (k : Fin 128)
    (h : InRange ((V (Proc.devRef .tc main_v36) : (⟨1, ![100000]⟩ : Shape).Idx → BitVec 32) (ix1 q))) :
    (StableHlo.after hostOps4_1 V (Proc.devRef .tc main_v39) : Mat 100000 128) (ix2 q k)
      = (V (Proc.devRef .tc main_v34) : Mat 50000 128)
          (ix2 (node ((V (Proc.devRef .tc main_v36) : (⟨1, ![100000]⟩ : Shape).Idx → BitVec 32) (ix1 q))) k) := by
  dsimp only [hostOps4_1]
  after_results_simp
  simp only [ofBuf_toBuf]
  rw [show ∀ v : (⟨S100000x128, .f32⟩ : BufTy).Contents (Elt Ideal),
    (StableHlo.TRef.of (T := ⟨S100000x128, .f32⟩) main_v39).toBuf v = v from fun _ => rfl]
  refine (takeRows_apply bcast_S_S100000 bcast_S100000_S100000x1_0 bcast_S_S100000x1 bcast_S1_S1x1_1
    bcast_S1x1_S100000x1_0_1 reducesTo_S100000x1_S100000_d1 h_S_
    gather_S50000x128_S100000x1_S100000x128_1_0_n_n_0_1_1128_wf bcast_S100000_S100000x128_0 bcast_S_S100000x128
    _ _ q k h).trans ?_
  rw [show ∀ v : (⟨S50000x128, .f32⟩ : BufTy).Contents (Elt Ideal),
    (StableHlo.TRef.of (T := ⟨S50000x128, .f32⟩) main_v34).ofBuf v = v from fun _ => rfl]

set_option maxRecDepth 65536 in
set_option maxHeartbeats 16000000 in
/-- The second take, likewise. -/
private theorem take6_apply (V : Valuation τ sig (Elt Ideal)) (q : Fin 100000) (k : Fin 128)
    (h : InRange ((V (Proc.devRef .tc main_v38) : (⟨1, ![100000]⟩ : Shape).Idx → BitVec 32) (ix1 q))) :
    (StableHlo.after hostOps4_2 V (Proc.devRef .tc main_v40) : Mat 100000 128) (ix2 q k)
      = (V (Proc.devRef .tc main_v34) : Mat 50000 128)
          (ix2 (node ((V (Proc.devRef .tc main_v38) : (⟨1, ![100000]⟩ : Shape).Idx → BitVec 32) (ix1 q))) k) := by
  dsimp only [hostOps4_2]
  after_results_simp
  simp only [ofBuf_toBuf]
  rw [show ∀ v : (⟨S100000x128, .f32⟩ : BufTy).Contents (Elt Ideal),
    (StableHlo.TRef.of (T := ⟨S100000x128, .f32⟩) main_v40).toBuf v = v from fun _ => rfl]
  refine (takeRows_apply bcast_S_S100000 bcast_S100000_S100000x1_0 bcast_S_S100000x1 bcast_S1_S1x1_1
    bcast_S1x1_S100000x1_0_1 reducesTo_S100000x1_S100000_d1 h_S_
    gather_S50000x128_S100000x1_S100000x128_1_0_n_n_0_1_1128_wf bcast_S100000_S100000x128_0 bcast_S_S100000x128
    _ _ q k h).trans ?_
  rw [show ∀ v : (⟨S50000x128, .f32⟩ : BufTy).Contents (Elt Ideal),
    (StableHlo.TRef.of (T := ⟨S50000x128, .f32⟩) main_v34).ofBuf v = v from fun _ => rfl]

/-! ### The scoring product, the concatenation and the bias at an index -/

private theorem dot_lhs0 (i : S100000x2.Idx) (p : dot_S100000x256_S256x2_S100000x2_1_0_0_1_n_n.contr.Idx) :
    (dot_S100000x256_S256x2_S100000x2_1_0_0_1_n_n.lhsIdx i p 0).val = (i 0).val := by
  unfold DotDims.lhsIdx
  rw [dif_neg (show ¬(0 : Fin S100000x256.rank) ∈ dot_S100000x256_S256x2_S100000x2_1_0_0_1_n_n.lhsBatch by decide),
    dif_pos (show (0 : Fin S100000x256.rank) ∈ dot_S100000x256_S256x2_S100000x2_1_0_0_1_n_n.lhsNonContracting by decide)]
  rfl
private theorem dot_lhs1 (i : S100000x2.Idx) (p : dot_S100000x256_S256x2_S100000x2_1_0_0_1_n_n.contr.Idx) :
    (dot_S100000x256_S256x2_S100000x2_1_0_0_1_n_n.lhsIdx i p 1).val = (p ⟨0, by decide⟩).val :=
  dot_S100000x256_S256x2_S100000x2_1_0_0_1_n_n.lhsIdx_val_of_single rfl i p
private theorem dot_rhs0 (i : S100000x2.Idx) (p : dot_S100000x256_S256x2_S100000x2_1_0_0_1_n_n.contr.Idx) :
    (dot_S100000x256_S256x2_S100000x2_1_0_0_1_n_n.rhsIdx i p 0).val = (p ⟨0, by decide⟩).val :=
  dot_S100000x256_S256x2_S100000x2_1_0_0_1_n_n.rhsIdx_val_of_single rfl i p
private theorem dot_rhs1 (i : S100000x2.Idx) (p : dot_S100000x256_S256x2_S100000x2_1_0_0_1_n_n.contr.Idx) :
    (dot_S100000x256_S256x2_S100000x2_1_0_0_1_n_n.rhsIdx i p 1).val = (i 1).val := by
  unfold DotDims.rhsIdx
  rw [dif_neg (show ¬(1 : Fin S256x2.rank) ∈ dot_S100000x256_S256x2_S100000x2_1_0_0_1_n_n.rhsBatch by decide),
    dif_pos (show (1 : Fin S256x2.rank) ∈ dot_S100000x256_S256x2_S100000x2_1_0_0_1_n_n.rhsNonContracting by decide)]
  rfl

/-- The scoring product at `(q, j)`: the sum over the 256 contracted coordinates. -/
private theorem dot_apply (L : FVec Ideal S100000x256 .f32) (R : FVec Ideal S256x2 .f32) (q : Fin 100000) (j : Fin 2) :
    Host.dotGeneral dot_S100000x256_S256x2_S100000x2_1_0_0_1_n_n none L R (ix2 q j)
      = ∑ k : Fin 256, L (ix2 q k) * R (ix2 k j) := by
  simp only [Host.dotGeneral]
  rw [Ideal.dotGeneral_apply,
    ← Equiv.sum_comp (contrEquiv1 dot_S100000x256_S256x2_S100000x2_1_0_0_1_n_n 256 rfl rfl).symm]
  refine Finset.sum_congr rfl fun k _ => ?_
  have hk := contrEquiv1_symm_val dot_S100000x256_S256x2_S100000x2_1_0_0_1_n_n 256 rfl rfl k
  have el : dot_S100000x256_S256x2_S100000x2_1_0_0_1_n_n.lhsIdx (ix2 q j)
      ((contrEquiv1 dot_S100000x256_S256x2_S100000x2_1_0_0_1_n_n 256 rfl rfl).symm k) = ix2 q k :=
    funext fun a => Fin.ext (by
      match a with
      | ⟨0, _⟩ => exact dot_lhs0 _ _
      | ⟨1, _⟩ => exact (dot_lhs1 _ _).trans hk)
  have er : dot_S100000x256_S256x2_S100000x2_1_0_0_1_n_n.rhsIdx (ix2 q j)
      ((contrEquiv1 dot_S100000x256_S256x2_S100000x2_1_0_0_1_n_n 256 rfl rfl).symm k) = ix2 k j :=
    funext fun a => Fin.ext (by
      match a with
      | ⟨0, _⟩ => exact (dot_rhs0 _ _).trans hk
      | ⟨1, _⟩ => exact dot_rhs1 _ _)
  rw [el, er]

/-- Two 128-column blocks side by side: a column below 128 reads the first block. -/
private theorem concat_left {α : Type} (hc : Shape.Concatenates [S100000x128, S100000x128] S100000x256 1)
    (a b : S100000x128.Idx → α) (q : Fin 100000) (k : Fin 256) (hk : k.val < 128) :
    concatenate S100000x256 1 [⟨S100000x128, a⟩, ⟨S100000x128, b⟩] hc (ix2 q k) = a (ix2 q ⟨k.val, hk⟩) :=
  concatenate_pair_apply_left 1 a b hc (ix2 q k) rfl (ix2 q ⟨k.val, hk⟩) fun d => by
    match d with
    | ⟨0, _⟩ => rfl
    | ⟨1, _⟩ => rfl

/-- … and a column from 128 on reads the second block, 128 columns to the left. -/
private theorem concat_right {α : Type} (hc : Shape.Concatenates [S100000x128, S100000x128] S100000x256 1)
    (a b : S100000x128.Idx → α) (q : Fin 100000) (k : Fin 256) (hk : ¬ k.val < 128) :
    concatenate S100000x256 1 [⟨S100000x128, a⟩, ⟨S100000x128, b⟩] hc (ix2 q k)
      = b (ix2 q ⟨k.val - 128, by have h2 : k.val < 256 := k.isLt; omega⟩) :=
  concatenate_pair_apply_right 1 a b hc (ix2 q k) rfl rfl
    (ix2 q ⟨k.val - 128, by have h2 : k.val < 256 := k.isLt; omega⟩)
    (fun d => by
      match d with
      | ⟨0, _⟩ => intro _; rfl
      | ⟨1, _⟩ => intro hne; exact absurd rfl hne)
    (by show k.val - 128 + 128 = k.val; omega)

/-- The bias, laid out as one row and then repeated down the rows, reads at `(q, j)` the bias at `j`. -/
private theorem bias_apply {α : Type} (b1 : S2.BroadcastsInDim S1x2 ![1]) (b2 : S1x2.BroadcastsInDim S100000x2 ![0, 1])
    (v : S2.Idx → α) (q : Fin 100000) (j : Fin 2) :
    broadcastInDim S100000x2 ![0, 1] b2 (broadcastInDim S1x2 ![1] b1 v) (ix2 q j) = v (ix1 j) := by
  refine (broadcastInDim_apply ![0, 1] b2 _ (ix2 q j) (ix2 (0 : Fin 1) j) fun d => ?_).trans
    (broadcastInDim_apply ![1] b1 v (ix2 (0 : Fin 1) j) (ix1 j) fun d => ?_)
  · match d with
    | ⟨0, _⟩ => rfl
    | ⟨1, _⟩ => rfl
  · match d with
    | ⟨0, _⟩ => rfl

/-- The score of pair `q` in class `j` from the two gathered blocks: `[a | b] · w + bias`. -/
private def score (a b : Mat 100000 128) (w : Mat 256 2) (bias : Row 2) (q : Fin 100000) (j : Fin 2) : EReal :=
  (∑ k : Fin 256,
      (if h : k.val < 128 then a (ix2 q ⟨k.val, h⟩)
       else b (ix2 q ⟨k.val - 128, by have hk : k.val < 256 := k.isLt; omega⟩)) * w (ix2 k j))
    + bias (ix1 j)

set_option maxRecDepth 65536 in
/-- The last stretch, from any entry contents `V`: the two gathered blocks side by side, times the head's weights,
    plus its bias. -/
private theorem score_apply (V : Valuation τ sig (Elt Ideal)) (q : Fin 100000) (j : Fin 2) :
    (StableHlo.after hostOps4_3 V (Proc.devRef .tc main_v45) : Mat 100000 2) (ix2 q j)
      = score (V (Proc.devRef .tc main_v39)) (V (Proc.devRef .tc main_v40)) (V (Proc.devRef .tc main_arg12))
          (V (Proc.devRef .tc main_arg13)) q j := by
  dsimp only [hostOps4_3]
  after_results_simp
  unfold score
  refine (addf_apply _ _ _).trans ?_
  refine congrArg₂ (· + ·) ?_ (bias_apply bcast_S2_S1x2_1 bcast_S1x2_S100000x2_0_1 _ q j)
  refine (dot_apply _ _ q j).trans (Finset.sum_congr rfl fun k _ => congrArg (· * _) ?_)
  by_cases hk : k.val < 128
  · rw [dif_pos hk]
    exact concat_left _ _ _ q k hk
  · rw [dif_neg hk]
    exact concat_right _ _ _ q k hk

/-! ### The boundaries -/

/-- The gathered rows of the first label of each pair, before the last stretch. -/
private theorem W19_v39_apply (c : Dev nD) (q : Fin 100000) (k : Fin 128)
    (h0 : InRange ((m ((c.tc : Thread nD τ).loc main_arg3) : Pairs 100000) (ix2 0 q))) :
    (W19 m ρ c (Proc.devRef .tc main_v39) : Mat 100000 128) (ix2 q k)
      = aggregate (targets (m ((c.tc : Thread nD τ).loc main_arg1))) (W16 m ρ c (Proc.devRef .tc main_v31))
          (ix2 (node ((m ((c.tc : Thread nD τ).loc main_arg3) : Pairs 100000) (ix2 0 q))) k) := by
  have e36 := W17_v36_apply m ρ c q
  have c39 : W19 m ρ c (Proc.devRef .tc main_v39) = W18 m ρ c (Proc.devRef .tc main_v39) := by
    unwritten_by hostOps4_2
  rw [c39]
  refine (take5_apply (W17 m ρ c) q k (by rw [e36]; exact h0)).trans ?_
  rw [e36, W17_v34]

/-- The gathered rows of the second label of each pair, before the last stretch. -/
private theorem W19_v40_apply (c : Dev nD) (q : Fin 100000) (k : Fin 128)
    (h1 : InRange ((m ((c.tc : Thread nD τ).loc main_arg3) : Pairs 100000) (ix2 1 q))) :
    (W19 m ρ c (Proc.devRef .tc main_v40) : Mat 100000 128) (ix2 q k)
      = aggregate (targets (m ((c.tc : Thread nD τ).loc main_arg1))) (W16 m ρ c (Proc.devRef .tc main_v31))
          (ix2 (node ((m ((c.tc : Thread nD τ).loc main_arg3) : Pairs 100000) (ix2 1 q))) k) := by
  have e38 := W17_v38_apply m ρ c q
  have c34 : W18 m ρ c (Proc.devRef .tc main_v34) = W17 m ρ c (Proc.devRef .tc main_v34) := by
    unwritten_by hostOps4_1
  have c38 : W18 m ρ c (Proc.devRef .tc main_v38) = W17 m ρ c (Proc.devRef .tc main_v38) := by
    unwritten_by hostOps4_1
  refine (take6_apply (W18 m ρ c) q k (by rw [c38, e38]; exact h1)).trans ?_
  rw [c38, e38, c34, W17_v34]

theorem W20_v45 (c : Dev nD) (q : Fin 100000) (j : Fin 2)
    (h0 : InRange ((m ((c.tc : Thread nD τ).loc main_arg3) : Pairs 100000) (ix2 0 q)))
    (h1 : InRange ((m ((c.tc : Thread nD τ).loc main_arg3) : Pairs 100000) (ix2 1 q))) :
    (W20 m ρ c (Proc.devRef .tc main_v45) : Mat 100000 2) (ix2 q j)
      = head (aggregate (targets (m ((c.tc : Thread nD τ).loc main_arg1))) (W16 m ρ c (Proc.devRef .tc main_v31)))
          (m ((c.tc : Thread nD τ).loc main_arg3)) (m ((c.tc : Thread nD τ).loc main_arg12))
          (m ((c.tc : Thread nD τ).loc main_arg13)) (ix2 q j) := by
  -- the head's weights and bias are arguments: they hold their launch contents at every boundary
  have a12 : W19 m ρ c (Proc.devRef .tc main_arg12) = m ((c.tc : Thread nD τ).loc main_arg12) := by
    refine Eq.trans ?_ (W20_main_arg12 m ρ c)
    symm
    unwritten_by hostOps4_3
  have a13 : W19 m ρ c (Proc.devRef .tc main_arg13) = m ((c.tc : Thread nD τ).loc main_arg13) := by
    refine Eq.trans ?_ (W20_main_arg13 m ρ c)
    symm
    unwritten_by hostOps4_3
  refine (score_apply (W19 m ρ c) q j).trans ?_
  unfold score head
  rw [a12, a13]
  refine congrArg₂ (· + ·) (Finset.sum_congr rfl fun k _ => congrArg₂ (· * ·) ?_ rfl) rfl
  by_cases hk : k.val < 128
  · simp only [dif_pos hk]
    exact W19_v39_apply m ρ c q ⟨k.val, hk⟩ h0
  · simp only [dif_neg hk]
    exact W19_v40_apply m ρ c q ⟨k.val - 128, by have h2 : k.val < 256 := k.isLt; omega⟩ h1

end Cert.KernelIdeal.Value

end
-- ==== Proof.Arrangement.lean ====
/-
  The gathered arrangement of a layer is the layer.

  The projected node array holds, in column `c < 128`, the product of a hidden row with column `c` of
  `W_msg[0:128]` and, in column `128 + c`, its product with column `c` of `W_msg[128:256]`. Reading the first at an
  edge's target node and the second at its source node, adding the edge-feature product with `W_msg[256:272]` and the
  bias, gives the edge's message. Messages that agree wherever the target index is in range have the same sum at
  every node, because an edge with an out-of-range target lands nowhere.
-/
import proofs.«422161_j25950192402497_2_alg».proof.Proof.GatherRow

noncomputable section

namespace Cert.MessagePassing

open Idealize.ShloMosaic Idealize.ShloMosaic.ValueIdx Cert.GatherRow

/-- The projected array at a target-side column is the hidden row times that column of `W_msg[0:128]`. -/
theorem preProj_target (x : Mat 50000 128) (pw : Mat 128 128) (pb : Row 128) (mw : Mat 272 128) (r : Fin 50000)
    (k : Fin 128) :
    preProj x pw (asRow pb) (projWeights mw) (ix2 r ⟨k.val, by omega⟩)
      = ∑ kk : Fin 128, hidden x pw pb (ix2 r kk) * mw (ix2 ⟨kk.val, by omega⟩ k) := by
  unfold preProj
  refine Finset.sum_congr rfl fun kk _ => ?_
  have hw : projWeights mw (ix2 kk ⟨k.val, by omega⟩) = mw (ix2 ⟨kk.val, by omega⟩ k) := by
    unfold projWeights
    rw [dif_pos (show ((ix2 kk (⟨k.val, by omega⟩ : Fin 256) : (⟨2, ![128, 256]⟩ : Shape).Idx) 1).val < 128 from k.isLt)]
  rw [hw]
  rfl

/-- The projected array at a source-side column is the hidden row times that column of `W_msg[128:256]`. -/
theorem preProj_source (x : Mat 50000 128) (pw : Mat 128 128) (pb : Row 128) (mw : Mat 272 128) (r : Fin 50000)
    (k : Fin 128) :
    preProj x pw (asRow pb) (projWeights mw) (ix2 r ⟨128 + k.val, by omega⟩)
      = ∑ kk : Fin 128, hidden x pw pb (ix2 r kk) * mw (ix2 ⟨128 + kk.val, by omega⟩ k) := by
  unfold preProj
  refine Finset.sum_congr rfl fun kk _ => ?_
  have hw : projWeights mw (ix2 kk ⟨128 + k.val, by omega⟩) = mw (ix2 ⟨128 + kk.val, by omega⟩ k) := by
    unfold projWeights
    rw [dif_neg (show ¬ ((ix2 kk (⟨128 + k.val, by omega⟩ : Fin 256) : (⟨2, ![128, 256]⟩ : Shape).Idx) 1).val < 128 from
      Nat.not_lt.mpr (Nat.le_add_right 128 k.val))]
    refine congrArg mw ?_
    funext a
    refine Fin.ext ?_
    match a with
    | ⟨0, _⟩ => rfl
    | ⟨1, _⟩ => show 128 + k.val - 128 = k.val; omega
  rw [hw]
  rfl

/-- The per-edge sum over the gathered projections is the edge's message. -/
theorem edgeSum_eq_message (x : Mat 50000 128) (ei : Pairs 500000) (ef : Mat 500000 16) (pw : Mat 128 128) (pb : Row 128)
    (mw : Mat 272 128) (mb : Row 128) (gi gj : Mat 500000 128) (e : Fin 500000) (k : Fin 128)
    (hgi : gi (ix2 e k)
      = preProj x pw (asRow pb) (projWeights mw) (ix2 (node (ei (ix2 1 e))) ⟨k.val, by omega⟩))
    (hgj : gj (ix2 e k)
      = preProj x pw (asRow pb) (projWeights mw) (ix2 (node (ei (ix2 0 e))) ⟨128 + k.val, by omega⟩)) :
    edgeSum gi gj ef (edgeWeights mw) (asRow mb) (ix2 e k) = message (hidden x pw pb) ei ef mw mb (ix2 e k) := by
  unfold edgeSum message
  rw [hgi, hgj, preProj_target, preProj_source]
  rfl

/-- Messages that agree with the model's wherever the target is in range sum to the layer. -/
theorem aggregate_eq_layer (x : Mat 50000 128) (ei : Pairs 500000) (ef : Mat 500000 16) (pw : Mat 128 128) (pb : Row 128)
    (mw : Mat 272 128) (mb : Row 128) (msg : Mat 500000 128)
    (h : ∀ (e : Fin 500000) (k : Fin 128), InRange (ei (ix2 1 e)) →
      msg (ix2 e k) = message (hidden x pw pb) ei ef mw mb (ix2 e k)) :
    aggregate (targets ei) msg = layer x ei ef pw pb mw mb := by
  unfold layer
  refine aggregate_congr _ _ _ fun j i hj => ?_
  have hr : InRange (ei (ix2 1 (j 0))) := landing_inRange (targets ei) j i hj
  rw [eq_ix2 j]
  exact h (j 0) (j 1) hr

end Cert.MessagePassing

end
-- ==== Proof.KernelModel.lean ====
/-
  The kernel program's result is the model of its launch arrays.

  Segment by segment: the first projection kernel leaves the hidden rows of the node features times the projection
  weights; the takes read its two halves at each edge's target and source node; the per-edge kernel adds the
  edge-feature product and the bias, which at an edge whose target is in range is the model's message (the sources are
  in range by the precondition; a target out of range only matters through the aggregation, where such an edge lands
  nowhere); the aggregation and the relu give the second layer's input; the second layer repeats the first; and the
  head reads the aggregated rows at the label pairs, in range by the precondition.
-/
import proofs.«422161_j25950192402497_2_alg».proof.Proof.PreProjRegion
import proofs.«422161_j25950192402497_2_alg».proof.Proof.MsgRegion
import proofs.«422161_j25950192402497_2_alg».proof.Proof.HostWeights
import proofs.«422161_j25950192402497_2_alg».proof.Proof.HostTake1
import proofs.«422161_j25950192402497_2_alg».proof.Proof.HostTake2
import proofs.«422161_j25950192402497_2_alg».proof.Proof.HostHead
import proofs.«422161_j25950192402497_2_alg».proof.Proof.Arrangement

set_option maxRecDepth 16384

noncomputable section

namespace Cert.KernelIdeal.Value

open Cert.KernelIdeal.Gen
open Idealize.ShloMosaic Idealize.ShloMosaic.TcCoe Idealize.ShloMosaic.ValueIdx Idealize.SL.Sem
open Cert.MessagePassing Cert.GatherRow

variable (m : (ℓ : Loc nD τ sig) → Buf (Elt Ideal) ℓ) (ρ : Dev nD → PrngReg)

/-! ## The launch arrays, by name -/
abbrev nodeFeat (c : Dev nD) : Mat 50000 128 := m ((c.tc : Thread nD τ).loc main_arg0)
abbrev edgeIdx (c : Dev nD) : Pairs 500000 := m ((c.tc : Thread nD τ).loc main_arg1)
abbrev edgeFeat (c : Dev nD) : Mat 500000 16 := m ((c.tc : Thread nD τ).loc main_arg2)
abbrev labelIdx (c : Dev nD) : Pairs 100000 := m ((c.tc : Thread nD τ).loc main_arg3)
abbrev preW1 (c : Dev nD) : Mat 128 128 := m ((c.tc : Thread nD τ).loc main_arg4)
abbrev preB1 (c : Dev nD) : Row 128 := m ((c.tc : Thread nD τ).loc main_arg5)
abbrev msgW1 (c : Dev nD) : Mat 272 128 := m ((c.tc : Thread nD τ).loc main_arg6)
abbrev msgB1 (c : Dev nD) : Row 128 := m ((c.tc : Thread nD τ).loc main_arg7)
abbrev preW2 (c : Dev nD) : Mat 128 128 := m ((c.tc : Thread nD τ).loc main_arg8)
abbrev preB2 (c : Dev nD) : Row 128 := m ((c.tc : Thread nD τ).loc main_arg9)
abbrev msgW2 (c : Dev nD) : Mat 272 128 := m ((c.tc : Thread nD τ).loc main_arg10)
abbrev msgB2 (c : Dev nD) : Row 128 := m ((c.tc : Thread nD τ).loc main_arg11)
abbrev headW (c : Dev nD) : Mat 256 2 := m ((c.tc : Thread nD τ).loc main_arg12)
abbrev headB (c : Dev nD) : Row 2 := m ((c.tc : Thread nD τ).loc main_arg13)

/-- The first projection kernel's output: the hidden rows of the node features times the projection weights. -/
theorem projected1 (c : Dev nD) :
    (W2 m ρ c (Proc.devRef .tc main_v9) : Mat 50000 256)
      = preProj (nodeFeat m c) (preW1 m c) (asRow (preB1 m c)) (projWeights (msgW1 m c)) := by
  refine ((W2_arr m ρ c 4).trans (final0 (V1 m ρ) c)).trans ?_
  show preProj (W1 m ρ c (Proc.devRef .tc main_arg0)) (W1 m ρ c (Proc.devRef .tc main_arg4))
    (W1 m ρ c (Proc.devRef .tc main_v8)) (W1 m ρ c (Proc.devRef .tc main_v7)) = _
  rw [W1_arg0, W1_arg4, W1_v8, W1_v7]

/-- The first per-edge kernel's output at an edge whose target is in range is the model's message. -/
theorem message1 (c : Dev nD) (hsrc : ∀ e, InRange (edgeIdx m c (ix2 0 e))) (e : Fin 500000) (k : Fin 128)
    (hd : InRange (edgeIdx m c (ix2 1 e))) :
    (W7 m ρ c (Proc.devRef .tc main_v15) : Mat 500000 128) (ix2 e k)
      = message (hidden (nodeFeat m c) (preW1 m c) (preB1 m c)) (edgeIdx m c) (edgeFeat m c) (msgW1 m c) (msgB1 m c)
          (ix2 e k) := by
  have h : (W7 m ρ c (Proc.devRef .tc main_v15) : Mat 500000 128)
      = edgeSum (W6 m ρ c (Proc.devRef .tc main_v12)) (W6 m ρ c (Proc.devRef .tc main_v13))
          (W6 m ρ c (Proc.devRef .tc main_arg2)) (W6 m ρ c (Proc.devRef .tc main_v6))
          (W6 m ρ c (Proc.devRef .tc main_v14)) := (W7_arr m ρ c 5).trans (final1 (V6 m ρ) c)
  rw [h, W6_arg2, W6_v6, W6_v14]
  exact edgeSum_eq_message (nodeFeat m c) (edgeIdx m c) (edgeFeat m c) (preW1 m c) (preB1 m c) (msgW1 m c) (msgB1 m c)
    _ _ e k ((W6_v12 m ρ c e k hd).trans (congrFun (projected1 m ρ c) _))
    ((W6_v13 m ρ c e k (hsrc e)).trans (congrFun (projected1 m ρ c) _))

/-- The node features entering the second layer. -/
theorem features2 (c : Dev nD) (hsrc : ∀ e, InRange (edgeIdx m c (ix2 0 e))) :
    (W10 m ρ c (Proc.devRef .tc main_v19) : Mat 50000 128)
      = relu (layer (nodeFeat m c) (edgeIdx m c) (edgeFeat m c) (preW1 m c) (preB1 m c) (msgW1 m c) (msgB1 m c)) := by
  rw [W10_v19]
  exact congrArg relu (aggregate_eq_layer _ _ _ _ _ _ _ _ fun e k hd => message1 m ρ c hsrc e k hd)

/-- The second projection kernel's output. -/
theorem projected2 (c : Dev nD) (hsrc : ∀ e, InRange (edgeIdx m c (ix2 0 e))) :
    (W11 m ρ c (Proc.devRef .tc main_v25) : Mat 50000 256)
      = preProj (relu (layer (nodeFeat m c) (edgeIdx m c) (edgeFeat m c) (preW1 m c) (preB1 m c) (msgW1 m c) (msgB1 m c)))
          (preW2 m c) (asRow (preB2 m c)) (projWeights (msgW2 m c)) := by
  refine ((W11_arr m ρ c 4).trans (final2 (V10 m ρ) c)).trans ?_
  show preProj (W10 m ρ c (Proc.devRef .tc main_v19)) (W10 m ρ c (Proc.devRef .tc main_arg8))
    (W10 m ρ c (Proc.devRef .tc main_v24)) (W10 m ρ c (Proc.devRef .tc main_v23)) = _
  rw [features2 m ρ c hsrc, W10_arg8, W10_v24, W10_v23]

/-- The second per-edge kernel's output at an edge whose target is in range is the model's message. -/
theorem message2 (c : Dev nD) (hsrc : ∀ e, InRange (edgeIdx m c (ix2 0 e))) (e : Fin 500000) (k : Fin 128)
    (hd : InRange (edgeIdx m c (ix2 1 e))) :
    (W16 m ρ c (Proc.devRef .tc main_v31) : Mat 500000 128) (ix2 e k)
      = message (hidden (relu (layer (nodeFeat m c) (edgeIdx m c) (edgeFeat m c) (preW1 m c) (preB1 m c) (msgW1 m c) (msgB1 m c)))
            (preW2 m c) (preB2 m c)) (edgeIdx m c) (edgeFeat m c) (msgW2 m c) (msgB2 m c) (ix2 e k) := by
  have h : (W16 m ρ c (Proc.devRef .tc main_v31) : Mat 500000 128)
      = edgeSum (W15 m ρ c (Proc.devRef .tc main_v28)) (W15 m ρ c (Proc.devRef .tc main_v29))
          (W15 m ρ c (Proc.devRef .tc main_arg2)) (W15 m ρ c (Proc.devRef .tc main_v22))
          (W15 m ρ c (Proc.devRef .tc main_v30)) := (W16_arr m ρ c 5).trans (final3 (V15 m ρ) c)
  rw [h, W15_arg2, W15_v22, W15_v30]
  exact edgeSum_eq_message _ (edgeIdx m c) (edgeFeat m c) (preW2 m c) (preB2 m c) (msgW2 m c) (msgB2 m c)
    _ _ e k ((W15_v28 m ρ c e k hd).trans (congrFun (projected2 m ρ c hsrc) _))
    ((W15_v29 m ρ c e k (hsrc e)).trans (congrFun (projected2 m ρ c hsrc) _))

/-- The kernel program's result is the model of its launch arrays. -/
theorem result_eq_model (c : Dev nD) (hsrc : ∀ e, InRange (edgeIdx m c (ix2 0 e)))
    (hli : ∀ r q, InRange (labelIdx m c (ix2 r q))) :
    (W20 m ρ c (Proc.devRef .tc main_v45) : Mat 100000 2)
      = model (nodeFeat m c) (edgeIdx m c) (edgeFeat m c) (labelIdx m c) (preW1 m c) (preB1 m c) (msgW1 m c) (msgB1 m c)
          (preW2 m c) (preB2 m c) (msgW2 m c) (msgB2 m c) (headW m c) (headB m c) := by
  refine funext fun (i : (⟨2, ![100000, 2]⟩ : Shape).Idx) => ?_
  obtain ⟨q, j, rfl⟩ : ∃ (q : Fin 100000) (j : Fin 2), i = ix2 q j := ⟨i 0, i 1, eq_ix2 i⟩
  rw [W20_v45 m ρ c q j (hli 0 q) (hli 1 q)]
  unfold model
  rw [aggregate_eq_layer _ _ _ _ _ _ _ _ fun e k hd => message2 m ρ c hsrc e k hd]

end Cert.KernelIdeal.Value

end
-- ==== Proof.RefLayer.lean ====
/-
  The reference's two convolution layers, stage by stage, against the model.

  The hidden rows are `relu (x · W_pre + b_pre)`. An edge's message is the product of the concatenated row
  `[h(dst e) | h(src e) | ef(e)]` with `W_msg`, plus `b_msg`; each gathered row is read at the edge's index wrapped once
  and clamped, which for an index in range is the index itself; the 272-sum splits into its three ranges. The messages
  are summed at their targets over a zero array.
-/
import proofs.«422161_j25950192402497_2_alg».proof.Proof.ReferenceRead
import proofs.«422161_j25950192402497_2_alg».proof.Proof.GatherRow
import Idealize.ShloMosaic.Lib.Pipeline.Value
import Idealize.ShloMosaic.Lib.ValueIdx
import Idealize.ShloMosaic.Lib.Affine
import Idealize.ShloMosaic.PureOps.Ideal.Laws

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx Cert.MessagePassing Cert.GatherRow

/-! ### Indices, words, and the layout operations at an index -/

/-- A rank-2 index with the coordinates `a`, `b` is `ix2 a b`. -/
private theorem idx2_eq {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A rank-1 index with the coordinate `a` is `ix1 a`. -/
private theorem idx1_eq {n : Nat} (j : (⟨1, ![n]⟩ : Shape).Idx) (a : Fin n) (h0 : (j 0).val = a.val) : j = ix1 a := by
  funext d
  match d with
  | ⟨0, _⟩ => exact Fin.ext h0

/-- A word in the node range is not negative: the wrap by 50000 leaves it as it is. -/
private theorem wrap_word (w : BitVec 32) (h : InRange w) :
    Scalar.select (IntOp.cmpi .slt w 0#32) (IntOp.addi w 50000#32) w = w := by
  have hz : (0#32 : BitVec 32).toInt = 0 := by decide
  have hc : ¬ IntOp.cmpi .slt w 0#32 = 1#1 := fun hc => by
    have hlt := IntOp.cmpi_slt.1 hc
    rw [hz] at hlt
    exact absurd h.1 (by omega)
  exact if_neg hc

/-- The three-piece concatenate along the column axis, read in the first piece's range `[0, 128)` … -/
private theorem cat3_first {α : Type} {n : Nat}
    (h : Shape.Concatenates [(⟨2, ![n, 128]⟩ : Shape), ⟨2, ![n, 128]⟩, ⟨2, ![n, 16]⟩] ⟨2, ![n, 272]⟩ 1)
    (a b : (⟨2, ![n, 128]⟩ : Shape).Idx → α) (g : (⟨2, ![n, 16]⟩ : Shape).Idx → α) (e : Fin n) (k : Fin 128) :
    concatenate ⟨2, ![n, 272]⟩ 1 [⟨⟨2, ![n, 128]⟩, a⟩, ⟨⟨2, ![n, 128]⟩, b⟩, ⟨⟨2, ![n, 16]⟩, g⟩] h
      (ix2 e (⟨k.val, by omega⟩ : Fin 272)) = a (ix2 e k) := by
  refine concatenate_apply_piece (t := ⟨2, ![n, 272]⟩) 1
    [⟨⟨2, ![n, 128]⟩, a⟩, ⟨⟨2, ![n, 128]⟩, b⟩, ⟨⟨2, ![n, 16]⟩, g⟩] h _ 0 (show 0 < 3 by decide) _ a rfl rfl 0 rfl
    (ix2 e k) (fun c => ?_) ?_
  · match c with
    | ⟨0, _⟩ => exact fun _ => rfl
    | ⟨1, _⟩ => exact fun hne => absurd rfl hne
  · show 0 + k.val = k.val
    omega

/-- … in the second piece's range `[128, 256)` … -/
private theorem cat3_second {α : Type} {n : Nat}
    (h : Shape.Concatenates [(⟨2, ![n, 128]⟩ : Shape), ⟨2, ![n, 128]⟩, ⟨2, ![n, 16]⟩] ⟨2, ![n, 272]⟩ 1)
    (a b : (⟨2, ![n, 128]⟩ : Shape).Idx → α) (g : (⟨2, ![n, 16]⟩ : Shape).Idx → α) (e : Fin n) (k : Fin 128) :
    concatenate ⟨2, ![n, 272]⟩ 1 [⟨⟨2, ![n, 128]⟩, a⟩, ⟨⟨2, ![n, 128]⟩, b⟩, ⟨⟨2, ![n, 16]⟩, g⟩] h
      (ix2 e (⟨128 + k.val, by omega⟩ : Fin 272)) = b (ix2 e k) := by
  refine concatenate_apply_piece (t := ⟨2, ![n, 272]⟩) 1
    [⟨⟨2, ![n, 128]⟩, a⟩, ⟨⟨2, ![n, 128]⟩, b⟩, ⟨⟨2, ![n, 16]⟩, g⟩] h _ 1 (show 1 < 3 by decide) _ b rfl rfl 128 rfl
    (ix2 e k) (fun c => ?_) ?_
  · match c with
    | ⟨0, _⟩ => exact fun _ => rfl
    | ⟨1, _⟩ => exact fun hne => absurd rfl hne
  · rfl

/-- … and in the third piece's range `[256, 272)`. -/
private theorem cat3_third {α : Type} {n : Nat}
    (h : Shape.Concatenates [(⟨2, ![n, 128]⟩ : Shape), ⟨2, ![n, 128]⟩, ⟨2, ![n, 16]⟩] ⟨2, ![n, 272]⟩ 1)
    (a b : (⟨2, ![n, 128]⟩ : Shape).Idx → α) (g : (⟨2, ![n, 16]⟩ : Shape).Idx → α) (e : Fin n) (k : Fin 16) :
    concatenate ⟨2, ![n, 272]⟩ 1 [⟨⟨2, ![n, 128]⟩, a⟩, ⟨⟨2, ![n, 128]⟩, b⟩, ⟨⟨2, ![n, 16]⟩, g⟩] h
      (ix2 e (⟨256 + k.val, by omega⟩ : Fin 272)) = g (ix2 e k) := by
  refine concatenate_apply_piece (t := ⟨2, ![n, 272]⟩) 1
    [⟨⟨2, ![n, 128]⟩, a⟩, ⟨⟨2, ![n, 128]⟩, b⟩, ⟨⟨2, ![n, 16]⟩, g⟩] h _ 2 (show 2 < 3 by decide) _ g rfl rfl 256 rfl
    (ix2 e k) (fun c => ?_) ?_
  · match c with
    | ⟨0, _⟩ => exact fun _ => rfl
    | ⟨1, _⟩ => exact fun hne => absurd rfl hne
  · rfl

/-- The program's row gather at `(e, k)`: the row the (clamped) index word of row `e` names, column `k`. -/
private theorem gather_at (H : Mat 50000 128) (idx : IVec S500000x1 32) (e : Fin 500000) (k : Fin 128) :
    Host.gather gather_S50000x128_S500000x1_S500000x128_1_0_n_n_0_1_1128 H idx (ix2 e k)
      = H (ix2 (node (idx (ix2 e 0))) k) :=
  gather_row _ H idx e k

variable (x0 : Mat 50000 128) (x1 : Pairs 500000) (x2 : Mat 500000 16) (x3 : Pairs 100000) (x4 : Mat 128 128) (x5 : Row 128)
  (x6 : Mat 272 128) (x7 : Row 128) (x8 : Mat 128 128) (x9 : Row 128) (x10 : Mat 272 128) (x11 : Row 128)
  (x12 : Mat 256 2) (x13 : Row 2)

/-! ### The first layer -/

theorem hidden1 : val_main_v4 (F := Ideal) x0 x4 x5 = hidden x0 x4 x5 := by
  funext i
  rw [val_main_v4_apply, val_main_v3_apply, val_main_v0_apply, val_main_v2_apply, val_main_v1_apply,
    val_main_call0_v0_apply, val_main_call0_cst_apply, Ideal.maximumf_def, Ideal.addf_def, Ideal.ofBits_def,
    Ideal.ofBits_zero_f32]
  unfold Cert.MessagePassing.hidden
  refine congrArg (max · 0) (congrArg₂ (· + ·) (Finset.sum_congr rfl fun k _ => ?_) (congrArg x5 (idx1_eq _ _ rfl)))
  rw [idx2_eq (lidx_main_v0 i k) (i 0) k rfl rfl, idx2_eq (ridx_main_v0 i k) k (i 1) rfl rfl]

/-- Row 1 of the edge pairs, sliced out and flattened, at `e`: the target word of edge `e`. -/
private theorem tgt_word1 (e : Fin 500000) : val_main_v8 (F := Ideal) x1 (ix1 e) = x1 (ix2 1 e) := by
  rw [val_main_v8_apply, val_main_v7_apply]
  exact congrArg x1 (idx2_eq _ _ _ rfl (Nat.mod_eq_of_lt e.isLt))

/-- Row 0 likewise: the source word of edge `e`. -/
private theorem src_word1 (e : Fin 500000) : val_main_v6 (F := Ideal) x1 (ix1 e) = x1 (ix2 0 e) := by
  rw [val_main_v6_apply, val_main_v5_apply]
  exact congrArg x1 (idx2_eq _ _ _ rfl (Nat.mod_eq_of_lt e.isLt))

/-- The wrapped target column at row `e` is the target word itself when that word is in range. -/
private theorem tgt_col1 (e : Fin 500000) (h : InRange (x1 (ix2 1 e))) :
    val_main_v14 (F := Ideal) x1 (ix2 e 0) = x1 (ix2 1 e) := by
  rw [val_main_v14_apply, idx1_eq (idx_main_v14 (ix2 e 0)) e rfl, val_main_v13_apply, val_main_v10_apply,
    val_main_v12_apply, val_main_v9_apply, val_main_c_apply, val_main_v11_apply, val_main_c_0_apply, tgt_word1]
  exact wrap_word _ h

/-- The wrapped source column at row `e` is the source word itself when that word is in range. -/
private theorem src_col1 (e : Fin 500000) (h : InRange (x1 (ix2 0 e))) :
    val_main_v21 (F := Ideal) x1 (ix2 e 0) = x1 (ix2 0 e) := by
  rw [val_main_v21_apply, idx1_eq (idx_main_v21 (ix2 e 0)) e rfl, val_main_v20_apply, val_main_v17_apply,
    val_main_v19_apply, val_main_v16_apply, val_main_c_1_apply, val_main_v18_apply, val_main_c_2_apply, src_word1]
  exact wrap_word _ h

/-- The concatenated row of edge `e` on `[0, 128)`: the hidden row of the edge's target. -/
private theorem cat1_first (e : Fin 500000) (q : Fin 128) (h : InRange (x1 (ix2 1 e))) :
    val_main_v23 (F := Ideal) x0 x1 x2 x4 x5 (ix2 e (⟨q.val, by omega⟩ : Fin 272))
      = val_main_v4 (F := Ideal) x0 x4 x5 (ix2 (node (x1 (ix2 1 e))) q) := by
  unfold val_main_v23
  refine (cat3_first _ _ _ _ e q).trans ?_
  unfold val_main_v15
  rw [gather_at, tgt_col1 x1 e h]

/-- … on `[128, 256)`: the hidden row of the edge's source. -/
private theorem cat1_second (e : Fin 500000) (q : Fin 128) (h : InRange (x1 (ix2 0 e))) :
    val_main_v23 (F := Ideal) x0 x1 x2 x4 x5 (ix2 e (⟨128 + q.val, by omega⟩ : Fin 272))
      = val_main_v4 (F := Ideal) x0 x4 x5 (ix2 (node (x1 (ix2 0 e))) q) := by
  unfold val_main_v23
  refine (cat3_second _ _ _ _ e q).trans ?_
  unfold val_main_v22
  rw [gather_at, src_col1 x1 e h]

/-- … on `[256, 272)`: the edge's features. -/
private theorem cat1_third (e : Fin 500000) (q : Fin 16) :
    val_main_v23 (F := Ideal) x0 x1 x2 x4 x5 (ix2 e (⟨256 + q.val, by omega⟩ : Fin 272)) = x2 (ix2 e q) := by
  unfold val_main_v23
  exact cat3_third _ _ _ _ e q

theorem message1 (e : Fin 500000) (k : Fin 128) (hd : InRange (x1 (ix2 1 e))) (hs : InRange (x1 (ix2 0 e))) :
    val_main_v27 (F := Ideal) x0 x1 x2 x4 x5 x6 x7 (ix2 e k)
      = message (val_main_v4 (F := Ideal) x0 x4 x5) x1 x2 x6 x7 (ix2 e k) := by
  rw [val_main_v27_apply, val_main_v24_apply, val_main_v26_apply, val_main_v25_apply, Ideal.addf_def]
  unfold message
  refine congrArg₂ (· + ·) ?_ (congrArg x7 (idx1_eq _ _ rfl))
  have hl : ∀ q : Fin 272, lidx_main_v24 (ix2 e k) q = ix2 e q := fun q => idx2_eq _ _ _ rfl rfl
  have hr : ∀ q : Fin 272, ridx_main_v24 (ix2 e k) q = ix2 q k := fun q => idx2_eq _ _ _ rfl rfl
  simp only [hl, hr]
  exact concat_product (fun q => val_main_v4 (F := Ideal) x0 x4 x5 (ix2 (node (x1 (ix2 1 e))) q))
    (fun q => val_main_v4 (F := Ideal) x0 x4 x5 (ix2 (node (x1 (ix2 0 e))) q)) (fun q => x2 (ix2 e q))
    (fun q => val_main_v23 (F := Ideal) x0 x1 x2 x4 x5 (ix2 e q)) (fun q => x6 (ix2 q k))
    (fun q => cat1_first x0 x1 x2 x4 x5 e q hd) (fun q => cat1_second x0 x1 x2 x4 x5 e q hs)
    (fun q => cat1_third x0 x1 x2 x4 x5 e q)

/-- The scatter's operand is the zero array. -/
private theorem zero_v28 : val_main_v28 (F := Ideal) = fun _ => 0 := by
  funext i
  rw [val_main_v28_apply, val_main_cst_apply, Ideal.ofBits_def, Ideal.ofBits_zero_f32]

/-- The scatter's index column is the target column (not wrapped). -/
private theorem targets_v29 : val_main_v29 (F := Ideal) x1 = targets x1 := by
  funext j
  rw [val_main_v29_apply, idx1_eq (idx_main_v29 j) (j 0) rfl]
  exact tgt_word1 x1 (j 0)

theorem agg1 : val_main_v30 (F := Ideal) x0 x1 x2 x4 x5 x6 x7
    = aggregate (targets x1) (val_main_v27 (F := Ideal) x0 x1 x2 x4 x5 x6 x7) := by
  unfold val_main_v30 aggregate
  rw [zero_v28, targets_v29]
  rfl

theorem relu1 : val_main_v31 (F := Ideal) x0 x1 x2 x4 x5 x6 x7
    = relu (val_main_v30 (F := Ideal) x0 x1 x2 x4 x5 x6 x7) := by
  funext i
  rw [val_main_v31_apply, val_main_call1_v0_apply, val_main_call1_cst_apply, Ideal.maximumf_def, Ideal.ofBits_def,
    Ideal.ofBits_zero_f32]
  rfl

/-! ### The second layer: the same stages over the first layer's output -/

theorem hidden2 : val_main_v36 (F := Ideal) x0 x1 x2 x4 x5 x6 x7 x8 x9
    = hidden (val_main_v31 (F := Ideal) x0 x1 x2 x4 x5 x6 x7) x8 x9 := by
  funext i
  rw [val_main_v36_apply, val_main_v35_apply, val_main_v32_apply, val_main_v34_apply, val_main_v33_apply,
    val_main_call2_v0_apply, val_main_call2_cst_apply, Ideal.maximumf_def, Ideal.addf_def, Ideal.ofBits_def,
    Ideal.ofBits_zero_f32]
  unfold Cert.MessagePassing.hidden
  refine congrArg (max · 0) (congrArg₂ (· + ·) (Finset.sum_congr rfl fun k _ => ?_) (congrArg x9 (idx1_eq _ _ rfl)))
  rw [idx2_eq (lidx_main_v32 i k) (i 0) k rfl rfl, idx2_eq (ridx_main_v32 i k) k (i 1) rfl rfl]

/-- Row 1 of the edge pairs, sliced out and flattened again for the second layer, at `e`. -/
private theorem tgt_word2 (e : Fin 500000) : val_main_v40 (F := Ideal) x1 (ix1 e) = x1 (ix2 1 e) := by
  rw [val_main_v40_apply, val_main_v39_apply]
  exact congrArg x1 (idx2_eq _ _ _ rfl (Nat.mod_eq_of_lt e.isLt))

/-- Row 0 likewise. -/
private theorem src_word2 (e : Fin 500000) : val_main_v38 (F := Ideal) x1 (ix1 e) = x1 (ix2 0 e) := by
  rw [val_main_v38_apply, val_main_v37_apply]
  exact congrArg x1 (idx2_eq _ _ _ rfl (Nat.mod_eq_of_lt e.isLt))

/-- The second layer's wrapped target column at row `e`, for a target word in range. -/
private theorem tgt_col2 (e : Fin 500000) (h : InRange (x1 (ix2 1 e))) :
    val_main_v46 (F := Ideal) x1 (ix2 e 0) = x1 (ix2 1 e) := by
  rw [val_main_v46_apply, idx1_eq (idx_main_v46 (ix2 e 0)) e rfl, val_main_v45_apply, val_main_v42_apply,
    val_main_v44_apply, val_main_v41_apply, val_main_c_3_apply, val_main_v43_apply, val_main_c_4_apply, tgt_word2]
  exact wrap_word _ h

/-- The second layer's wrapped source column at row `e`, for a source word in range. -/
private theorem src_col2 (e : Fin 500000) (h : InRange (x1 (ix2 0 e))) :
    val_main_v53 (F := Ideal) x1 (ix2 e 0) = x1 (ix2 0 e) := by
  rw [val_main_v53_apply, idx1_eq (idx_main_v53 (ix2 e 0)) e rfl, val_main_v52_apply, val_main_v49_apply,
    val_main_v51_apply, val_main_v48_apply, val_main_c_5_apply, val_main_v50_apply, val_main_c_6_apply, src_word2]
  exact wrap_word _ h

/-- The second layer's concatenated row of edge `e` on `[0, 128)`: the hidden row of the edge's target. -/
private theorem cat2_first (e : Fin 500000) (q : Fin 128) (h : InRange (x1 (ix2 1 e))) :
    val_main_v55 (F := Ideal) x0 x1 x2 x4 x5 x6 x7 x8 x9 (ix2 e (⟨q.val, by omega⟩ : Fin 272))
      = val_main_v36 (F := Ideal) x0 x1 x2 x4 x5 x6 x7 x8 x9 (ix2 (node (x1 (ix2 1 e))) q) := by
  unfold val_main_v55
  refine (cat3_first _ _ _ _ e q).trans ?_
  unfold val_main_v47
  rw [gather_at, tgt_col2 x1 e h]

/-- … on `[128, 256)`: the hidden row of the edge's source. -/
private theorem cat2_second (e : Fin 500000) (q : Fin 128) (h : InRange (x1 (ix2 0 e))) :
    val_main_v55 (F := Ideal) x0 x1 x2 x4 x5 x6 x7 x8 x9 (ix2 e (⟨128 + q.val, by omega⟩ : Fin 272))
      = val_main_v36 (F := Ideal) x0 x1 x2 x4 x5 x6 x7 x8 x9 (ix2 (node (x1 (ix2 0 e))) q) := by
  unfold val_main_v55
  refine (cat3_second _ _ _ _ e q).trans ?_
  unfold val_main_v54
  rw [gather_at, src_col2 x1 e h]

/-- … on `[256, 272)`: the edge's features. -/
private theorem cat2_third (e : Fin 500000) (q : Fin 16) :
    val_main_v55 (F := Ideal) x0 x1 x2 x4 x5 x6 x7 x8 x9 (ix2 e (⟨256 + q.val, by omega⟩ : Fin 272))
      = x2 (ix2 e q) := by
  unfold val_main_v55
  exact cat3_third _ _ _ _ e q

theorem message2 (e : Fin 500000) (k : Fin 128) (hd : InRange (x1 (ix2 1 e))) (hs : InRange (x1 (ix2 0 e))) :
    val_main_v59 (F := Ideal) x0 x1 x2 x4 x5 x6 x7 x8 x9 x10 x11 (ix2 e k)
      = message (val_main_v36 (F := Ideal) x0 x1 x2 x4 x5 x6 x7 x8 x9) x1 x2 x10 x11 (ix2 e k) := by
  rw [val_main_v59_apply, val_main_v56_apply, val_main_v58_apply, val_main_v57_apply, Ideal.addf_def]
  unfold message
  refine congrArg₂ (· + ·) ?_ (congrArg x11 (idx1_eq _ _ rfl))
  have hl : ∀ q : Fin 272, lidx_main_v56 (ix2 e k) q = ix2 e q := fun q => idx2_eq _ _ _ rfl rfl
  have hr : ∀ q : Fin 272, ridx_main_v56 (ix2 e k) q = ix2 q k := fun q => idx2_eq _ _ _ rfl rfl
  simp only [hl, hr]
  exact concat_product
    (fun q => val_main_v36 (F := Ideal) x0 x1 x2 x4 x5 x6 x7 x8 x9 (ix2 (node (x1 (ix2 1 e))) q))
    (fun q => val_main_v36 (F := Ideal) x0 x1 x2 x4 x5 x6 x7 x8 x9 (ix2 (node (x1 (ix2 0 e))) q))
    (fun q => x2 (ix2 e q))
    (fun q => val_main_v55 (F := Ideal) x0 x1 x2 x4 x5 x6 x7 x8 x9 (ix2 e q)) (fun q => x10 (ix2 q k))
    (fun q => cat2_first x0 x1 x2 x4 x5 x6 x7 x8 x9 e q hd) (fun q => cat2_second x0 x1 x2 x4 x5 x6 x7 x8 x9 e q hs)
    (fun q => cat2_third x0 x1 x2 x4 x5 x6 x7 x8 x9 e q)

/-- The second scatter's operand is the zero array. -/
private theorem zero_v60 : val_main_v60 (F := Ideal) = fun _ => 0 := by
  funext i
  rw [val_main_v60_apply, val_main_cst_7_apply, Ideal.ofBits_def, Ideal.ofBits_zero_f32]

/-- The second scatter's index column is the target column (not wrapped). -/
private theorem targets_v61 : val_main_v61 (F := Ideal) x1 = targets x1 := by
  funext j
  rw [val_main_v61_apply, idx1_eq (idx_main_v61 j) (j 0) rfl]
  exact tgt_word2 x1 (j 0)

theorem agg2 : val_main_v62 (F := Ideal) x0 x1 x2 x4 x5 x6 x7 x8 x9 x10 x11
    = aggregate (targets x1) (val_main_v59 (F := Ideal) x0 x1 x2 x4 x5 x6 x7 x8 x9 x10 x11) := by
  unfold val_main_v62 aggregate
  rw [zero_v60, targets_v61]
  rfl

end Cert.ReferenceIdeal.RefValue

end
-- ==== Proof.RefHead.lean ====
/-
  The reference's link-prediction head against the model: the node rows of each query pair, read at the pair's
  indices wrapped once and clamped (for an index in range, the index itself), laid side by side and scored by
  `W_lp` and `b_lp`.
-/
import proofs.«422161_j25950192402497_2_alg».proof.Proof.ReferenceRead
import proofs.«422161_j25950192402497_2_alg».proof.Proof.GatherRow
import Idealize.ShloMosaic.Lib.Pipeline.Value
import Idealize.ShloMosaic.PureOps.Ideal.Laws
import Idealize.ShloMosaic.Lib.ValueIdx
import Idealize.ShloMosaic.Lib.ValueLayout
import Idealize.ShloMosaic.Lib.StableHlo.Predicate

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx Cert.MessagePassing Cert.GatherRow

/-! ### The index wrap at a word in range -/

/-- A word in the node range is not negative, so the wrap of negative words by 50000 leaves it alone. -/
private theorem wrap_of_inRange (w : BitVec 32) (h : InRange w) :
    Scalar.select (IntOp.cmpi .slt w 0#32) (IntOp.addi w 50000#32) w = w := by
  have hc : ¬ IntOp.cmpi .slt w 0#32 = 1#1 := by
    intro hc
    unfold IntOp.cmpi at hc
    rw [StableHlo.Predicate.ofBool_eq_one_iff] at hc
    simp only [BitVec.slt, decide_eq_true_eq] at hc
    have e0 : (0#32 : BitVec 32).toInt = 0 := by decide
    rw [e0] at hc
    exact absurd h.1 (by omega)
  exact if_neg hc

/-- The wrapped label vector laid out as a one-column array: at row `q` it holds the label word itself when that
    word is in range. -/
private theorem column_of_inRange
    (b1 : (⟨0, ![]⟩ : Shape).BroadcastsInDim ⟨1, ![100000]⟩ ![])
    (b2 : (⟨1, ![100000]⟩ : Shape).BroadcastsInDim ⟨2, ![100000, 1]⟩ ![0])
    (v : IVec ⟨1, ![100000]⟩ 32) (q : Fin 100000) (w : BitVec 32) (hv : v (ix1 q) = w) (h : InRange w) :
    broadcastInDim ⟨2, ![100000, 1]⟩ ![0] b2
      (select (cmpi .slt v (broadcastInDim ⟨1, ![100000]⟩ ![] b1 (constantI ⟨0, ![]⟩ 32 0#32)))
        (addi v (broadcastInDim ⟨1, ![100000]⟩ ![] b1 (constantI ⟨0, ![]⟩ 32 50000#32))) v) (ix2 q 0) = w := by
  refine (broadcastInDim_apply _ b2 _ (ix2 q 0) (ix1 q) (fun a => ?_)).trans ?_
  · match a with
    | ⟨0, _⟩ => show q.val = if (100000 : Nat) = 1 then 0 else q.val; rw [if_neg (by decide)]
  · show Scalar.select (IntOp.cmpi .slt (v (ix1 q)) 0#32) (IntOp.addi (v (ix1 q)) 50000#32) (v (ix1 q)) = w
    rw [hv]
    exact wrap_of_inRange w h

/-- Row `r` of the label pairs, sliced out and flattened, read at `q` is the pair array at `(r, q)`. -/
private theorem label_row (r : Nat) (rr : Fin 2) (hrr : rr.val = r) (x3 : IVec ⟨2, ![2, 100000]⟩ 32)
    (hs : (⟨2, ![2, 100000]⟩ : Shape).Slices ![r, 0] ⟨2, ![1, 100000]⟩)
    (hcast : (⟨2, ![1, 100000]⟩ : Shape).ShapeCasts ⟨1, ![100000]⟩) (q : Fin 100000) :
    shapeCast ⟨1, ![100000]⟩ (extractStridedSlice ⟨2, ![1, 100000]⟩ ![r, 0] x3 hs) hcast (ix1 q) = x3 (ix2 rr q) := by
  refine (shapeCast_1a_a_apply _ hcast q).trans ?_
  refine extractStridedSlice_apply ![r, 0] x3 hs _ _ fun a => ?_
  match a with
  | ⟨0, _⟩ => show rr.val = r + 0; omega
  | ⟨1, _⟩ => show q.val = 0 + q.val; omega

/-! ### The two gathered rows side by side -/

/-- Two row gathers laid side by side, read at `(q, k)`: the first gather's row on the columns below 128, the
    second's on the columns from 128 on, 128 less. -/
private theorem cat_gather
    (wf : GatherDims.WF ⟨2, ![50000, 128]⟩ ⟨2, ![100000, 1]⟩ ⟨2, ![100000, 128]⟩ [1] [0] [] [0] [] 1 ![1, 128])
    (hc : Shape.Concatenates [(⟨2, ![100000, 128]⟩ : Shape), ⟨2, ![100000, 128]⟩] ⟨2, ![100000, 256]⟩ 1)
    (X : Mat 50000 128) (I0 I1 : IVec ⟨2, ![100000, 1]⟩ 32) (q : Fin 100000) (k : Fin 256) :
    concatenate ⟨2, ![100000, 256]⟩ 1
        [⟨⟨2, ![100000, 128]⟩, Host.gather (rowDims 100000 128 wf) X I0⟩,
         ⟨⟨2, ![100000, 128]⟩, Host.gather (rowDims 100000 128 wf) X I1⟩] hc (ix2 q k)
      = if h : k.val < 128 then X (ix2 (node (I0 (ix2 q 0))) ⟨k.val, h⟩)
        else X (ix2 (node (I1 (ix2 q 0))) ⟨k.val - 128, by have hk : k.val < 256 := k.isLt; omega⟩) := by
  by_cases h : k.val < 128
  · rw [dif_pos h]
    refine (concatenate_pair_apply_left 1 _ _ hc (ix2 q k) rfl (ix2 q ⟨k.val, h⟩) (fun b => ?_)).trans
      (gather_row wf X I0 q ⟨k.val, h⟩)
    match b with
    | ⟨0, _⟩ => rfl
    | ⟨1, _⟩ => rfl
  · rw [dif_neg h]
    have hk : k.val < 256 := k.isLt
    refine (concatenate_pair_apply_right 1 _ _ hc (ix2 q k) rfl rfl (ix2 q ⟨k.val - 128, by omega⟩) (fun b hb => ?_) ?_).trans
      (gather_row wf X I1 q ⟨k.val - 128, by omega⟩)
    · match b with
      | ⟨0, _⟩ => rfl
      | ⟨1, _⟩ => exact absurd rfl hb
    · show k.val - 128 + 128 = k.val
      omega

/-- The contraction of the side-by-side rows with the weights, plus the bias, is the model's head when the two
    index columns hold the label words at row `q`. -/
private theorem head_of_cat
    (wf : GatherDims.WF ⟨2, ![50000, 128]⟩ ⟨2, ![100000, 1]⟩ ⟨2, ![100000, 128]⟩ [1] [0] [] [0] [] 1 ![1, 128])
    (hc : Shape.Concatenates [(⟨2, ![100000, 128]⟩ : Shape), ⟨2, ![100000, 128]⟩] ⟨2, ![100000, 256]⟩ 1)
    (X : Mat 50000 128) (x3 : Pairs 100000) (I0 I1 : IVec ⟨2, ![100000, 1]⟩ 32) (x12 : Mat 256 2) (x13 : Row 2)
    (q : Fin 100000) (j : Fin 2) (hI0 : I0 (ix2 q 0) = x3 (ix2 0 q)) (hI1 : I1 (ix2 q 0) = x3 (ix2 1 q)) :
    (∑ k : Fin 256, concatenate ⟨2, ![100000, 256]⟩ 1
        [⟨⟨2, ![100000, 128]⟩, Host.gather (rowDims 100000 128 wf) X I0⟩,
         ⟨⟨2, ![100000, 128]⟩, Host.gather (rowDims 100000 128 wf) X I1⟩] hc (ix2 q k) * x12 (ix2 k j))
      + x13 (ix1 j) = head X x3 x12 x13 (ix2 q j) := by
  unfold head
  refine congrArg (· + x13 (ix1 j)) (Finset.sum_congr rfl fun k _ => ?_)
  rw [cat_gather wf hc X I0 I1 q k, hI0, hI1]

/-! ### The reference's two index columns -/

/-- The first index column at row `q` holds the first label word of pair `q`. -/
private theorem column0 (x3 : Pairs 100000) (q : Fin 100000) (h0 : InRange (x3 (ix2 0 q))) :
    val_main_v70 (F := Ideal) x3 (ix2 q 0) = x3 (ix2 0 q) := by
  unfold val_main_v70 val_main_v69 val_main_v66 val_main_v68 val_main_v65 val_main_v67 val_main_c_8 val_main_c_9
    val_main_v64 val_main_v63
  exact column_of_inRange bcast_S_S100000 bcast_S100000_S100000x1_0 _ q _
    (label_row 0 0 rfl x3 slices_S2x100000_S1x100000_0_0 shapeCasts_S1x100000_S100000 q) h0

/-- The second index column at row `q` holds the second label word of pair `q`. -/
private theorem column1 (x3 : Pairs 100000) (q : Fin 100000) (h1 : InRange (x3 (ix2 1 q))) :
    val_main_v79 (F := Ideal) x3 (ix2 q 0) = x3 (ix2 1 q) := by
  unfold val_main_v79 val_main_v78 val_main_v75 val_main_v77 val_main_v74 val_main_v76 val_main_c_10 val_main_c_11
    val_main_v73 val_main_v72
  exact column_of_inRange bcast_S_S100000 bcast_S100000_S100000x1_0 _ q _
    (label_row 1 1 rfl x3 slices_S2x100000_S1x100000_1_0 shapeCasts_S1x100000_S100000 q) h1

variable (x0 : Mat 50000 128) (x1 : Pairs 500000) (x2 : Mat 500000 16) (x3 : Pairs 100000) (x4 : Mat 128 128) (x5 : Row 128)
  (x6 : Mat 272 128) (x7 : Row 128) (x8 : Mat 128 128) (x9 : Row 128) (x10 : Mat 272 128) (x11 : Row 128)
  (x12 : Mat 256 2) (x13 : Row 2)

theorem head_ref (q : Fin 100000) (j : Fin 2) (h0 : InRange (x3 (ix2 0 q))) (h1 : InRange (x3 (ix2 1 q))) :
    val_main_v85 (F := Ideal) x0 x1 x2 x3 x4 x5 x6 x7 x8 x9 x10 x11 x12 x13 (ix2 q j)
      = head (val_main_v62 (F := Ideal) x0 x1 x2 x4 x5 x6 x7 x8 x9 x10 x11) x3 x12 x13 (ix2 q j) := by
  -- the sum's operands are read at `(q, k)` and `(k, j)`, the bias at `j`
  have hl : ∀ k : Fin 256, lidx_main_v82 (ix2 q j) k = ix2 q k := fun k => funext fun a => Fin.ext (by
    match a with
    | ⟨0, _⟩ => rfl
    | ⟨1, _⟩ => rfl)
  have hr : ∀ k : Fin 256, ridx_main_v82 (ix2 q j) k = ix2 k j := fun k => funext fun a => Fin.ext (by
    match a with
    | ⟨0, _⟩ => rfl
    | ⟨1, _⟩ => rfl)
  have hb : idx_main_v83 (idx_main_v84 (ix2 q j)) = ix1 j := funext fun a => Fin.ext (by
    match a with
    | ⟨0, _⟩ => rfl)
  refine (val_main_v85_apply (F := Ideal) x0 x1 x2 x3 x4 x5 x6 x7 x8 x9 x10 x11 x12 x13 (ix2 q j)).trans ?_
  show val_main_v82 (F := Ideal) x0 x1 x2 x3 x4 x5 x6 x7 x8 x9 x10 x11 x12 (ix2 q j)
    + val_main_v84 (F := Ideal) x13 (ix2 q j) = _
  rw [val_main_v82_apply, val_main_v84_apply, val_main_v83_apply, hb]
  unfold val_main_v81 val_main_v71 val_main_v80
  generalize val_main_v62 (F := Ideal) x0 x1 x2 x4 x5 x6 x7 x8 x9 x10 x11 = X
  refine Eq.trans (congrArg (· + x13 (ix1 j)) (Finset.sum_congr rfl fun k _ => ?_))
    (head_of_cat gather_S50000x128_S100000x1_S100000x128_1_0_n_n_0_1_1128_wf
      concatenates_S100000x128_S100000x128_S100000x256_d1 X x3 (val_main_v70 (F := Ideal) x3)
      (val_main_v79 (F := Ideal) x3) x12 x13 q j (column0 x3 q h0) (column1 x3 q h1))
  rw [hl k, hr k]
  rfl

end Cert.ReferenceIdeal.RefValue

end
-- ==== Proof.ReferenceModel.lean ====
/-
  The reference program's result is the model of its arguments: its stages, read one by one, are the hidden rows, the
  messages (in the concatenated arrangement, equal to the model's where target and source are in range), their sums at
  the targets, the relu, the same again, and the head.
-/
import proofs.«422161_j25950192402497_2_alg».proof.Proof.RefLayer
import proofs.«422161_j25950192402497_2_alg».proof.Proof.RefHead
import proofs.«422161_j25950192402497_2_alg».proof.Proof.Arrangement

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx Cert.MessagePassing Cert.GatherRow

variable (x0 : Mat 50000 128) (x1 : Pairs 500000) (x2 : Mat 500000 16) (x3 : Pairs 100000) (x4 : Mat 128 128) (x5 : Row 128)
  (x6 : Mat 272 128) (x7 : Row 128) (x8 : Mat 128 128) (x9 : Row 128) (x10 : Mat 272 128) (x11 : Row 128)
  (x12 : Mat 256 2) (x13 : Row 2)

/-- The first layer's aggregation is the model's layer. -/
theorem layer1 (hsrc : ∀ e, InRange (x1 (ix2 0 e))) :
    val_main_v30 (F := Ideal) x0 x1 x2 x4 x5 x6 x7 = layer x0 x1 x2 x4 x5 x6 x7 := by
  rw [agg1]
  refine aggregate_eq_layer _ _ _ _ _ _ _ _ fun e k hd => ?_
  rw [message1 x0 x1 x2 x4 x5 x6 x7 e k hd (hsrc e), hidden1]

/-- The second layer's aggregation is the model's layer of the first layer's relu. -/
theorem layer2 (hsrc : ∀ e, InRange (x1 (ix2 0 e))) :
    val_main_v62 (F := Ideal) x0 x1 x2 x4 x5 x6 x7 x8 x9 x10 x11
      = layer (relu (layer x0 x1 x2 x4 x5 x6 x7)) x1 x2 x8 x9 x10 x11 := by
  rw [agg2]
  refine aggregate_eq_layer _ _ _ _ _ _ _ _ fun e k hd => ?_
  rw [message2 x0 x1 x2 x4 x5 x6 x7 x8 x9 x10 x11 e k hd (hsrc e), hidden2, relu1, layer1 x0 x1 x2 x4 x5 x6 x7 hsrc]

/-- The reference's result is the model of its arguments. -/
theorem result_eq_model (hsrc : ∀ e, InRange (x1 (ix2 0 e))) (hli : ∀ r q, InRange (x3 (ix2 r q))) :
    val_main_v85 (F := Ideal) x0 x1 x2 x3 x4 x5 x6 x7 x8 x9 x10 x11 x12 x13
      = model x0 x1 x2 x3 x4 x5 x6 x7 x8 x9 x10 x11 x12 x13 := by
  refine funext fun (i : (⟨2, ![100000, 2]⟩ : Shape).Idx) => ?_
  obtain ⟨q, j, rfl⟩ : ∃ (q : Fin 100000) (j : Fin 2), i = ix2 q j := ⟨i 0, i 1, eq_ix2 i⟩
  rw [head_ref x0 x1 x2 x3 x4 x5 x6 x7 x8 x9 x10 x11 x12 x13 q j (hli 0 q) (hli 1 q),
    layer2 x0 x1 x2 x4 x5 x6 x7 x8 x9 x10 x11 hsrc]
  rfl

end Cert.ReferenceIdeal.RefValue

end
-- ==== Proof.IndexRange.lean ====
/-
  What the precondition says about the index inputs.

  The precondition is a conjunction: every float input finite, every source index (row 0 of the edge index pairs) in
  `[0, 50000)`, and every label index (both rows of the label pairs) in `[0, 50000)`. The two index conjuncts are the
  outermost ones of the printed chain of `and`s; each is an `all` (a reduction by `and` from `true`) of the pointwise
  conjunction of a signed `≥ 0` and a signed `< 50000`.
-/
import proofs.«422161_j25950192402497_2_alg».proof.Pre_finite_inputs
import proofs.«422161_j25950192402497_2_alg».proof.Proof.MessagePassing
import Idealize.ShloMosaic.Lib.ReduceAll
import Idealize.ShloMosaic.Lib.StableHlo.Predicate
import Idealize.ShloMosaic.Lib.ValueLayout

noncomputable section

namespace Cert.IndexRange

open Idealize.ShloMosaic Idealize.ShloMosaic.ValueIdx Cert.MessagePassing Cert.Pre_finite_inputs

variable [Cert.Pre_finite_inputs.Facts]

/-- The result of a reduction over every axis has one index. -/
private instance : Subsingleton S_.Idx := ⟨fun a b => funext fun d => d.elim0⟩

/-- A word that passes the signed tests `≥ 0` and `< 50000` is in the node range. -/
private theorem inRange_of_tests (w : BitVec 32)
    (h : IntOp.andi (IntOp.cmpi .sge w 0#32) (IntOp.cmpi .slt w 50000#32) = 1#1) : InRange w := by
  obtain ⟨h0, h1⟩ := IntOp.andi_eq_one.1 h
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (50000#32 : BitVec 32).toInt = 50000 := by decide
  rw [e0] at h0
  rw [e1] at h1
  exact ⟨h0, h1⟩

/-- The pointwise range test of an index array, against the two broadcast constants, read at one element. -/
private theorem inRange_of_all {s : Shape} {axes : List (Fin s.rank)} (x : IVec s 32) (hb : S_.BroadcastsInDim s (![] : Fin 0 → Fin s.rank))
    (hr : s.ReducesTo axes S_) (hu : 0 < S_.numel)
    (h : Host.reduce IntOp.andi
          (andi (cmpi .sge x (broadcastInDim s ![] hb (constantI S_ 32 0#32)))
                (cmpi .slt x (broadcastInDim s ![] hb (constantI S_ 32 50000#32))))
          (constantI S_ 1 1#1) hr hu ix0 = 1#1) (i : s.Idx) : InRange (x i) :=
  inRange_of_tests (x i) (Host.reduce_andi_all _ _ hr hu ix0 h i)

/-- Row 0 of a pair array, sliced out and flattened, read at `e` is the array at `(0, e)`. -/
private theorem row0_apply (x : IVec S2x500000 32) (hs : S2x500000.Slices ![0, 0] S1x500000) (hc : S1x500000.ShapeCasts S500000)
    (e : Fin 500000) :
    shapeCast S500000 ((fun y => extractStridedSlice S1x500000 ![0, 0] y hs) x) hc (ix1 e) = x (ix2 0 e) := by
  refine (shapeCast_1a_a_apply _ hc e).trans ?_
  refine extractStridedSlice_apply ![0, 0] x hs _ _ fun a => ?_
  match a with
  | ⟨0, _⟩ => rfl
  | ⟨1, _⟩ => show e.val = 0 + e.val; omega

/-- Under the precondition every source index is in the node range. -/
theorem src_inRange (a0 : FVec Ideal S50000x128 .f32) (a1 : IVec S2x500000 32) (a2 : FVec Ideal S500000x16 .f32)
    (a3 : IVec S2x100000 32) (a4 : FVec Ideal S128x128 .f32) (a5 : FVec Ideal S128 .f32) (a6 : FVec Ideal S272x128 .f32)
    (a7 : FVec Ideal S128 .f32) (a8 : FVec Ideal S128x128 .f32) (a9 : FVec Ideal S128 .f32) (a10 : FVec Ideal S272x128 .f32)
    (a11 : FVec Ideal S128 .f32) (a12 : FVec Ideal S256x2 .f32) (a13 : FVec Ideal S2 .f32)
    (h : Cert.Pre_finite_inputs.fn (F := Ideal) a0 a1 a2 a3 a4 a5 a6 a7 a8 a9 a10 a11 a12 a13 = fun _ => 1#1)
    (e : Fin 500000) : InRange ((a1 : Pairs 500000) (ix2 0 e)) := by
  -- the precondition at its one index is `(finite ∧ sources) ∧ labels`: keep the middle conjunct
  obtain ⟨h12, -⟩ := IntOp.andi_eq_one.1 (congrFun h ix0)
  obtain ⟨-, h2⟩ := IntOp.andi_eq_one.1 h12
  have hr := inRange_of_all _ _ _ _ h2 (ix1 e)
  rw [row0_apply] at hr
  exact hr

/-- Under the precondition every label index, of either row, is in the node range. -/
theorem label_inRange (a0 : FVec Ideal S50000x128 .f32) (a1 : IVec S2x500000 32) (a2 : FVec Ideal S500000x16 .f32)
    (a3 : IVec S2x100000 32) (a4 : FVec Ideal S128x128 .f32) (a5 : FVec Ideal S128 .f32) (a6 : FVec Ideal S272x128 .f32)
    (a7 : FVec Ideal S128 .f32) (a8 : FVec Ideal S128x128 .f32) (a9 : FVec Ideal S128 .f32) (a10 : FVec Ideal S272x128 .f32)
    (a11 : FVec Ideal S128 .f32) (a12 : FVec Ideal S256x2 .f32) (a13 : FVec Ideal S2 .f32)
    (h : Cert.Pre_finite_inputs.fn (F := Ideal) a0 a1 a2 a3 a4 a5 a6 a7 a8 a9 a10 a11 a12 a13 = fun _ => 1#1)
    (r : Fin 2) (q : Fin 100000) : InRange ((a3 : Pairs 100000) (ix2 r q)) := by
  -- the labels' test is the outermost conjunct
  obtain ⟨-, h3⟩ := IntOp.andi_eq_one.1 (congrFun h ix0)
  exact inRange_of_all _ _ _ _ h3 (ix2 r q)

end Cert.IndexRange

end
-- ==== Proof.lean ====
/-
  Two-layer message passing with a link-prediction head: the tiled kernel program against its plain reference, over
  the extended reals.

  Both programs compute, for every query pair, `[x(first) | x(second)] · W_lp + b_lp` where `x` is two rounds of
  "hidden rows `relu (x · W_pre + b_pre)`, one message per edge, messages summed at their target nodes", with a relu
  between the rounds. The reference forms an edge's message as the product of the concatenated row
  `[h(dst) | h(src) | ef]` with `W_msg`; the kernel program forms `h · W_msg[0:128]` and `h · W_msg[128:256]` once per
  node (one kernel), reads them at the edge's target and source, and adds `ef · W_msg[256:272]` and the bias (a second
  kernel): a sum over 272 coordinates is the sum of its three ranges, so the two messages are equal. The kernel
  program's row reads replace an out-of-range row by a fill value where the reference's clamp the index: the
  precondition keeps the source indices and the label indices in range, where both are the plain row read, and an
  edge whose TARGET index is out of range contributes to no node's sum in either program, so its message is never
  compared. Each frame is the generated one (the reference's: its run, proved stretch by stretch, with the result dropped); the kernel
  program's run with its result named is the generated launch called again; nothing was rewritten by the
  idealization, so that claim is trivial.
-/
import proofs.«422161_j25950192402497_2_alg».proof.Defs
import proofs.«422161_j25950192402497_2_alg».proof.Proof.Gen.Kernel
import proofs.«422161_j25950192402497_2_alg».proof.Proof.Gen.Kernel.Skeleton
import proofs.«422161_j25950192402497_2_alg».proof.Proof.Gen.Kernel.Launch
import proofs.«422161_j25950192402497_2_alg».proof.Proof.Gen.Kernel.Points
import proofs.«422161_j25950192402497_2_alg».proof.Proof.Gen.Kernel.Frame
import proofs.«422161_j25950192402497_2_alg».proof.Proof.Gen.KernelIdeal
import proofs.«422161_j25950192402497_2_alg».proof.Proof.Gen.KernelIdeal.Skeleton
import proofs.«422161_j25950192402497_2_alg».proof.Proof.Gen.KernelIdeal.Launch
import proofs.«422161_j25950192402497_2_alg».proof.Proof.Gen.KernelIdeal.Points
import proofs.«422161_j25950192402497_2_alg».proof.Proof.Gen.KernelIdeal.Frame
import proofs.«422161_j25950192402497_2_alg».proof.Proof.Gen.ReferenceIdeal
import proofs.«422161_j25950192402497_2_alg».proof.Proof.ReferenceRun
import proofs.«422161_j25950192402497_2_alg».proof.Proof.Gen.Pre_finite_inputs
import proofs.«422161_j25950192402497_2_alg».proof.Proof.KernelRun
import proofs.«422161_j25950192402497_2_alg».proof.Proof.KernelModel
import proofs.«422161_j25950192402497_2_alg».proof.Proof.ReferenceModel
import proofs.«422161_j25950192402497_2_alg».proof.Proof.IndexRange
import Idealize.ShloMosaic.Adequacy
import Idealize.ShloMosaic.Init

noncomputable section

namespace Cert.Proof

open Idealize.ShloMosaic Idealize.ShloMosaic.TcCoe Idealize.ShloMosaic.ValueIdx Idealize.SL.Sem Cert.MessagePassing

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments, both idealized programs end with the model of those arguments. -/
theorem algebraic : Cert.algebraic_KernelIdeal_ReferenceIdeal := by
  intro m ρ m' ρ' hpre hagree
  refine ⟨fun c => Cert.KernelIdeal.Gen.W20 m ρ c (Proc.devRef .tc Cert.KernelIdeal.main_v45),
    Cert.KernelIdeal.Value.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  -- the precondition keeps the source indices and the label indices in the node range
  have hsrc : ∀ e : Fin 500000, InRange ((m ((c.tc : Thread Cert.KernelIdeal.nD Cert.KernelIdeal.τ).loc
      Cert.KernelIdeal.main_arg1) : Pairs 500000) (ix2 0 e)) :=
    fun e => Cert.IndexRange.src_inRange _ _ _ _ _ _ _ _ _ _ _ _ _ _ (hpre c) e
  have hli : ∀ (r : Fin 2) (q : Fin 100000), InRange ((m ((c.tc : Thread Cert.KernelIdeal.nD Cert.KernelIdeal.τ).loc
      Cert.KernelIdeal.main_arg3) : Pairs 100000) (ix2 r q)) :=
    fun r q => Cert.IndexRange.label_inRange _ _ _ _ _ _ _ _ _ _ _ _ _ _ (hpre c) r q
  obtain ⟨h0, h1, h2, h3, h4, h5, h6, h7, h8, h9, h10, h11, h12, h13⟩ := hagree c
  rw [h0, h1, h2, h3, h4, h5, h6, h7, h8, h9, h10, h11, h12, h13]
  exact (Cert.ReferenceIdeal.RefValue.result_eq_model _ _ _ _ _ _ _ _ _ _ _ _ _ _ hsrc hli).trans
    (Cert.KernelIdeal.Value.result_eq_model m ρ c hsrc hli).symm

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
